-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096x32 : Shape := ⟨2, ![4096, 32]⟩
abbrev S4096 : Shape := ⟨1, ![4096]⟩
abbrev S4096x2048 : Shape := ⟨2, ![4096, 2048]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x2048x4096 .f32) (main_arg1 : FVec F S4096x4096 .f32) (main_arg2 : FVec F S4096x32 .f32) (main_arg3 : FVec F S4096 .f32) (main_arg4 : IVec S4096x2048 32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x2048x4096 : Shape := ⟨3, ![2, 2048, 4096]⟩
abbrev S4096x4096 : Shape := ⟨2, ![4096, 4096]⟩
abbrev S4096x32 : Shape := ⟨2, ![4096, 32]⟩
abbrev S4096 : Shape := ⟨1, ![4096]⟩
abbrev S4096x2048 : Shape := ⟨2, ![4096, 2048]⟩
abbrev S2048x512 : Shape := ⟨2, ![2048, 512]⟩
abbrev S512x2048 : Shape := ⟨2, ![512, 2048]⟩
abbrev S2048x2048 : Shape := ⟨2, ![2048, 2048]⟩
abbrev S256x2048 : Shape := ⟨2, ![256, 2048]⟩
abbrev S256x32 : Shape := ⟨2, ![256, 32]⟩
abbrev S256x4096 : Shape := ⟨2, ![256, 4096]⟩
abbrev S256x2048x1 : Shape := ⟨3, ![256, 2048, 1]⟩
abbrev S256x2048x2 : Shape := ⟨3, ![256, 2048, 2]⟩
abbrev S256x32x128 : Shape := ⟨3, ![256, 32, 128]⟩
abbrev S256x32x1 : Shape := ⟨3, ![256, 32, 1]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 11
  | .vmem => 22
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x32, .f32⟩
  | .hbm, ⟨3, _⟩ => ⟨S4096, .f32⟩
  | .hbm, ⟨4, _⟩ => ⟨S4096x2048, .i32⟩
  | .hbm, ⟨5, _⟩ => ⟨S4096x4096, .f32⟩
  | .hbm, ⟨6, _⟩ => ⟨S4096x4096, .bf16⟩
  | .hbm, ⟨7, _⟩ => ⟨S4096x4096, .bf16⟩
  | .hbm, ⟨8, _⟩ => ⟨S1x4096, .f32⟩
  | .hbm, ⟨9, _⟩ => ⟨S4096x4096, .f32⟩
  | .hbm, ⟨10, _⟩ => ⟨S2x2048x4096, .f32⟩
  | .local _ .vmem, ⟨0, _⟩ => ⟨S2048x512, .f32⟩
  | .local _ .vmem, ⟨1, _⟩ => ⟨S2048x512, .f32⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S2048x2048, .bf16⟩
  | .local _ .vmem, ⟨6, _⟩ => ⟨S2048x2048, .f32⟩
  | .local _ .vmem, ⟨7, _⟩ => ⟨S256x2048, .i32⟩
  | .local _ .vmem, ⟨8, _⟩ => ⟨S256x2048, .i32⟩
  | .local _ .vmem, ⟨9, _⟩ => ⟨S256x32, .f32⟩
  | .local _ .vmem, ⟨10, _⟩ => ⟨S256x32, .f32⟩
  | .local _ .vmem, ⟨11, _⟩ => ⟨S256x4096, .bf16⟩
  | .local _ .vmem, ⟨12, _⟩ => ⟨S256x4096, .bf16⟩
  | .local _ .vmem, ⟨13, _⟩ => ⟨S2048x1024, .bf16⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S2048x1024, .f32⟩
  | .local _ .vmem, ⟨20, _⟩ => ⟨S2048x1024, .f32⟩
  | .local _ .vmem, ⟨21, _⟩ => ⟨S2048x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![2, 4, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S2048x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S2x2048x4096_S4096x4096 : S2x2048x4096.ShapeCasts S4096x4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  packedbf16_S2048x2048_S2048x2048_0_0 : (Rect.unit (s := S2048x2048) ![0, 0] S2048x2048.size inb_S2048x2048_S2048x2048_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048x1 : S256x2048.ShapeCasts S256x2048x1
  concatenates_S256x2048x1_S256x2048x1_S256x2048x2_d2 : Shape.Concatenates [S256x2048x1, S256x2048x1] S256x2048x2 2
  shapeCasts_S256x2048x2_S256x4096 : S256x2048x2.ShapeCasts S256x4096
  inb_S256x32_S256x32_0_0 : ∀ a, (![0, 0] : Fin 2 → Nat) a + S256x32.size a ≤ S256x32.size a
  h_S256x32 : 0 < S256x32.numel
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S4096x4096_S2x2048x4096 : S4096x4096.ShapeCasts S2x2048x4096
  dot_S2048x512_S512x2048_S2048x2048_1_0_0_1_n_n_wf : DotDims.WF S2048x512 S512x2048 S2048x2048 [1] [0] [0] [1] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S4096x4096.size a
  hwx0_2 : ∀ i : grid0.Coords, EltTy.bits .bf16 = 32 ∨ (Rect.block (s := S4096x4096) S2048x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .i32 = 32 ∨ (Rect.block (s := S4096x2048) S256x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x32.size a ≤ S4096x32.size a
  hwx1_1 : ∀ i : grid1.Coords, EltTy.bits .f32 = 32 ∨ (Rect.block (s := S4096x32) S256x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .bf16 = 32 ∨ (Rect.block (s := S4096x4096) S256x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S4096x4096.size a
  hwx2_0 : ∀ i : grid2.Coords, EltTy.bits .bf16 = 32 ∨ (Rect.block (s := S4096x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S4096x4096.size a
  hwx2_3 : ∀ i : grid2.Coords, EltTy.bits .f32 = 32 ∨ (Rect.block (s := S4096x4096) S2048x1024.size (cc2_transform_3 i) (hinb2_3 i)).WholeWords (EltTy.packing .f32)

variable [Facts₀]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg4) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096x32 : Shape := ⟨2, ![4096, 32]⟩
abbrev S4096 : Shape := ⟨1, ![4096]⟩
abbrev S4096x2048 : Shape := ⟨2, ![4096, 2048]⟩
abbrev S_ : Shape := ⟨0, ![]⟩
abbrev S4096x2048x1 : Shape := ⟨3, ![4096, 2048, 1]⟩
abbrev S4096x2048x2 : Shape := ⟨3, ![4096, 2048, 2]⟩
abbrev S4096x32x128 : Shape := ⟨3, ![4096, 32, 128]⟩
abbrev S4096x32x1 : Shape := ⟨3, ![4096, 32, 1]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096x32, .f32⟩
  | .hbm, ⟨3, _⟩ => ⟨S4096, .f32⟩
  | .hbm, ⟨4, _⟩ => ⟨S4096x2048, .i32⟩
  | .hbm, ⟨5, _⟩ => ⟨S4096x4096, .f32⟩
  | .hbm, ⟨6, _⟩ => ⟨S4096x4096, .f32⟩
  | .hbm, ⟨7, _⟩ => ⟨S_, .i32⟩
  | .hbm, ⟨8, _⟩ => ⟨S4096x2048, .i32⟩
  | .hbm, ⟨9, _⟩ => ⟨S4096x2048, .i32⟩
  | .hbm, ⟨10, _⟩ => ⟨S_, .i32⟩
  | .hbm, ⟨11, _⟩ => ⟨S4096x2048, .i32⟩
  | .hbm, ⟨12, _⟩ => ⟨S4096x2048, .i32⟩
  | .hbm, ⟨13, _⟩ => ⟨S_, .i32⟩
  | .hbm, ⟨14, _⟩ => ⟨S4096x2048, .i32⟩
  | .hbm, ⟨15, _⟩ => ⟨S4096x2048, .i32⟩
  | .hbm, ⟨16, _⟩ => ⟨S4096x2048x1, .i32⟩
  | .hbm, ⟨17, _⟩ => ⟨S4096x2048x1, .i32⟩
  | .hbm, ⟨18, _⟩ => ⟨S4096x2048x2, .i32⟩
  | .hbm, ⟨19, _⟩ => ⟨S4096x4096, .i32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x32x128, .f32⟩
  | .hbm, ⟨25, _⟩ => ⟨S4096x32x1, .f32⟩
  | .hbm, ⟨26, _⟩ => ⟨S4096x32x128, .f32⟩
  | .hbm, ⟨27, _⟩ => ⟨S4096x32x128, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  shapeCasts_S2x2048x4096_S4096x4096 : S2x2048x4096.ShapeCasts S4096x4096
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S2x2048x4096 : S4096x4096.ShapeCasts S2x2048x4096
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.BRot.lean ====
/-
  Region 0: the rotation product, a [4096, 4096] x [4096, 4096] matrix product computed on a 2 x 2 x 8 grid.
  Point t = (i, j, k) reads the 2048 x 512 block (i, k) of the left factor and the 512 x 2048 block (k, j) of the
  right factor; a 2048 x 2048 accumulator kept between points is cleared when k = 0, takes the block product at
  every point, and is written to output block (i, j) when k = 7. Everything here is stated at a parameter V: what
  the core's buffers hold when the region is entered.
-/
import proofs.«415251_j21182778703901_2_alg».proof.Proof.Gen.Kernel.Launch
import proofs.«415251_j21182778703901_2_alg».proof.Proof.Gen.Kernel.Skeleton
import proofs.«415251_j21182778703901_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Rot

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditionals, in closed form over the grid -/

/-- The first conditional's test, from the grid coordinates: the point opens a run of eight (k = 0). -/
abbrev opensRun (i : grid0.Coords) : Prop :=
  (Scalar.cmpi .ne (Scalar.extui (Scalar.cmpi .eq (BitVec.ofNat 32 (i 2).val) 0#32)) 0#32) = 1#1
theorem opensRun_iff : ∀ t : Fin cfg0.N, opensRun (grid0.coords t) ↔ t.val % 8 = 0 :=
  (by decide +kernel : ∀ t : Fin grid0.N, opensRun (grid0.coords t) ↔ t.val % 8 = 0)
/-- The second conditional's test: the point closes a run of eight (k = 7). -/
abbrev closesRun (i : grid0.Coords) : Prop := k0_cond2 i = 1#1
theorem closesRun_iff : ∀ t : Fin cfg0.N, closesRun (grid0.coords t) ↔ t.val % 8 = 7 :=
  (by decide +kernel : ∀ t : Fin grid0.N, closesRun (grid0.coords t) ↔ t.val % 8 = 7)

/-- The inputs' windows are never idle; the output's is idle exactly where the run is not closed, and there it is
    not written back. -/
theorem live_0 : ∀ t : Fin cfg0.N, cfg0.idle 0 (grid0.coords t) = false := by decide +kernel
theorem live_1 : ∀ t : Fin cfg0.N, cfg0.idle 1 (grid0.coords t) = false := by decide +kernel
theorem idle_2 : ∀ t : Fin cfg0.N, ¬closesRun (grid0.coords t) → cfg0.idle 2 (grid0.coords t) = true := by decide +kernel
theorem noFlush_2 : ∀ t : Fin cfg0.N, ¬closesRun (grid0.coords t) → (cfg0.win 2).flush t = false := by decide +kernel
theorem live_2 : ∀ t : Fin cfg0.N, closesRun (grid0.coords t) → cfg0.idle 2 (grid0.coords t) = false := by decide +kernel

/-! ## The kernel on any whole memrefs, case by case -/

/-- Every access of the body is at offsets zero. -/
theorem offs_zero : (![0, 0] : Fin 2 → Nat) = fun _ => 0 := funext fun a => by fin_cases a <;> rfl

/-- A store of a whole 2048 x 2048 block, made last, covers it. -/
theorem cover_last {e : EltTy} (p : Vec F S2048x2048 e) (L : List (View.Piece (Elt F) S2048x2048 e)) (y : S2048x2048.Idx) :
    ∃ pc ∈ ((⟨Rect.unit (s := S2048x2048) ![0, 0] S2048x2048.size inb_S2048x2048_S2048x2048_0_0, p⟩ : View.Piece (Elt F) S2048x2048 e) :: L), y ∈ pc.1.set :=
  ⟨_, List.mem_cons_self, View.mem_set_unit_zero offs_zero inb_S2048x2048_S2048x2048_0_0 y⟩

set_option maxHeartbeats 1000000 in
/-- A point that opens a run and does not close it: the accumulator, whatever it held, is cleared and takes the
    block product; the output's memref is not touched. -/
theorem run_open (c : Dev nD) (i : grid0.Coords) (arg3 : Memref sig .tc .vmem S2048x512 .f32) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S2048x2048 .f32) (harg6 : arg6.IsWhole)
    (ho : opensRun i) (hcl : ¬closesRun i)
    (x : Vec F S2048x512 .f32) (h : Vec F S512x2048 .f32) (E : Set ℕ) (K : PUnit → sProp 𝕄) :
    iprop(owns (c : Thread nD τ) arg3 fullShare x ∗ owns (c : Thread nD τ) arg4 fullShare h ∗ (∃ d, owns (c : Thread nD τ) arg6 fullShare d)
        ∗ (iprop(owns (c : Thread nD τ) arg3 fullShare x ∗ owns (c : Thread nD τ) arg4 fullShare h ∗ owns (c : Thread nD τ) arg6 fullShare (k0_pay2 x h k0_pay1)) -∗ K ⟨⟩))
      ⊢ wp frame (wpE (defs₀ (F := F)) Variants.none c none) E (cc0__rotate_kernel i arg3 harg3 arg4 harg4 arg5 harg5 arg6 harg6) K := by
  simp only [cc0__rotate_kernel_eq_skeleton]; unfold cc0__rotate_kernel_skel
  unfold owns
  iintro ⟨⟨%f0, %hf0, H0⟩, ⟨%f1, %hf1, H1⟩, ⟨%d, %fs, -, HS⟩, Hk⟩
  subst hf0; subst hf1
  sl_exec (disch := first | exact ho | exact hcl)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (cover_last _ _), View.canon_cons_unit_zero offs_zero]
  simp only [View.readAt_eq_ld, View.ld_unit_zero (S := S2048x512) offs_zero, View.ld_unit_zero (S := S512x2048) offs_zero, View.readCov_unit_zero (S := S2048x2048) _ offs_zero]

set_option maxHeartbeats 1000000 in
/-- A point inside a run: the accumulator takes the block product; the output's memref is not touched. -/
theorem run_mid (c : Dev nD) (i : grid0.Coords) (arg3 : Memref sig .tc .vmem S2048x512 .f32) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S2048x2048 .f32) (harg6 : arg6.IsWhole)
    (ho : ¬opensRun i) (hcl : ¬closesRun i)
    (x : Vec F S2048x512 .f32) (h : Vec F S512x2048 .f32) (a : Vec F S2048x2048 .f32) (E : Set ℕ) (K : PUnit → sProp 𝕄) :
    iprop(owns (c : Thread nD τ) arg3 fullShare x ∗ owns (c : Thread nD τ) arg4 fullShare h ∗ owns (c : Thread nD τ) arg6 fullShare a
        ∗ (iprop(owns (c : Thread nD τ) arg3 fullShare x ∗ owns (c : Thread nD τ) arg4 fullShare h ∗ owns (c : Thread nD τ) arg6 fullShare (k0_pay2 x h a)) -∗ K ⟨⟩))
      ⊢ wp frame (wpE (defs₀ (F := F)) Variants.none c none) E (cc0__rotate_kernel i arg3 harg3 arg4 harg4 arg5 harg5 arg6 harg6) K := by
  simp only [cc0__rotate_kernel_eq_skeleton]; unfold cc0__rotate_kernel_skel
  unfold owns
  iintro ⟨⟨%f0, %hf0, H0⟩, ⟨%f1, %hf1, H1⟩, ⟨%fs, %hfs, HS⟩, Hk⟩
  subst hf0; subst hf1; subst hfs
  sl_exec (disch := first | exact ho | exact hcl)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (cover_last _ _), View.canon_cons_unit_zero offs_zero]
  simp only [View.readAt_eq_ld, View.ld_unit_zero (S := S2048x512) offs_zero, View.ld_unit_zero (S := S512x2048) offs_zero, View.ld_unit_zero (S := S2048x2048) offs_zero]

set_option maxHeartbeats 1000000 in
/-- A point that closes a run: the accumulator takes the block product, and the output's memref, whatever it
    held, is stored with the accumulator rounded to bf16. -/
theorem run_close (c : Dev nD) (i : grid0.Coords) (arg3 : Memref sig .tc .vmem S2048x512 .f32) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S2048x2048 .f32) (harg6 : arg6.IsWhole)
    (ho : ¬opensRun i) (hcl : closesRun i)
    (x : Vec F S2048x512 .f32) (h : Vec F S512x2048 .f32) (a : Vec F S2048x2048 .f32) (E : Set ℕ) (K : PUnit → sProp 𝕄) :
    iprop(owns (c : Thread nD τ) arg3 fullShare x ∗ owns (c : Thread nD τ) arg4 fullShare h ∗ (∃ d, owns (c : Thread nD τ) arg5 fullShare d) ∗ owns (c : Thread nD τ) arg6 fullShare a
        ∗ (iprop(owns (c : Thread nD τ) arg3 fullShare x ∗ owns (c : Thread nD τ) arg4 fullShare h ∗ owns (c : Thread nD τ) arg5 fullShare (k0_pay3 (k0_pay2 x h a)) ∗ owns (c : Thread nD τ) arg6 fullShare (k0_pay2 x h a)) -∗ K ⟨⟩))
      ⊢ wp frame (wpE (defs₀ (F := F)) Variants.none c none) E (cc0__rotate_kernel i arg3 harg3 arg4 harg4 arg5 harg5 arg6 harg6) K := by
  simp only [cc0__rotate_kernel_eq_skeleton]; unfold cc0__rotate_kernel_skel
  unfold owns
  iintro ⟨⟨%f0, %hf0, H0⟩, ⟨%f1, %hf1, H1⟩, ⟨%d, %f2, -, H2⟩, ⟨%fs, %hfs, HS⟩, Hk⟩
  subst hf0; subst hf1; subst hfs
  sl_exec (disch := first | exact ho | exact hcl)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (cover_last _ _), View.canon_cons_unit_zero offs_zero]
    simp only [View.readAt_eq_ld, View.ld_unit_zero (S := S2048x512) offs_zero, View.ld_unit_zero (S := S512x2048) offs_zero, View.ld_unit_zero (S := S2048x2048) offs_zero, View.readCov_unit_zero (S := S2048x2048) _ offs_zero]
  iexists _; isplitr
  swap; · iexact HS
  ipureintro
  sl_unfold_run_names
  rw [View.read_writes_eq_canon _ _ _ (cover_last _ _), View.canon_cons_unit_zero offs_zero]
  simp only [View.readAt_eq_ld, View.ld_unit_zero (S := S2048x512) offs_zero, View.ld_unit_zero (S := S512x2048) offs_zero, View.ld_unit_zero (S := S2048x2048) offs_zero]

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point n: the block product of point n added to zero when the point opens a run of
    eight (k = 0), else to what the point before left. -/
def accAt (c : Dev nD) : (n : ℕ) → n < cfg0.N → Vec F S2048x2048 .f32
  | 0, h => k0_pay2 (iblk V c 0 ⟨0, h⟩) (iblk V c 1 ⟨0, h⟩) k0_pay1
  | n + 1, h => k0_pay2 (iblk V c 0 ⟨n + 1, h⟩) (iblk V c 1 ⟨n + 1, h⟩)
      (if (n + 1) % 8 = 0 then k0_pay1 else accAt c n (Nat.lt_of_succ_lt h))

theorem accAt_first (c : Dev nD) (t : Fin cfg0.N) (h : t.val % 8 = 0) :
    accAt V c t.val t.isLt = k0_pay2 (iblk V c 0 t) (iblk V c 1 t) k0_pay1 := by
  obtain ⟨n, hn⟩ := t
  cases n with
  | zero => rfl
  | succ n => exact congrArg (k0_pay2 (iblk V c 0 ⟨n + 1, hn⟩) (iblk V c 1 ⟨n + 1, hn⟩)) (if_pos h)

theorem accAt_next (c : Dev nD) (t : Fin cfg0.N) (h : t.val % 8 ≠ 0) :
    accAt V c t.val t.isLt = k0_pay2 (iblk V c 0 t) (iblk V c 1 t) (accAt V c (t.val - 1) (Nat.lt_of_le_of_lt (Nat.sub_le _ _) t.isLt)) := by
  obtain ⟨n, hn⟩ := t
  cases n with
  | zero => exact absurd (Nat.zero_mod 8) h
  | succ n => exact congrArg (k0_pay2 (iblk V c 0 ⟨n + 1, hn⟩) (iblk V c 1 ⟨n + 1, hn⟩)) (if_neg h)

/-- The scoped buffers of the core other than this region's staging buffers and its accumulator, each at some
    contents: the other two regions' staging buffers and the last region's accumulator. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The accumulator as the kernel is handed it. -/
abbrev accM : Memref sig .tc .vmem S2048x2048 .f32 := Memref.whole cc0_scratch0

/-- The class's region invariant with the accumulator split off the other scoped buffers. -/
theorem PhiA_eq (c : Dev nD) :
    (Pipeline.ΦA spec0 c : sProp 𝕄) = iprop(((∃ d, owns (c : Thread nD τ) accM fullShare d) ∗ others (F := F) c) ∗ (∃ r, prngReg c r)) := by
  unfold Pipeline.ΦA others; rw [scopedRest0_eq]; simp only [accM, owns_whole]; rfl

/-- The region invariant before position n: before the first point the class's (the accumulator at anything);
    afterwards the accumulator at what the point before left. -/
def Phi (c : Dev nD) : (n : ℕ) → n ≤ cfg0.N → sProp 𝕄
  | 0, _ => Pipeline.ΦA spec0 c
  | n + 1, hn => iprop((owns (c : Thread nD τ) accM fullShare (accAt V c n hn) ∗ others (F := F) c) ∗ (∃ r, prngReg c r))

/-- Before a position that is not the first: the accumulator at what the point before left. -/
theorem Phi_pos (c : Dev nD) (n : ℕ) (h : n ≤ cfg0.N) (hz : n ≠ 0) :
    Phi V c n h = iprop((owns (c : Thread nD τ) accM fullShare (accAt V c (n - 1) (by omega)) ∗ others (F := F) c) ∗ (∃ r, prngReg c r)) := by
  cases n with
  | zero => exact absurd rfl hz
  | succ n => rfl

/-- The proof data of pipeline 0 on core c. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (accAt V c t.val t.isLt)
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay3 (accAt V c t.val t.isLt) := by dsimp only [dat]

/-! ## The invariant at a point, and what the inputs' buffers hold -/

/-- After point n (before point n + 1): the accumulator at that point's contents. -/
theorem Phi_succ (c : Dev nD) (n : ℕ) (hn : n < cfg0.N) :
    Phi V c (n + 1) hn = iprop((owns (c : Thread nD τ) accM fullShare (accAt V c n hn) ∗ others (F := F) c) ∗ (∃ r, prngReg c r)) := rfl

/-- At any position the invariant gives the accumulator at something, the other scoped buffers and the generator
    register. -/
theorem Phi_some (c : Dev nD) (n : ℕ) (h : n ≤ cfg0.N) :
    Phi V c n h ⊢ iprop(((∃ d, owns (c : Thread nD τ) accM fullShare d) ∗ others (F := F) c) ∗ (∃ r, prngReg c r)) := by
  cases n with
  | zero => rw [show Phi V c 0 h = Pipeline.ΦA spec0 c from rfl, PhiA_eq]
  | succ n =>
    rw [Phi_succ]
    iintro ⟨⟨HS, Ho⟩, Hg⟩
    isplitl [HS Ho]
    · isplitl [HS]
      · iexists _; iexact HS
      iexact Ho
    iexact Hg

/-- The invariant at a point's start, restated at t.val. -/
theorem Phi_castSucc (c : Dev nD) (t : Fin cfg0.N) :
    (dat V c).Φ t.castSucc = Phi V c t.val (Nat.le_of_lt t.isLt) := by
  dsimp only [dat]; simp only [Fin.coe_castSucc]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point, by the point's place in its run of eight. The inputs' memrefs hold their blocks; the
    invariant hands over the accumulator (at anything where a run opens, else at what the point before left) and
    takes it back at this point's contents; where the run is not closed the output's buffer passes through as it was
    found; where it is closed it is stored with the rounded accumulator. The core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = Phi V c (t.val + 1) t.isLt from rfl, Phi_succ, Phi_castSucc]
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  by_cases h0 : t.val % 8 = 0
  · have ho : opensRun (grid0.coords t) := (opensRun_iff t).mpr h0
    have hcl : ¬closesRun (grid0.coords t) := fun hh => by have := (closesRun_iff t).mp hh; omega
    rw [Dat.leavesExact_idle (dat V c) 2 t (idle_2 t hcl) (noFlush_2 t hcl), accAt_first V c t h0]
    iintro ⟨HP, Ho, ⟨%d0, H0⟩, ⟨%d1, H1⟩, H2⟩
    ihave HQ := (Phi_some V c t.val (Nat.le_of_lt t.isLt)) $$ HP
    icases HQ with ⟨⟨⟨%d, HS⟩, Hoth⟩, Hg⟩
    iapply (run_open c (grid0.coords t) _ _ _ _ _ _ _ _ ho hcl (iblk V c 0 t) (iblk V c 1 t) Set.univ _)
    isplitl [H0]; · iexact H0
    isplitl [H1]; · iexact H1
    isplitl [HS]; · iexists _; iexact HS
    iintro ⟨H0, H1, HS⟩
    isplitl [HS Hoth Hg]
    · isplitl [HS Hoth]
      · isplitl [HS]
        · iexact HS
        iexact Hoth
      iexact Hg
    isplitl [Ho]; · iexact Ho
    isplitl [H0]; · iexact H0
    isplitl [H1]; · iexact H1
    iexact H2
  · have ho : ¬opensRun (grid0.coords t) := fun hh => h0 ((opensRun_iff t).mp hh)
    have hz : t.val ≠ 0 := fun hh => h0 (by rw [hh])
    rw [Phi_pos V c _ _ hz, accAt_next V c t h0]
    by_cases h7 : t.val % 8 = 7
    · have hcl : closesRun (grid0.coords t) := (closesRun_iff t).mpr h7
      rw [show (dat V c).leavesExact 2 t = owns (c : Thread nD τ) (st0_2 t) fullShare ((dat V c).after 2 t) from by
        unfold Dat.leavesExact; rw [live_2 t hcl], after_2, accAt_next V c t h0]
      iintro ⟨⟨⟨HS, Hoth⟩, Hg⟩, Ho, ⟨%d0, H0⟩, ⟨%d1, H1⟩, ⟨%d2, H2⟩⟩
      iapply (run_close c (grid0.coords t) _ _ _ _ _ _ _ _ ho hcl (iblk V c 0 t) (iblk V c 1 t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]
          · iexact HS
          iexact Hoth
        iexact Hg
      isplitl [Ho]; · iexact Ho
      isplitl [H0]; · iexact H0
      isplitl [H1]; · iexact H1
      iexact H2
    · have hcl : ¬closesRun (grid0.coords t) := fun hh => h7 ((closesRun_iff t).mp hh)
      rw [Dat.leavesExact_idle (dat V c) 2 t (idle_2 t hcl) (noFlush_2 t hcl)]
      iintro ⟨⟨⟨HS, Hoth⟩, Hg⟩, Ho, ⟨%d0, H0⟩, ⟨%d1, H1⟩, H2⟩
      iapply (run_mid c (grid0.coords t) _ _ _ _ _ _ _ _ ho hcl (iblk V c 0 t) (iblk V c 1 t) _ Set.univ _)
      isplitl [H0]; · iexact H0
      isplitl [H1]; · iexact H1
      isplitl [HS]; · iexact HS
      iintro ⟨H0, H1, HS⟩
      isplitl [HS Hoth Hg]
      · isplitl [HS Hoth]
        · isplitl [HS]
          · iexact HS
          iexact Hoth
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl]
  exact Idealize.SL.BI.Entails.refl _

/-- After the last point the invariant gives the class's back: the accumulator's contents are forgotten. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl,
    Phi_pos V c _ _ (by rw [Fin.val_last]; have : cfg0.N = 32 := N_0; omega), PhiA_eq]
  iintro ⟨⟨HS, Ho⟩, Hg⟩
  isplitl [HS Ho]
  · isplitl [HS]
    · iexists _; iexact HS
    iexact Ho
  iexact Hg

end Cert.Kernel.Rot

end
-- ==== Proof.BDeq.lean ====
/-
  Region 1: the dequantisation pass on a grid of 16 points. Point t reads rows 256 t … 256 t + 255 of the packed
  words and of the scales and writes the same rows of the weight matrix; nothing is carried between points.
  Stated at a parameter V: what the core's buffers hold when the region is entered.
-/
import proofs.«415251_j21182778703901_2_alg».proof.Proof.Gen.Kernel.Launch
import proofs.«415251_j21182778703901_2_alg».proof.Proof.Gen.Kernel.Skeleton
import proofs.«415251_j21182778703901_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Deq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core c: each input's buffer at its block, the output's at the body's one
    store's value of the two input blocks; the class's invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay1 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay1 (iblk V c 0 t) (iblk V c 1 t) := by dsimp only [dat]

/-- Every access of the body starts at row 0, column 0 of its buffer. -/
theorem offs_zero : (![0, 0] : Fin 2 → ℕ) = fun _ => 0 := by
  funext a; match a with
  | ⟨0, _⟩ => rfl
  | ⟨1, _⟩ => rfl

/-- An input window's current buffer holds its block at every point, fetched there or not: the window is
    uncut and never idle, and the body leaves the block in place. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

set_option maxHeartbeats 1000000 in
/-- The body on whole buffers: the packed words' at x0, the scales' at x1, the weights' at anything. It reads the
    three buffers and stores ONE whole block, the dequantised rows k1_pay1 x0 x1; the inputs are left as found. -/
theorem sound_kernel (c : Dev nD) (E : Set ℕ) (i : grid1.Coords)
    (arg1 : Memref sig .tc .vmem S256x2048 .i32) (harg1 : arg1.IsWhole)
    (arg2 : Memref sig .tc .vmem S256x32 .f32) (harg2 : arg2.IsWhole)
    (arg3 : Memref sig .tc .vmem S256x4096 .bf16) (harg3 : arg3.IsWhole)
    (x0 : Vec F S256x2048 .i32) (x1 : Vec F S256x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__dequant_weights_kernel i arg1 harg1 arg2 harg2 arg3 harg3) K := by
  simp only [cc1__dequant_weights_kernel_eq_skeleton]; unfold cc1__dequant_weights_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero offs_zero inb_S256x4096_S256x4096_0_0 y⟩),
    View.canon_unit_zero offs_zero, View.readAt_eq_ld, View.readAt_eq_ld,
    View.ld_unit_zero offs_zero, View.ld_unit_zero offs_zero]

/-- What the body is called with at point t: the invariant, what the core owes, and the three current buffers, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns: no window of this region is ever idle, so each buffer is at what the body leaves. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the two inputs' buffers hold rows 256 t … 256 t + 255 of their arrays, so the body leaves
    those rows dequantised in the output's buffer; the invariant and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Deq

end
-- ==== Proof.BMm.lean ====
/-
  Region 2: the product of the rotated activations with the transposed weight matrix, plus the bias, on a
  2 x 4 x 4 grid. Point t = (i, j, k) reads the 2048 x 1024 block (i, k) of the activations, the 1024 x 1024 block
  (j, k) of the weights and the 1 x 1024 block (0, j) of the bias row; a 2048 x 1024 accumulator kept between points
  is cleared when k = 0, takes the block product at every point, and when k = 3 the accumulator plus the bias row
  is written to output block (i, j). Stated at a parameter V: what the core's buffers hold when the region is entered.
-/
import proofs.«415251_j21182778703901_2_alg».proof.Proof.Gen.Kernel.Launch
import proofs.«415251_j21182778703901_2_alg».proof.Proof.Gen.Kernel.Skeleton
import proofs.«415251_j21182778703901_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point n: the block product of point n added to zero when the point opens a run of
    four (k = 0), else to what the point before left. -/
def accAt (c : Dev nD) : (n : ℕ) → n < cfg2.N → Vec F S2048x1024 .f32
  | 0, h => k2_pay2 (iblk V c 0 ⟨0, h⟩) (iblk V c 1 ⟨0, h⟩) k2_pay1
  | n + 1, h => k2_pay2 (iblk V c 0 ⟨n + 1, h⟩) (iblk V c 1 ⟨n + 1, h⟩)
      (if (n + 1) % 4 = 0 then k2_pay1 else accAt c n (Nat.lt_of_succ_lt h))

theorem accAt_first (c : Dev nD) (t : Fin cfg2.N) (h : t.val % 4 = 0) :
    accAt V c t.val t.isLt = k2_pay2 (iblk V c 0 t) (iblk V c 1 t) k2_pay1 := by
  obtain ⟨n, hn⟩ := t
  cases n with
  | zero => rfl
  | succ n => exact congrArg (k2_pay2 (iblk V c 0 ⟨n + 1, hn⟩) (iblk V c 1 ⟨n + 1, hn⟩)) (if_pos h)

theorem accAt_next (c : Dev nD) (t : Fin cfg2.N) (h : t.val % 4 ≠ 0) :
    accAt V c t.val t.isLt = k2_pay2 (iblk V c 0 t) (iblk V c 1 t) (accAt V c (t.val - 1) (Nat.lt_of_le_of_lt (Nat.sub_le _ _) t.isLt)) := by
  obtain ⟨n, hn⟩ := t
  cases n with
  | zero => exact absurd (Nat.zero_mod 4) h
  | succ n => exact congrArg (k2_pay2 (iblk V c 0 ⟨n + 1, hn⟩) (iblk V c 1 ⟨n + 1, hn⟩)) (if_neg h)

/-! ## The body's two conditionals, from the grid coordinates -/

/-- The first conditional's test, from the grid coordinates: the reduction coordinate is zero. -/
abbrev isFirst (i : grid2.Coords) : Prop := (Scalar.cmpi .ne (Scalar.extui (Scalar.cmpi .eq (BitVec.ofNat 32 (i 2).val) 0#32)) 0#32) = 1#1
theorem isFirst_iff : ∀ t : Fin cfg2.N, isFirst (grid2.coords t) ↔ t.val % 4 = 0 :=
  (by decide +kernel : ∀ t : Fin grid2.N, isFirst (grid2.coords t) ↔ t.val % 4 = 0)
/-- The second conditional's test: the reduction coordinate is the last. -/
abbrev isLast (i : grid2.Coords) : Prop := k2_cond2 i = 1#1
theorem isLast_iff : ∀ t : Fin cfg2.N, isLast (grid2.coords t) ↔ t.val % 4 = 3 :=
  (by decide +kernel : ∀ t : Fin grid2.N, isLast (grid2.coords t) ↔ t.val % 4 = 3)

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem idle_out : ∀ t : Fin cfg2.N, ¬isLast (grid2.coords t) → cfg2.idle 3 (grid2.coords t) = true := by decide +kernel
theorem live_out : ∀ t : Fin cfg2.N, isLast (grid2.coords t) → cfg2.idle 3 (grid2.coords t) = false := by decide +kernel
theorem noFlush_out : ∀ t : Fin cfg2.N, ¬isLast (grid2.coords t) → (cfg2.win 3).flush t = false := by decide +kernel

/-- The stores' and loads' offsets are zero on both axes. -/
theorem offs_zero : (![0, 0] : Fin 2 → Nat) = fun _ => 0 := funext fun a => by fin_cases a <;> rfl

/-! ## The body on whole staging memrefs, in each of its three control cases

The kernel reads its two factor blocks whole, adds their product into the accumulator (after clearing it where the
reduction coordinate is zero), and where the reduction coordinate is the last stores the accumulator plus the bias
row into the output's buffer. Every store covers its whole buffer, so what a buffer holds afterwards is the last
store's payload, and a load of the accumulator after a store into it in the same run reads that store's payload. -/

set_option maxHeartbeats 1000000 in
/-- The body where the reduction coordinate is zero and not the last: the accumulator, at anything, is cleared and
    takes the block product; the three inputs and the output's buffer are left as found. -/
theorem run_first (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole)
    (hc0 : isFirst i) (hc1 : ¬isLast i)
    (x : Vec F S2048x1024 .bf16) (w : Vec F S1024x1024 .bf16) (b : Vec F S1x1024 .f32) (o : Vec F S2048x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k2_pay2 x w k2_pay1)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_run_names
  rw [View.read_writes_eq_canon _ _ _ (fun y => ⟨_, List.mem_cons_self, View.mem_set_unit_zero offs_zero inb_S2048x1024_S2048x1024_0_0 y⟩)]
  rw [View.canon_cons_unit_zero (S := S2048x1024) offs_zero, View.readCov_unit_zero (S := S2048x1024) _ offs_zero]
  simp only [View.readAt_eq_ld, harg3.read_unread, harg4.read_unread, View.ld_unit_zero (S := S2048x1024) offs_zero, View.ld_unit_zero (S := S1024x1024) offs_zero]

set_option maxHeartbeats 1000000 in
/-- The body where the reduction coordinate is neither zero nor the last: the accumulator, at a, takes the block
    product; the three inputs and the output's buffer are left as found. -/
theorem run_mid (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole)
    (hc0 : ¬isFirst i) (hc1 : ¬isLast i)
    (x : Vec F S2048x1024 .bf16) (w : Vec F S1024x1024 .bf16) (b : Vec F S1x1024 .f32) (o : Vec F S2048x1024 .f32) (a : Vec F S2048x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k2_pay2 x w a)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5; obtain rfl := harg6.eq_unread hf6; obtain rfl := harg7.eq_unread hf7
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_run_names
  rw [View.read_writes_eq_canon _ _ _ (fun y => ⟨_, List.mem_cons_self, View.mem_set_unit_zero offs_zero inb_S2048x1024_S2048x1024_0_0 y⟩)]
  rw [View.canon_unit_zero (S := S2048x1024) offs_zero]
  simp only [View.readAt_eq_ld, harg3.read_unread, harg4.read_unread, harg7.read_unread, View.ld_unit_zero (S := S2048x1024) offs_zero, View.ld_unit_zero (S := S1024x1024) offs_zero]

set_option maxHeartbeats 1000000 in
/-- The body where the reduction coordinate is the last (and not zero): the accumulator, at a, takes the block
    product, and the output's buffer, at anything, is stored that plus the bias row; the inputs are left as found. -/
theorem run_last (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole)
    (hc0 : ¬isFirst i) (hc1 : isLast i)
    (x : Vec F S2048x1024 .bf16) (w : Vec F S1024x1024 .bf16) (b : Vec F S1x1024 .f32) (a : Vec F S2048x1024 .f32)
    (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k2_pay3 (k2_pay2 x w a) b) ∗ owns (c : Thread nD τ) arg7 fullShare (k2_pay2 x w a)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [View.read_writes_eq_canon _ _ _ (fun y => ⟨_, List.mem_cons_self, View.mem_set_unit_zero offs_zero inb_S2048x1024_S2048x1024_0_0 y⟩)]
    rw [View.canon_unit_zero (S := S2048x1024) offs_zero, View.readCov_unit_zero (S := S2048x1024) _ offs_zero]
    simp only [View.readAt_eq_ld, harg3.read_unread, harg4.read_unread, harg5.read_unread, harg7.read_unread, View.ld_unit_zero (S := S2048x1024) offs_zero, View.ld_unit_zero (S := S1024x1024) offs_zero, View.ld_unit_zero (S := S1x1024) offs_zero]
  iexists _; isplitr
  swap; · iexact H7
  ipureintro
  sl_unfold_run_names
  rw [View.read_writes_eq_canon _ _ _ (fun y => ⟨_, List.mem_cons_self, View.mem_set_unit_zero offs_zero inb_S2048x1024_S2048x1024_0_0 y⟩)]
  rw [View.canon_unit_zero (S := S2048x1024) offs_zero]
  simp only [View.readAt_eq_ld, harg3.read_unread, harg4.read_unread, harg7.read_unread, View.ld_unit_zero (S := S2048x1024) offs_zero, View.ld_unit_zero (S := S1024x1024) offs_zero]

/-- The accumulator as the kernel is handed it. -/
abbrev accM : Memref sig .tc .vmem S2048x1024 .f32 := Memref.whole cc2_scratch0

/-- The scoped buffers of the core other than this region's staging buffers and its accumulator, each at some
    contents: the other two regions' staging buffers and the first region's accumulator. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region invariant before position n: before the first point the class's (the accumulator at anything);
    afterwards the accumulator at what the point before left. -/
def Phi (c : Dev nD) : (n : ℕ) → n ≤ cfg2.N → sProp 𝕄
  | 0, _ => Pipeline.ΦA spec2 c
  | n + 1, hn => iprop((owns (c : Thread nD τ) accM fullShare (accAt V c n hn) ∗ others (F := F) c) ∗ (∃ r, prngReg c r))

/-- The proof data of pipeline 2 on core c. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (accAt V c t.val t.isLt) (iblk V c 2 t)
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay3 (accAt V c t.val t.isLt) (iblk V c 2 t) := by dsimp only [dat]

/-! ## What the body is handed and what it leaves -/

/-- Each input's current staging buffer holds its block at every point, fetched there or not: where it is not
    fetched its block index has not moved since the point before (for the bias row: it depends on the second grid
    coordinate only, and is fetched where the third returns to zero). -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The invariant before the first point is the class's. -/
theorem Phi_zero (c : Dev nD) (n : ℕ) (h : n ≤ cfg2.N) (h0 : n = 0) : Phi V c n h = Pipeline.ΦA spec2 c := by
  subst h0; rfl

/-- After point n the accumulator holds that point's contents. -/
theorem Phi_succ (c : Dev nD) (n : ℕ) (hn : n < cfg2.N) :
    Phi V c (n + 1) hn = iprop((owns (c : Thread nD τ) accM fullShare (accAt V c n hn) ∗ others (F := F) c) ∗ (∃ r, prngReg c r)) := rfl

/-- Before a point that is not the first the accumulator holds what the point before left. -/
theorem Phi_pos (c : Dev nD) (n : ℕ) (h : n ≤ cfg2.N) (h0 : n ≠ 0) :
    Phi V c n h = iprop((owns (c : Thread nD τ) accM fullShare (accAt V c (n - 1) (by omega)) ∗ others (F := F) c) ∗ (∃ r, prngReg c r)) := by
  cases n with
  | zero => exact absurd rfl h0
  | succ n => rfl

/-- The invariant at a point's start, restated at the point's number. -/
theorem Phi_castSucc (c : Dev nD) (t : Fin cfg2.N) :
    (dat V c).Φ t.castSucc = Phi V c t.val (Nat.le_of_lt t.isLt) := by
  dsimp only [dat]; simp only [Fin.coe_castSucc]

/-- The class's invariant hands out the accumulator at some contents, beside the other scoped buffers and the
    generator register: the accumulator is the last of the fourteen scoped buffers that are no staging buffer of
    this region. -/
theorem PhiA_open (c : Dev nD) :
    (Pipeline.ΦA spec2 c : sProp 𝕄) ⊢ iprop(((∃ d, owns (c : Thread nD τ) accM fullShare d) ∗ others (F := F) c) ∗ (∃ r, prngReg c r)) := by
  unfold Pipeline.ΦA; rw [scopedRest2_eq]; unfold others
  simp only [accM, owns_whole]
  iintro ⟨⟨H1, H2, H3, H4, H5, H6, H7, H8, H9, H10, H11, H12, H13, HA⟩, Hg⟩
  isplitr [Hg]
  · isplitl [HA]; · iexact HA
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hg

/-- And takes it back at any contents. -/
theorem PhiA_close (c : Dev nD) :
    iprop(((∃ d, owns (c : Thread nD τ) accM fullShare d) ∗ others (F := F) c) ∗ (∃ r, prngReg c r)) ⊢ (Pipeline.ΦA spec2 c : sProp 𝕄) := by
  unfold Pipeline.ΦA; rw [scopedRest2_eq]; unfold others
  simp only [accM, owns_whole]
  iintro ⟨⟨HA, H1, H2, H3, H4, H5, H6, H7, H8, H9, H10, H11, H12, H13⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HA
  iexact Hg

/-- What the body is called with at point t: the invariant, what the core owes, and the four windows' current
    buffers, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the point's number modulo four says which control
    case it is in. Where it is zero the invariant hands the accumulator at what the point before left (at anything
    at the very first point) and the body clears it and adds the block product; elsewhere the accumulator holds what
    the point before left and gains the block product; the output's buffer is idle and handed back untouched, but
    where the number is three modulo four, where it is stored the accumulator plus the bias row. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st2_0 t) fullShare ((dat V c).after 0 t) from by
    unfold Dat.leavesExact; rw [live_0 t], after_0]
  rw [show (dat V c).leavesExact 1 t = owns (c : Thread nD τ) (st2_1 t) fullShare ((dat V c).after 1 t) from by
    unfold Dat.leavesExact; rw [live_1 t], after_1]
  rw [show (dat V c).leavesExact 2 t = owns (c : Thread nD τ) (st2_2 t) fullShare ((dat V c).after 2 t) from by
    unfold Dat.leavesExact; rw [live_2 t], after_2]
  have hN : t.val < 32 := lt_of_lt_of_eq t.isLt (show cfg2.N = 32 from N_2)
  by_cases h0 : t.val % 4 = 0
  · have h1 : ¬t.val % 4 = 3 := by omega
    rw [Dat.leavesExact_idle (dat V c) 3 t (idle_out t (fun h => h1 ((isLast_iff t).mp h))) (noFlush_out t (fun h => h1 ((isLast_iff t).mp h)))]
    rw [accAt_first V c t h0]
    by_cases hz : t.val = 0
    · rw [Phi_castSucc V c t, Phi_zero V c _ _ hz]
      iintro ⟨HΦ, Ho, ⟨%d0, H0⟩, ⟨%d1, H1⟩, ⟨%d2, H2⟩, ⟨%d3, H3⟩⟩
      ihave HΦ' := PhiA_open c $$ HΦ
      icases HΦ' with ⟨⟨HA, Hoth⟩, Hg⟩
      iapply (run_first c (grid2.coords t) _ _ _ _ _ _ _ _ _ _ ((isFirst_iff t).mpr h0) (fun h => h1 ((isLast_iff t).mp h)) (iblk V c 0 t) (iblk V c 1 t) (iblk V c 2 t) _ Set.univ _)
      isplitl [H0]; · iexact H0
      isplitl [H1]; · iexact H1
      isplitl [H2]; · iexact H2
      isplitl [H3]; · iexact H3
      isplitl [HA]; · iexact HA
      iintro ⟨H0, H1, H2, H3, HA⟩
      isplitl [HA Hoth Hg]
      · isplitr [Hg]
        · isplitl [HA]; · iexact HA
          iexact Hoth
        iexact Hg
      isplitl [Ho]; · iexact Ho
      isplitl [H0]; · iexact H0
      isplitl [H1]; · iexact H1
      isplitl [H2]; · iexact H2
      iexists _; iexact H3
    · rw [Phi_castSucc V c t, Phi_pos V c _ _ hz]
      iintro ⟨⟨⟨HA, Hoth⟩, Hg⟩, Ho, ⟨%d0, H0⟩, ⟨%d1, H1⟩, ⟨%d2, H2⟩, ⟨%d3, H3⟩⟩
      iapply (run_first c (grid2.coords t) _ _ _ _ _ _ _ _ _ _ ((isFirst_iff t).mpr h0) (fun h => h1 ((isLast_iff t).mp h)) (iblk V c 0 t) (iblk V c 1 t) (iblk V c 2 t) _ Set.univ _)
      isplitl [H0]; · iexact H0
      isplitl [H1]; · iexact H1
      isplitl [H2]; · iexact H2
      isplitl [H3]; · iexact H3
      isplitl [HA]; · iexists _; iexact HA
      iintro ⟨H0, H1, H2, H3, HA⟩
      isplitl [HA Hoth Hg]
      · isplitr [Hg]
        · isplitl [HA]; · iexact HA
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt_next V c t h0]
    rw [Phi_castSucc V c t, Phi_pos V c _ _ hz]
    by_cases h1 : t.val % 4 = 3
    · rw [show (dat V c).leavesExact 3 t = owns (c : Thread nD τ) (st2_3 t) fullShare ((dat V c).after 3 t) from by
        unfold Dat.leavesExact; rw [live_out t ((isLast_iff t).mpr h1)], after_3]
      rw [accAt_next V c t h0]
      iintro ⟨⟨⟨HA, Hoth⟩, Hg⟩, Ho, ⟨%d0, H0⟩, ⟨%d1, H1⟩, ⟨%d2, H2⟩, ⟨%d3, H3⟩⟩
      iapply (run_last c (grid2.coords t) _ _ _ _ _ _ _ _ _ _ (fun h => h0 ((isFirst_iff t).mp h)) ((isLast_iff t).mpr h1) (iblk V c 0 t) (iblk V c 1 t) (iblk V c 2 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HA]; · iexact HA
      iintro ⟨H0, H1, H2, H3, HA⟩
      isplitl [HA Hoth Hg]
      · isplitr [Hg]
        · isplitl [HA]; · iexact HA
          iexact Hoth
        iexact Hg
      isplitl [Ho]; · iexact Ho
      isplitl [H0]; · iexact H0
      isplitl [H1]; · iexact H1
      isplitl [H2]; · iexact H2
      iexact H3
    · rw [Dat.leavesExact_idle (dat V c) 3 t (idle_out t (fun h => h1 ((isLast_iff t).mp h))) (noFlush_out t (fun h => h1 ((isLast_iff t).mp h)))]
      iintro ⟨⟨⟨HA, Hoth⟩, Hg⟩, Ho, ⟨%d0, H0⟩, ⟨%d1, H1⟩, ⟨%d2, H2⟩, ⟨%d3, H3⟩⟩
      iapply (run_mid c (grid2.coords t) _ _ _ _ _ _ _ _ _ _ (fun h => h0 ((isFirst_iff t).mp h)) (fun h => h1 ((isLast_iff t).mp h)) (iblk V c 0 t) (iblk V c 1 t) (iblk V c 2 t) _ (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HA]; · iexact HA
      iintro ⟨H0, H1, H2, H3, HA⟩
      isplitl [HA Hoth Hg]
      · isplitr [Hg]
        · isplitl [HA]; · iexact HA
          iexact Hoth
        iexact Hg
      isplitl [Ho]; · iexact Ho
      isplitl [H0]; · iexact H0
      isplitl [H1]; · iexact H1
      isplitl [H2]; · iexact H2
      iexists _; iexact H3

/-- After any point but none the invariant gives the class's back: what the accumulator holds is forgotten. -/
theorem Phi_out (c : Dev nD) (t : Fin (cfg2.N + 1)) (ht : t.val ≠ 0) : (dat V c).Φ t ⊢ Pipeline.ΦA spec2 c := by
  rw [show (dat V c).Φ t = Phi V c t.val (Nat.le_of_lt_succ t.isLt) from rfl, Phi_pos V c _ _ ht]
  iintro ⟨⟨HA, Hoth⟩, Hg⟩
  iapply (PhiA_close (F := F) c)
  isplitr [Hg]
  · isplitl [HA]; · iexists _; iexact HA
    iexact Hoth
  iexact Hg

/-- The library's body obligation, at every point. -/
theorem body_obligation (c : Dev nD) : BodyObligation (dat (F := F) V c) (defs₀ (F := F)) Variants.none () Set.univ := by
  intro t
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = Phi V c 0 (Nat.zero_le _) from rfl, Phi_zero V c 0 _ rfl]

/-- After the last point the invariant gives the class's back: the accumulator's contents are forgotten. -/
theorem hout (c : Dev nD) : (dat V c).Φ (Fin.last cfg2.N) ⊢ Pipeline.ΦA spec2 c := by
  exact Phi_out V c _ (by rw [Fin.val_last]; have : cfg2.N = 32 := N_2; omega)

end Cert.Kernel.Mm

end
-- ==== Proof.BRun.lean ====
/-
  The program's run: a reshape of the input, the rotation product, the dequantisation pass, a reshape of the bias,
  the second product, a reshape of the result. The contents of the core's unscoped buffers at each of the seven
  boundaries are written as a fold from the launch memory (a host operation's result at its buffer; a region's
  arrays at what its write-backs leave, everything else as it was); each region is entered from and left at the
  next term of the fold; and every weakly fair execution ends, nothing faulting, with every unscoped buffer at the
  fold's last term. The frame claim and the value claim are both read off that last term.
-/
import proofs.«415251_j21182778703901_2_alg».proof.Proof.BRot
import proofs.«415251_j21182778703901_2_alg».proof.Proof.BDeq
import proofs.«415251_j21182778703901_2_alg».proof.Proof.BMm

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the reshape of the input (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, an output's write-backs folded),
    every other buffer as entered. -/
def W2 (c : Dev nD) : Valuation τ sig (Elt F) :=
  Pipeline.withArrays spec0 c (W1 m ρ c) fun w => (Rot.dat (V1 m ρ) c).arrAt w cfg0.N
theorem W2_arr (c : Dev nD) (w : Fin cfg0.W) :
    W2 m ρ c (Proc.devRef .tc (Pipeline.arrRef spec0 w)) = (Rot.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (Rot.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (an input as entered, an output's write-backs folded),
    every other buffer as entered. -/
def W3 (c : Dev nD) : Valuation τ sig (Elt F) :=
  Pipeline.withArrays spec1 c (W2 m ρ c) fun w => (Deq.dat (V2 m ρ) c).arrAt w cfg1.N
theorem W3_arr (c : Dev nD) (w : Fin cfg1.W) :
    W3 m ρ c (Proc.devRef .tc (Pipeline.arrRef spec1 w)) = (Deq.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (Deq.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the reshape of the bias (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (an input as entered, an output's write-backs folded),
    every other buffer as entered. -/
def W5 (c : Dev nD) : Valuation τ sig (Elt F) :=
  Pipeline.withArrays spec2 c (W4 m ρ c) fun w => (Mm.dat (V4 m ρ) c).arrAt w cfg2.N
theorem W5_arr (c : Dev nD) (w : Fin cfg2.W) :
    W5 m ρ c (Proc.devRef .tc (Pipeline.arrRef spec2 w)) = (Mm.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (Mm.dat (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the reshape of the result: the end. -/
abbrev W6 : Dev nD → Valuation τ sig (Elt F) := fun c => StableHlo.after hostOps3 (W5 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Rot.dat (V1 m ρ) c
  | ⟨1, _⟩ => fun c => Deq.dat (V2 m ρ) c
  | ⟨2, _⟩ => fun c => Mm.dat (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's owing nothing: every unscoped buffer at the fold's last term, the
    generator register at some state. -/
abbrev Tₙ (c : Dev nD) : sProp 𝕄 := iprop(StableHlo.held (c : Thread nD τ) (Pipeline.ucRefs τ sig) (W6 m ρ c) ∗ ∃ r, prngReg c r)

/-! ## The regions' invariants at their two ends, at the fold's contents -/

theorem hin0 (c : Dev nD) : Pipeline.ΦA spec0 c ⊢ (pdats m ρ 0 c).Φ 0 := Rot.hin (V1 m ρ) c
theorem hout0 (c : Dev nD) : (pdats m ρ 0 c).Φ (Fin.last _) ⊢ Pipeline.ΦA spec0 c := Rot.hout (V1 m ρ) c
theorem hin1 (c : Dev nD) : Pipeline.ΦA spec1 c ⊢ (pdats m ρ 1 c).Φ 0 := .rfl
theorem hout1 (c : Dev nD) : (pdats m ρ 1 c).Φ (Fin.last _) ⊢ Pipeline.ΦA spec1 c := .rfl
theorem hin2 (c : Dev nD) : Pipeline.ΦA spec2 c ⊢ (pdats m ρ 2 c).Φ 0 := Mm.hin (V4 m ρ) c
theorem hout2 (c : Dev nD) : (pdats m ρ 2 c).Φ (Fin.last _) ⊢ Pipeline.ΦA spec2 c := Mm.hout (V4 m ρ) c

/-! ## The regions as segments -/

-- a library lemma stated over the pinned configuration unifies with the printed one only when unification may
-- unfold plain definitions in a metavariable's type
set_option backward.isDefEq.respectTransparency.types false in
/-- Region 0 over the thread state: entered with every unscoped buffer at `W1`, left with them at `W2`.
    Its arrays are split out of the unscoped buffers and put back at what the write-backs leave; the generator register
    goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Rot.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 m ρ c)
    unfold Pipeline.ΦA
    iintro ⟨Hp, -, Hr⟩
    isplitl [Hr]; · iexact Hr
    iexact Hp
  hout c := by
    rw [Pipeline.ownSems0_none]
    refine (hout0 m ρ c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered with every unscoped buffer at `W2`, left with them at `W3`.
    Its arrays are split out of the unscoped buffers and put back at what the write-backs leave; the generator register
    goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Deq.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 m ρ c)
    unfold Pipeline.ΦA
    iintro ⟨Hp, -, Hr⟩
    isplitl [Hr]; · iexact Hr
    iexact Hp
  hout c := by
    rw [Pipeline.ownSems0_none]
    refine (hout1 m ρ c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered with every unscoped buffer at `W4`, left with them at `W5`.
    Its arrays are split out of the unscoped buffers and put back at what the write-backs leave; the generator register
    goes into the region invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Mm.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 m ρ c)
    unfold Pipeline.ΦA
    iintro ⟨Hp, -, Hr⟩
    isplitl [Hr]; · iexact Hr
    iexact Hp
  hout c := by
    rw [Pipeline.ownSems0_none]
    refine (hout2 m ρ c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- The program is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN, at any instance: from any memory with zero counters every weakly fair execution of the program on the
    TensorCores terminates, nothing faulting, and in every final state every unscoped buffer holds the fold's last term. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Run

end
-- ==== Proof.BArgs.lean ====
/-
  No argument array is written by the program: the reshapes write their own results, and each region writes only its
  output array; an argument a region reads through an input window is handed back as it was. So at an argument's
  buffer the fold of the buffer contents walks back to the launch memory.
-/
import proofs.«415251_j21182778703901_2_alg».proof.Proof.BRun

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reshape of the input writes only its own result. -/
theorem W1_of (c : Dev nD) (b : Ref sig .tc) (hb : b ≠ main_v0) : W1 m ρ c (Proc.devRef .tc b) = W0 m ρ c (Proc.devRef .tc b) :=
  StableHlo.after_of_forall_not_mem (b := Proc.devRef .tc b) _ _ (by
    intro op hop
    simp only [hostOps0, List.mem_singleton] at hop
    subst hop
    simp only [StableHlo.reshape_writes, Finset.mem_singleton]
    exact StableHlo.devRef_ne_of_ne hb)
/-- The reshape of the bias writes only its own result. -/
theorem W4_of (c : Dev nD) (b : Ref sig .tc) (hb : b ≠ main_v3) : W4 m ρ c (Proc.devRef .tc b) = W3 m ρ c (Proc.devRef .tc b) :=
  StableHlo.after_of_forall_not_mem (b := Proc.devRef .tc b) _ _ (by
    intro op hop
    simp only [hostOps2, List.mem_singleton] at hop
    subst hop
    simp only [StableHlo.reshape_writes, Finset.mem_singleton]
    exact StableHlo.devRef_ne_of_ne hb)
/-- The reshape of the result writes only its own result. -/
theorem W6_of (c : Dev nD) (b : Ref sig .tc) (hb : b ≠ main_v5) : W6 m ρ c (Proc.devRef .tc b) = W5 m ρ c (Proc.devRef .tc b) :=
  StableHlo.after_of_forall_not_mem (b := Proc.devRef .tc b) _ _ (by
    intro op hop
    simp only [hostOps3, List.mem_singleton] at hop
    subst hop
    simp only [StableHlo.reshape_writes, Finset.mem_singleton]
    exact StableHlo.devRef_ne_of_ne hb)

/-- An input array of region 0 leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((Rot.dat (V1 m ρ) c).arrAt_in w hw _).trans (Rot.A_eq (V1 m ρ) c w))
/-- An input array of region 1 leaves the region as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((Deq.dat (V2 m ρ) c).arrAt_in w hw _).trans (Deq.A_eq (V2 m ρ) c w))
/-- An input array of region 2 leaves the region as it entered. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((Mm.dat (V4 m ρ) c).arrAt_in w hw _).trans (Mm.A_eq (V4 m ρ) c w))

theorem W6_main_arg0 (c : Dev nD) : W6 m ρ c (Proc.devRef .tc main_arg0) = m ((c : Thread nD τ).loc main_arg0) :=
  (W6_of m ρ c main_arg0 (by decide)).trans <| (W5_of_ne m ρ c main_arg0 (by decide)).trans <| (W4_of m ρ c main_arg0 (by decide)).trans <|
    (W3_of_ne m ρ c main_arg0 (by decide)).trans <| (W2_of_ne m ρ c main_arg0 (by decide)).trans <| (W1_of m ρ c main_arg0 (by decide)).trans rfl
theorem W6_main_arg1 (c : Dev nD) : W6 m ρ c (Proc.devRef .tc main_arg1) = m ((c : Thread nD τ).loc main_arg1) :=
  (W6_of m ρ c main_arg1 (by decide)).trans <| (W5_of_ne m ρ c main_arg1 (by decide)).trans <| (W4_of m ρ c main_arg1 (by decide)).trans <|
    (W3_of_ne m ρ c main_arg1 (by decide)).trans <| (W2_in m ρ c 1 rfl).trans <| (W1_of m ρ c main_arg1 (by decide)).trans rfl
theorem W6_main_arg2 (c : Dev nD) : W6 m ρ c (Proc.devRef .tc main_arg2) = m ((c : Thread nD τ).loc main_arg2) :=
  (W6_of m ρ c main_arg2 (by decide)).trans <| (W5_of_ne m ρ c main_arg2 (by decide)).trans <| (W4_of m ρ c main_arg2 (by decide)).trans <|
    (W3_in m ρ c 1 rfl).trans <| (W2_of_ne m ρ c main_arg2 (by decide)).trans <| (W1_of m ρ c main_arg2 (by decide)).trans rfl
theorem W6_main_arg3 (c : Dev nD) : W6 m ρ c (Proc.devRef .tc main_arg3) = m ((c : Thread nD τ).loc main_arg3) :=
  (W6_of m ρ c main_arg3 (by decide)).trans <| (W5_of_ne m ρ c main_arg3 (by decide)).trans <| (W4_of m ρ c main_arg3 (by decide)).trans <|
    (W3_of_ne m ρ c main_arg3 (by decide)).trans <| (W2_of_ne m ρ c main_arg3 (by decide)).trans <| (W1_of m ρ c main_arg3 (by decide)).trans rfl
theorem W6_main_arg4 (c : Dev nD) : W6 m ρ c (Proc.devRef .tc main_arg4) = m ((c : Thread nD τ).loc main_arg4) :=
  (W6_of m ρ c main_arg4 (by decide)).trans <| (W5_of_ne m ρ c main_arg4 (by decide)).trans <| (W4_of m ρ c main_arg4 (by decide)).trans <|
    (W3_in m ρ c 0 rfl).trans <| (W2_of_ne m ρ c main_arg4 (by decide)).trans <| (W1_of m ρ c main_arg4 (by decide)).trans rfl

/-- THE FRAME, at any instance: every weakly fair execution terminates, nothing faulting, the five argument arrays
    ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_main m ρ)

end Cert.Kernel.Run

end
-- ==== Proof.Rot.lean ====
/-
  Region 0: the rotation product, a [4096, 4096] x [4096, 4096] matrix product computed on a 2 x 2 x 8 grid.
  Point t = (i, j, k) reads the 2048 x 512 block (i, k) of the left factor and the 512 x 2048 block (k, j) of the
  right factor; a 2048 x 2048 accumulator kept between points is cleared when k = 0, takes the block product at
  every point, and is written to output block (i, j) when k = 7. Everything here is stated at a parameter V: what
  the core's buffers hold when the region is entered.
-/
import proofs.«415251_j21182778703901_2_alg».proof.Proof.Gen.KernelIdeal.Launch
import proofs.«415251_j21182778703901_2_alg».proof.Proof.Gen.KernelIdeal.Skeleton
import proofs.«415251_j21182778703901_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Rot

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditionals, in closed form over the grid -/

/-- The first conditional's test, from the grid coordinates: the point opens a run of eight (k = 0). -/
abbrev opensRun (i : grid0.Coords) : Prop :=
  (Scalar.cmpi .ne (Scalar.extui (Scalar.cmpi .eq (BitVec.ofNat 32 (i 2).val) 0#32)) 0#32) = 1#1
theorem opensRun_iff : ∀ t : Fin cfg0.N, opensRun (grid0.coords t) ↔ t.val % 8 = 0 :=
  (by decide +kernel : ∀ t : Fin grid0.N, opensRun (grid0.coords t) ↔ t.val % 8 = 0)
/-- The second conditional's test: the point closes a run of eight (k = 7). -/
abbrev closesRun (i : grid0.Coords) : Prop := k0_cond2 i = 1#1
theorem closesRun_iff : ∀ t : Fin cfg0.N, closesRun (grid0.coords t) ↔ t.val % 8 = 7 :=
  (by decide +kernel : ∀ t : Fin grid0.N, closesRun (grid0.coords t) ↔ t.val % 8 = 7)

/-- The inputs' windows are never idle; the output's is idle exactly where the run is not closed, and there it is
    not written back. -/
theorem live_0 : ∀ t : Fin cfg0.N, cfg0.idle 0 (grid0.coords t) = false := by decide +kernel
theorem live_1 : ∀ t : Fin cfg0.N, cfg0.idle 1 (grid0.coords t) = false := by decide +kernel
theorem idle_2 : ∀ t : Fin cfg0.N, ¬closesRun (grid0.coords t) → cfg0.idle 2 (grid0.coords t) = true := by decide +kernel
theorem noFlush_2 : ∀ t : Fin cfg0.N, ¬closesRun (grid0.coords t) → (cfg0.win 2).flush t = false := by decide +kernel
theorem live_2 : ∀ t : Fin cfg0.N, closesRun (grid0.coords t) → cfg0.idle 2 (grid0.coords t) = false := by decide +kernel

/-! ## The kernel on any whole memrefs, case by case -/

/-- Every access of the body is at offsets zero. -/
theorem offs_zero : (![0, 0] : Fin 2 → Nat) = fun _ => 0 := funext fun a => by fin_cases a <;> rfl

/-- A store of a whole 2048 x 2048 block, made last, covers it. -/
theorem cover_last {e : EltTy} (p : Vec F S2048x2048 e) (L : List (View.Piece (Elt F) S2048x2048 e)) (y : S2048x2048.Idx) :
    ∃ pc ∈ ((⟨Rect.unit (s := S2048x2048) ![0, 0] S2048x2048.size inb_S2048x2048_S2048x2048_0_0, p⟩ : View.Piece (Elt F) S2048x2048 e) :: L), y ∈ pc.1.set :=
  ⟨_, List.mem_cons_self, View.mem_set_unit_zero offs_zero inb_S2048x2048_S2048x2048_0_0 y⟩

set_option maxHeartbeats 1000000 in
/-- A point that opens a run and does not close it: the accumulator, whatever it held, is cleared and takes the
    block product; the output's memref is not touched. -/
theorem run_open (c : Dev nD) (i : grid0.Coords) (arg3 : Memref sig .tc .vmem S2048x512 .f32) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S2048x2048 .f32) (harg6 : arg6.IsWhole)
    (ho : opensRun i) (hcl : ¬closesRun i)
    (x : Vec F S2048x512 .f32) (h : Vec F S512x2048 .f32) (E : Set ℕ) (K : PUnit → sProp 𝕄) :
    iprop(owns (c : Thread nD τ) arg3 fullShare x ∗ owns (c : Thread nD τ) arg4 fullShare h ∗ (∃ d, owns (c : Thread nD τ) arg6 fullShare d)
        ∗ (iprop(owns (c : Thread nD τ) arg3 fullShare x ∗ owns (c : Thread nD τ) arg4 fullShare h ∗ owns (c : Thread nD τ) arg6 fullShare (k0_pay2 x h k0_pay1)) -∗ K ⟨⟩))
      ⊢ wp frame (wpE (defs₀ (F := F)) Variants.none c none) E (cc0__rotate_kernel i arg3 harg3 arg4 harg4 arg5 harg5 arg6 harg6) K := by
  simp only [cc0__rotate_kernel_eq_skeleton]; unfold cc0__rotate_kernel_skel
  unfold owns
  iintro ⟨⟨%f0, %hf0, H0⟩, ⟨%f1, %hf1, H1⟩, ⟨%d, %fs, -, HS⟩, Hk⟩
  subst hf0; subst hf1
  sl_exec (disch := first | exact ho | exact hcl)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (cover_last _ _), View.canon_cons_unit_zero offs_zero]
  simp only [View.readAt_eq_ld, View.ld_unit_zero (S := S2048x512) offs_zero, View.ld_unit_zero (S := S512x2048) offs_zero, View.readCov_unit_zero (S := S2048x2048) _ offs_zero]

set_option maxHeartbeats 1000000 in
/-- A point inside a run: the accumulator takes the block product; the output's memref is not touched. -/
theorem run_mid (c : Dev nD) (i : grid0.Coords) (arg3 : Memref sig .tc .vmem S2048x512 .f32) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S2048x2048 .f32) (harg6 : arg6.IsWhole)
    (ho : ¬opensRun i) (hcl : ¬closesRun i)
    (x : Vec F S2048x512 .f32) (h : Vec F S512x2048 .f32) (a : Vec F S2048x2048 .f32) (E : Set ℕ) (K : PUnit → sProp 𝕄) :
    iprop(owns (c : Thread nD τ) arg3 fullShare x ∗ owns (c : Thread nD τ) arg4 fullShare h ∗ owns (c : Thread nD τ) arg6 fullShare a
        ∗ (iprop(owns (c : Thread nD τ) arg3 fullShare x ∗ owns (c : Thread nD τ) arg4 fullShare h ∗ owns (c : Thread nD τ) arg6 fullShare (k0_pay2 x h a)) -∗ K ⟨⟩))
      ⊢ wp frame (wpE (defs₀ (F := F)) Variants.none c none) E (cc0__rotate_kernel i arg3 harg3 arg4 harg4 arg5 harg5 arg6 harg6) K := by
  simp only [cc0__rotate_kernel_eq_skeleton]; unfold cc0__rotate_kernel_skel
  unfold owns
  iintro ⟨⟨%f0, %hf0, H0⟩, ⟨%f1, %hf1, H1⟩, ⟨%fs, %hfs, HS⟩, Hk⟩
  subst hf0; subst hf1; subst hfs
  sl_exec (disch := first | exact ho | exact hcl)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (cover_last _ _), View.canon_cons_unit_zero offs_zero]
  simp only [View.readAt_eq_ld, View.ld_unit_zero (S := S2048x512) offs_zero, View.ld_unit_zero (S := S512x2048) offs_zero, View.ld_unit_zero (S := S2048x2048) offs_zero]

set_option maxHeartbeats 1000000 in
/-- A point that closes a run: the accumulator takes the block product, and the output's memref, whatever it
    held, is stored with the accumulator rounded to bf16. -/
theorem run_close (c : Dev nD) (i : grid0.Coords) (arg3 : Memref sig .tc .vmem S2048x512 .f32) (harg3 : arg3.IsWhole) (arg4 : Memref sig .tc .vmem S512x2048 .f32) (harg4 : arg4.IsWhole) (arg5 : Memref sig .tc .vmem S2048x2048 .bf16) (harg5 : arg5.IsWhole) (arg6 : Memref sig .tc .vmem S2048x2048 .f32) (harg6 : arg6.IsWhole)
    (ho : ¬opensRun i) (hcl : closesRun i)
    (x : Vec F S2048x512 .f32) (h : Vec F S512x2048 .f32) (a : Vec F S2048x2048 .f32) (E : Set ℕ) (K : PUnit → sProp 𝕄) :
    iprop(owns (c : Thread nD τ) arg3 fullShare x ∗ owns (c : Thread nD τ) arg4 fullShare h ∗ (∃ d, owns (c : Thread nD τ) arg5 fullShare d) ∗ owns (c : Thread nD τ) arg6 fullShare a
        ∗ (iprop(owns (c : Thread nD τ) arg3 fullShare x ∗ owns (c : Thread nD τ) arg4 fullShare h ∗ owns (c : Thread nD τ) arg5 fullShare (k0_pay3 (k0_pay2 x h a)) ∗ owns (c : Thread nD τ) arg6 fullShare (k0_pay2 x h a)) -∗ K ⟨⟩))
      ⊢ wp frame (wpE (defs₀ (F := F)) Variants.none c none) E (cc0__rotate_kernel i arg3 harg3 arg4 harg4 arg5 harg5 arg6 harg6) K := by
  simp only [cc0__rotate_kernel_eq_skeleton]; unfold cc0__rotate_kernel_skel
  unfold owns
  iintro ⟨⟨%f0, %hf0, H0⟩, ⟨%f1, %hf1, H1⟩, ⟨%d, %f2, -, H2⟩, ⟨%fs, %hfs, HS⟩, Hk⟩
  subst hf0; subst hf1; subst hfs
  sl_exec (disch := first | exact ho | exact hcl)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (cover_last _ _), View.canon_cons_unit_zero offs_zero]
    simp only [View.readAt_eq_ld, View.ld_unit_zero (S := S2048x512) offs_zero, View.ld_unit_zero (S := S512x2048) offs_zero, View.ld_unit_zero (S := S2048x2048) offs_zero, View.readCov_unit_zero (S := S2048x2048) _ offs_zero]
  iexists _; isplitr
  swap; · iexact HS
  ipureintro
  sl_unfold_run_names
  rw [View.read_writes_eq_canon _ _ _ (cover_last _ _), View.canon_cons_unit_zero offs_zero]
  simp only [View.readAt_eq_ld, View.ld_unit_zero (S := S2048x512) offs_zero, View.ld_unit_zero (S := S512x2048) offs_zero, View.ld_unit_zero (S := S2048x2048) offs_zero]

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point n: the block product of point n added to zero when the point opens a run of
    eight (k = 0), else to what the point before left. -/
def accAt (c : Dev nD) : (n : ℕ) → n < cfg0.N → Vec F S2048x2048 .f32
  | 0, h => k0_pay2 (iblk V c 0 ⟨0, h⟩) (iblk V c 1 ⟨0, h⟩) k0_pay1
  | n + 1, h => k0_pay2 (iblk V c 0 ⟨n + 1, h⟩) (iblk V c 1 ⟨n + 1, h⟩)
      (if (n + 1) % 8 = 0 then k0_pay1 else accAt c n (Nat.lt_of_succ_lt h))

theorem accAt_first (c : Dev nD) (t : Fin cfg0.N) (h : t.val % 8 = 0) :
    accAt V c t.val t.isLt = k0_pay2 (iblk V c 0 t) (iblk V c 1 t) k0_pay1 := by
  obtain ⟨n, hn⟩ := t
  cases n with
  | zero => rfl
  | succ n => exact congrArg (k0_pay2 (iblk V c 0 ⟨n + 1, hn⟩) (iblk V c 1 ⟨n + 1, hn⟩)) (if_pos h)

theorem accAt_next (c : Dev nD) (t : Fin cfg0.N) (h : t.val % 8 ≠ 0) :
    accAt V c t.val t.isLt = k0_pay2 (iblk V c 0 t) (iblk V c 1 t) (accAt V c (t.val - 1) (Nat.lt_of_le_of_lt (Nat.sub_le _ _) t.isLt)) := by
  obtain ⟨n, hn⟩ := t
  cases n with
  | zero => exact absurd (Nat.zero_mod 8) h
  | succ n => exact congrArg (k0_pay2 (iblk V c 0 ⟨n + 1, hn⟩) (iblk V c 1 ⟨n + 1, hn⟩)) (if_neg h)

/-- The scoped buffers of the core other than this region's staging buffers and its accumulator, each at some
    contents: the other two regions' staging buffers and the last region's accumulator. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The accumulator as the kernel is handed it. -/
abbrev accM : Memref sig .tc .vmem S2048x2048 .f32 := Memref.whole cc0_scratch0

/-- The class's region invariant with the accumulator split off the other scoped buffers. -/
theorem PhiA_eq (c : Dev nD) :
    (Pipeline.ΦA spec0 c : sProp 𝕄) = iprop(((∃ d, owns (c : Thread nD τ) accM fullShare d) ∗ others (F := F) c) ∗ (∃ r, prngReg c r)) := by
  unfold Pipeline.ΦA others; rw [scopedRest0_eq]; simp only [accM, owns_whole]; rfl

/-- The region invariant before position n: before the first point the class's (the accumulator at anything);
    afterwards the accumulator at what the point before left. -/
def Phi (c : Dev nD) : (n : ℕ) → n ≤ cfg0.N → sProp 𝕄
  | 0, _ => Pipeline.ΦA spec0 c
  | n + 1, hn => iprop((owns (c : Thread nD τ) accM fullShare (accAt V c n hn) ∗ others (F := F) c) ∗ (∃ r, prngReg c r))

/-- Before a position that is not the first: the accumulator at what the point before left. -/
theorem Phi_pos (c : Dev nD) (n : ℕ) (h : n ≤ cfg0.N) (hz : n ≠ 0) :
    Phi V c n h = iprop((owns (c : Thread nD τ) accM fullShare (accAt V c (n - 1) (by omega)) ∗ others (F := F) c) ∗ (∃ r, prngReg c r)) := by
  cases n with
  | zero => exact absurd rfl hz
  | succ n => rfl

/-- The proof data of pipeline 0 on core c. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay3 (accAt V c t.val t.isLt)
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay3 (accAt V c t.val t.isLt) := by dsimp only [dat]

/-! ## The invariant at a point, and what the inputs' buffers hold -/

/-- After point n (before point n + 1): the accumulator at that point's contents. -/
theorem Phi_succ (c : Dev nD) (n : ℕ) (hn : n < cfg0.N) :
    Phi V c (n + 1) hn = iprop((owns (c : Thread nD τ) accM fullShare (accAt V c n hn) ∗ others (F := F) c) ∗ (∃ r, prngReg c r)) := rfl

/-- At any position the invariant gives the accumulator at something, the other scoped buffers and the generator
    register. -/
theorem Phi_some (c : Dev nD) (n : ℕ) (h : n ≤ cfg0.N) :
    Phi V c n h ⊢ iprop(((∃ d, owns (c : Thread nD τ) accM fullShare d) ∗ others (F := F) c) ∗ (∃ r, prngReg c r)) := by
  cases n with
  | zero => rw [show Phi V c 0 h = Pipeline.ΦA spec0 c from rfl, PhiA_eq]
  | succ n =>
    rw [Phi_succ]
    iintro ⟨⟨HS, Ho⟩, Hg⟩
    isplitl [HS Ho]
    · isplitl [HS]
      · iexists _; iexact HS
      iexact Ho
    iexact Hg

/-- The invariant at a point's start, restated at t.val. -/
theorem Phi_castSucc (c : Dev nD) (t : Fin cfg0.N) :
    (dat V c).Φ t.castSucc = Phi V c t.val (Nat.le_of_lt t.isLt) := by
  dsimp only [dat]; simp only [Fin.coe_castSucc]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point, by the point's place in its run of eight. The inputs' memrefs hold their blocks; the
    invariant hands over the accumulator (at anything where a run opens, else at what the point before left) and
    takes it back at this point's contents; where the run is not closed the output's buffer passes through as it was
    found; where it is closed it is stored with the rounded accumulator. The core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = Phi V c (t.val + 1) t.isLt from rfl, Phi_succ, Phi_castSucc]
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  by_cases h0 : t.val % 8 = 0
  · have ho : opensRun (grid0.coords t) := (opensRun_iff t).mpr h0
    have hcl : ¬closesRun (grid0.coords t) := fun hh => by have := (closesRun_iff t).mp hh; omega
    rw [Dat.leavesExact_idle (dat V c) 2 t (idle_2 t hcl) (noFlush_2 t hcl), accAt_first V c t h0]
    iintro ⟨HP, Ho, ⟨%d0, H0⟩, ⟨%d1, H1⟩, H2⟩
    ihave HQ := (Phi_some V c t.val (Nat.le_of_lt t.isLt)) $$ HP
    icases HQ with ⟨⟨⟨%d, HS⟩, Hoth⟩, Hg⟩
    iapply (run_open c (grid0.coords t) _ _ _ _ _ _ _ _ ho hcl (iblk V c 0 t) (iblk V c 1 t) Set.univ _)
    isplitl [H0]; · iexact H0
    isplitl [H1]; · iexact H1
    isplitl [HS]; · iexists _; iexact HS
    iintro ⟨H0, H1, HS⟩
    isplitl [HS Hoth Hg]
    · isplitl [HS Hoth]
      · isplitl [HS]
        · iexact HS
        iexact Hoth
      iexact Hg
    isplitl [Ho]; · iexact Ho
    isplitl [H0]; · iexact H0
    isplitl [H1]; · iexact H1
    iexact H2
  · have ho : ¬opensRun (grid0.coords t) := fun hh => h0 ((opensRun_iff t).mp hh)
    have hz : t.val ≠ 0 := fun hh => h0 (by rw [hh])
    rw [Phi_pos V c _ _ hz, accAt_next V c t h0]
    by_cases h7 : t.val % 8 = 7
    · have hcl : closesRun (grid0.coords t) := (closesRun_iff t).mpr h7
      rw [show (dat V c).leavesExact 2 t = owns (c : Thread nD τ) (st0_2 t) fullShare ((dat V c).after 2 t) from by
        unfold Dat.leavesExact; rw [live_2 t hcl], after_2, accAt_next V c t h0]
      iintro ⟨⟨⟨HS, Hoth⟩, Hg⟩, Ho, ⟨%d0, H0⟩, ⟨%d1, H1⟩, ⟨%d2, H2⟩⟩
      iapply (run_close c (grid0.coords t) _ _ _ _ _ _ _ _ ho hcl (iblk V c 0 t) (iblk V c 1 t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]
          · iexact HS
          iexact Hoth
        iexact Hg
      isplitl [Ho]; · iexact Ho
      isplitl [H0]; · iexact H0
      isplitl [H1]; · iexact H1
      iexact H2
    · have hcl : ¬closesRun (grid0.coords t) := fun hh => h7 ((closesRun_iff t).mp hh)
      rw [Dat.leavesExact_idle (dat V c) 2 t (idle_2 t hcl) (noFlush_2 t hcl)]
      iintro ⟨⟨⟨HS, Hoth⟩, Hg⟩, Ho, ⟨%d0, H0⟩, ⟨%d1, H1⟩, H2⟩
      iapply (run_mid c (grid0.coords t) _ _ _ _ _ _ _ _ ho hcl (iblk V c 0 t) (iblk V c 1 t) _ Set.univ _)
      isplitl [H0]; · iexact H0
      isplitl [H1]; · iexact H1
      isplitl [HS]; · iexact HS
      iintro ⟨H0, H1, HS⟩
      isplitl [HS Hoth Hg]
      · isplitl [HS Hoth]
        · isplitl [HS]
          · iexact HS
          iexact Hoth
        iexact Hg
      isplitl [Ho]; · iexact Ho
      isplitl [H0]; · iexact H0
      isplitl [H1]; · iexact H1
      iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl]
  exact Idealize.SL.BI.Entails.refl _

/-- After the last point the invariant gives the class's back: the accumulator's contents are forgotten. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl,
    Phi_pos V c _ _ (by rw [Fin.val_last]; have : cfg0.N = 32 := N_0; omega), PhiA_eq]
  iintro ⟨⟨HS, Ho⟩, Hg⟩
  isplitl [HS Ho]
  · isplitl [HS]
    · iexists _; iexact HS
    iexact Ho
  iexact Hg

end Cert.KernelIdeal.Rot

end
-- ==== Proof.Deq.lean ====
/-
  Region 1: the dequantisation pass on a grid of 16 points. Point t reads rows 256 t … 256 t + 255 of the packed
  words and of the scales and writes the same rows of the weight matrix; nothing is carried between points.
  Stated at a parameter V: what the core's buffers hold when the region is entered.
-/
import proofs.«415251_j21182778703901_2_alg».proof.Proof.Gen.KernelIdeal.Launch
import proofs.«415251_j21182778703901_2_alg».proof.Proof.Gen.KernelIdeal.Skeleton
import proofs.«415251_j21182778703901_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Deq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core c: each input's buffer at its block, the output's at the body's one
    store's value of the two input blocks; the class's invariant; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay1 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay1 (iblk V c 0 t) (iblk V c 1 t) := by dsimp only [dat]

/-- Every access of the body starts at row 0, column 0 of its buffer. -/
theorem offs_zero : (![0, 0] : Fin 2 → ℕ) = fun _ => 0 := by
  funext a; match a with
  | ⟨0, _⟩ => rfl
  | ⟨1, _⟩ => rfl

/-- An input window's current buffer holds its block at every point, fetched there or not: the window is
    uncut and never idle, and the body leaves the block in place. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

set_option maxHeartbeats 1000000 in
/-- The body on whole buffers: the packed words' at x0, the scales' at x1, the weights' at anything. It reads the
    three buffers and stores ONE whole block, the dequantised rows k1_pay1 x0 x1; the inputs are left as found. -/
theorem sound_kernel (c : Dev nD) (E : Set ℕ) (i : grid1.Coords)
    (arg1 : Memref sig .tc .vmem S256x2048 .i32) (harg1 : arg1.IsWhole)
    (arg2 : Memref sig .tc .vmem S256x32 .f32) (harg2 : arg2.IsWhole)
    (arg3 : Memref sig .tc .vmem S256x4096 .bf16) (harg3 : arg3.IsWhole)
    (x0 : Vec F S256x2048 .i32) (x1 : Vec F S256x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__dequant_weights_kernel i arg1 harg1 arg2 harg2 arg3 harg3) K := by
  simp only [cc1__dequant_weights_kernel_eq_skeleton]; unfold cc1__dequant_weights_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero offs_zero inb_S256x4096_S256x4096_0_0 y⟩),
    View.canon_unit_zero offs_zero, View.readAt_eq_ld, View.readAt_eq_ld,
    View.ld_unit_zero offs_zero, View.ld_unit_zero offs_zero]

/-- What the body is called with at point t: the invariant, what the core owes, and the three current buffers, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns: no window of this region is ever idle, so each buffer is at what the body leaves. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the two inputs' buffers hold rows 256 t … 256 t + 255 of their arrays, so the body leaves
    those rows dequantised in the output's buffer; the invariant and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Deq

end
-- ==== Proof.Mm.lean ====
/-
  Region 2: the product of the rotated activations with the transposed weight matrix, plus the bias, on a
  2 x 4 x 4 grid. Point t = (i, j, k) reads the 2048 x 1024 block (i, k) of the activations, the 1024 x 1024 block
  (j, k) of the weights and the 1 x 1024 block (0, j) of the bias row; a 2048 x 1024 accumulator kept between points
  is cleared when k = 0, takes the block product at every point, and when k = 3 the accumulator plus the bias row
  is written to output block (i, j). Stated at a parameter V: what the core's buffers hold when the region is entered.
-/
import proofs.«415251_j21182778703901_2_alg».proof.Proof.Gen.KernelIdeal.Launch
import proofs.«415251_j21182778703901_2_alg».proof.Proof.Gen.KernelIdeal.Skeleton
import proofs.«415251_j21182778703901_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point n: the block product of point n added to zero when the point opens a run of
    four (k = 0), else to what the point before left. -/
def accAt (c : Dev nD) : (n : ℕ) → n < cfg2.N → Vec F S2048x1024 .f32
  | 0, h => k2_pay2 (iblk V c 0 ⟨0, h⟩) (iblk V c 1 ⟨0, h⟩) k2_pay1
  | n + 1, h => k2_pay2 (iblk V c 0 ⟨n + 1, h⟩) (iblk V c 1 ⟨n + 1, h⟩)
      (if (n + 1) % 4 = 0 then k2_pay1 else accAt c n (Nat.lt_of_succ_lt h))

theorem accAt_first (c : Dev nD) (t : Fin cfg2.N) (h : t.val % 4 = 0) :
    accAt V c t.val t.isLt = k2_pay2 (iblk V c 0 t) (iblk V c 1 t) k2_pay1 := by
  obtain ⟨n, hn⟩ := t
  cases n with
  | zero => rfl
  | succ n => exact congrArg (k2_pay2 (iblk V c 0 ⟨n + 1, hn⟩) (iblk V c 1 ⟨n + 1, hn⟩)) (if_pos h)

theorem accAt_next (c : Dev nD) (t : Fin cfg2.N) (h : t.val % 4 ≠ 0) :
    accAt V c t.val t.isLt = k2_pay2 (iblk V c 0 t) (iblk V c 1 t) (accAt V c (t.val - 1) (Nat.lt_of_le_of_lt (Nat.sub_le _ _) t.isLt)) := by
  obtain ⟨n, hn⟩ := t
  cases n with
  | zero => exact absurd (Nat.zero_mod 4) h
  | succ n => exact congrArg (k2_pay2 (iblk V c 0 ⟨n + 1, hn⟩) (iblk V c 1 ⟨n + 1, hn⟩)) (if_neg h)

/-! ## The body's two conditionals, from the grid coordinates -/

/-- The first conditional's test, from the grid coordinates: the reduction coordinate is zero. -/
abbrev isFirst (i : grid2.Coords) : Prop := (Scalar.cmpi .ne (Scalar.extui (Scalar.cmpi .eq (BitVec.ofNat 32 (i 2).val) 0#32)) 0#32) = 1#1
theorem isFirst_iff : ∀ t : Fin cfg2.N, isFirst (grid2.coords t) ↔ t.val % 4 = 0 :=
  (by decide +kernel : ∀ t : Fin grid2.N, isFirst (grid2.coords t) ↔ t.val % 4 = 0)
/-- The second conditional's test: the reduction coordinate is the last. -/
abbrev isLast (i : grid2.Coords) : Prop := k2_cond2 i = 1#1
theorem isLast_iff : ∀ t : Fin cfg2.N, isLast (grid2.coords t) ↔ t.val % 4 = 3 :=
  (by decide +kernel : ∀ t : Fin grid2.N, isLast (grid2.coords t) ↔ t.val % 4 = 3)

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
theorem idle_out : ∀ t : Fin cfg2.N, ¬isLast (grid2.coords t) → cfg2.idle 3 (grid2.coords t) = true := by decide +kernel
theorem live_out : ∀ t : Fin cfg2.N, isLast (grid2.coords t) → cfg2.idle 3 (grid2.coords t) = false := by decide +kernel
theorem noFlush_out : ∀ t : Fin cfg2.N, ¬isLast (grid2.coords t) → (cfg2.win 3).flush t = false := by decide +kernel

/-- The stores' and loads' offsets are zero on both axes. -/
theorem offs_zero : (![0, 0] : Fin 2 → Nat) = fun _ => 0 := funext fun a => by fin_cases a <;> rfl

/-! ## The body on whole staging memrefs, in each of its three control cases

The kernel reads its two factor blocks whole, adds their product into the accumulator (after clearing it where the
reduction coordinate is zero), and where the reduction coordinate is the last stores the accumulator plus the bias
row into the output's buffer. Every store covers its whole buffer, so what a buffer holds afterwards is the last
store's payload, and a load of the accumulator after a store into it in the same run reads that store's payload. -/

set_option maxHeartbeats 1000000 in
/-- The body where the reduction coordinate is zero and not the last: the accumulator, at anything, is cleared and
    takes the block product; the three inputs and the output's buffer are left as found. -/
theorem run_first (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole)
    (hc0 : isFirst i) (hc1 : ¬isLast i)
    (x : Vec F S2048x1024 .bf16) (w : Vec F S1024x1024 .bf16) (b : Vec F S1x1024 .f32) (o : Vec F S2048x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k2_pay2 x w k2_pay1)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_run_names
  rw [View.read_writes_eq_canon _ _ _ (fun y => ⟨_, List.mem_cons_self, View.mem_set_unit_zero offs_zero inb_S2048x1024_S2048x1024_0_0 y⟩)]
  rw [View.canon_cons_unit_zero (S := S2048x1024) offs_zero, View.readCov_unit_zero (S := S2048x1024) _ offs_zero]
  simp only [View.readAt_eq_ld, harg3.read_unread, harg4.read_unread, View.ld_unit_zero (S := S2048x1024) offs_zero, View.ld_unit_zero (S := S1024x1024) offs_zero]

set_option maxHeartbeats 1000000 in
/-- The body where the reduction coordinate is neither zero nor the last: the accumulator, at a, takes the block
    product; the three inputs and the output's buffer are left as found. -/
theorem run_mid (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole)
    (hc0 : ¬isFirst i) (hc1 : ¬isLast i)
    (x : Vec F S2048x1024 .bf16) (w : Vec F S1024x1024 .bf16) (b : Vec F S1x1024 .f32) (o : Vec F S2048x1024 .f32) (a : Vec F S2048x1024 .f32)
    (E : Set ℕ) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare o ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare o ∗ owns (c : Thread nD τ) arg7 fullShare (k2_pay2 x w a)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5; obtain rfl := harg6.eq_unread hf6; obtain rfl := harg7.eq_unread hf7
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_run_names
  rw [View.read_writes_eq_canon _ _ _ (fun y => ⟨_, List.mem_cons_self, View.mem_set_unit_zero offs_zero inb_S2048x1024_S2048x1024_0_0 y⟩)]
  rw [View.canon_unit_zero (S := S2048x1024) offs_zero]
  simp only [View.readAt_eq_ld, harg3.read_unread, harg4.read_unread, harg7.read_unread, View.ld_unit_zero (S := S2048x1024) offs_zero, View.ld_unit_zero (S := S1024x1024) offs_zero]

set_option maxHeartbeats 1000000 in
/-- The body where the reduction coordinate is the last (and not zero): the accumulator, at a, takes the block
    product, and the output's buffer, at anything, is stored that plus the bias row; the inputs are left as found. -/
theorem run_last (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole)
    (hc0 : ¬isFirst i) (hc1 : isLast i)
    (x : Vec F S2048x1024 .bf16) (w : Vec F S1024x1024 .bf16) (b : Vec F S1x1024 .f32) (a : Vec F S2048x1024 .f32)
    (E : Set ℕ) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare a
        ∗ (iprop(owns (c : Thread nD τ) arg3 fullShare x ∗ owns (c : Thread nD τ) arg4 fullShare w ∗ owns (c : Thread nD τ) arg5 fullShare b
            ∗ owns (c : Thread nD τ) arg6 fullShare (k2_pay3 (k2_pay2 x w a) b) ∗ owns (c : Thread nD τ) arg7 fullShare (k2_pay2 x w a)) -∗ K ⟨⟩))
      ⊢ wp frame (wpE (defs₀ (F := F)) Variants.none c none) E (cc2__matmul_kernel i arg3 harg3 arg4 harg4 arg5 harg5 arg6 harg6 arg7 harg7) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [View.read_writes_eq_canon _ _ _ (fun y => ⟨_, List.mem_cons_self, View.mem_set_unit_zero offs_zero inb_S2048x1024_S2048x1024_0_0 y⟩)]
    rw [View.canon_unit_zero (S := S2048x1024) offs_zero, View.readCov_unit_zero (S := S2048x1024) _ offs_zero]
    simp only [View.readAt_eq_ld, harg3.read_unread, harg4.read_unread, harg5.read_unread, harg7.read_unread, View.ld_unit_zero (S := S2048x1024) offs_zero, View.ld_unit_zero (S := S1024x1024) offs_zero, View.ld_unit_zero (S := S1x1024) offs_zero]
  iexists _; isplitr
  swap; · iexact H7
  ipureintro
  sl_unfold_run_names
  rw [View.read_writes_eq_canon _ _ _ (fun y => ⟨_, List.mem_cons_self, View.mem_set_unit_zero offs_zero inb_S2048x1024_S2048x1024_0_0 y⟩)]
  rw [View.canon_unit_zero (S := S2048x1024) offs_zero]
  simp only [View.readAt_eq_ld, harg3.read_unread, harg4.read_unread, harg7.read_unread, View.ld_unit_zero (S := S2048x1024) offs_zero, View.ld_unit_zero (S := S1024x1024) offs_zero]

/-- The accumulator as the kernel is handed it. -/
abbrev accM : Memref sig .tc .vmem S2048x1024 .f32 := Memref.whole cc2_scratch0

/-- The scoped buffers of the core other than this region's staging buffers and its accumulator, each at some
    contents: the other two regions' staging buffers and the first region's accumulator. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region invariant before position n: before the first point the class's (the accumulator at anything);
    afterwards the accumulator at what the point before left. -/
def Phi (c : Dev nD) : (n : ℕ) → n ≤ cfg2.N → sProp 𝕄
  | 0, _ => Pipeline.ΦA spec2 c
  | n + 1, hn => iprop((owns (c : Thread nD τ) accM fullShare (accAt V c n hn) ∗ others (F := F) c) ∗ (∃ r, prngReg c r))

/-- The proof data of pipeline 2 on core c. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (accAt V c t.val t.isLt) (iblk V c 2 t)
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay3 (accAt V c t.val t.isLt) (iblk V c 2 t) := by dsimp only [dat]

/-! ## What the body is handed and what it leaves -/

/-- Each input's current staging buffer holds its block at every point, fetched there or not: where it is not
    fetched its block index has not moved since the point before (for the bias row: it depends on the second grid
    coordinate only, and is fetched where the third returns to zero). -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The invariant before the first point is the class's. -/
theorem Phi_zero (c : Dev nD) (n : ℕ) (h : n ≤ cfg2.N) (h0 : n = 0) : Phi V c n h = Pipeline.ΦA spec2 c := by
  subst h0; rfl

/-- After point n the accumulator holds that point's contents. -/
theorem Phi_succ (c : Dev nD) (n : ℕ) (hn : n < cfg2.N) :
    Phi V c (n + 1) hn = iprop((owns (c : Thread nD τ) accM fullShare (accAt V c n hn) ∗ others (F := F) c) ∗ (∃ r, prngReg c r)) := rfl

/-- Before a point that is not the first the accumulator holds what the point before left. -/
theorem Phi_pos (c : Dev nD) (n : ℕ) (h : n ≤ cfg2.N) (h0 : n ≠ 0) :
    Phi V c n h = iprop((owns (c : Thread nD τ) accM fullShare (accAt V c (n - 1) (by omega)) ∗ others (F := F) c) ∗ (∃ r, prngReg c r)) := by
  cases n with
  | zero => exact absurd rfl h0
  | succ n => rfl

/-- The invariant at a point's start, restated at the point's number. -/
theorem Phi_castSucc (c : Dev nD) (t : Fin cfg2.N) :
    (dat V c).Φ t.castSucc = Phi V c t.val (Nat.le_of_lt t.isLt) := by
  dsimp only [dat]; simp only [Fin.coe_castSucc]

/-- The class's invariant hands out the accumulator at some contents, beside the other scoped buffers and the
    generator register: the accumulator is the last of the fourteen scoped buffers that are no staging buffer of
    this region. -/
theorem PhiA_open (c : Dev nD) :
    (Pipeline.ΦA spec2 c : sProp 𝕄) ⊢ iprop(((∃ d, owns (c : Thread nD τ) accM fullShare d) ∗ others (F := F) c) ∗ (∃ r, prngReg c r)) := by
  unfold Pipeline.ΦA; rw [scopedRest2_eq]; unfold others
  simp only [accM, owns_whole]
  iintro ⟨⟨H1, H2, H3, H4, H5, H6, H7, H8, H9, H10, H11, H12, H13, HA⟩, Hg⟩
  isplitr [Hg]
  · isplitl [HA]; · iexact HA
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hg

/-- And takes it back at any contents. -/
theorem PhiA_close (c : Dev nD) :
    iprop(((∃ d, owns (c : Thread nD τ) accM fullShare d) ∗ others (F := F) c) ∗ (∃ r, prngReg c r)) ⊢ (Pipeline.ΦA spec2 c : sProp 𝕄) := by
  unfold Pipeline.ΦA; rw [scopedRest2_eq]; unfold others
  simp only [accM, owns_whole]
  iintro ⟨⟨HA, H1, H2, H3, H4, H5, H6, H7, H8, H9, H10, H11, H12, H13⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HA
  iexact Hg

/-- What the body is called with at point t: the invariant, what the core owes, and the four windows' current
    buffers, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the point's number modulo four says which control
    case it is in. Where it is zero the invariant hands the accumulator at what the point before left (at anything
    at the very first point) and the body clears it and adds the block product; elsewhere the accumulator holds what
    the point before left and gains the block product; the output's buffer is idle and handed back untouched, but
    where the number is three modulo four, where it is stored the accumulator plus the bias row. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (st2_0 t) fullShare ((dat V c).after 0 t) from by
    unfold Dat.leavesExact; rw [live_0 t], after_0]
  rw [show (dat V c).leavesExact 1 t = owns (c : Thread nD τ) (st2_1 t) fullShare ((dat V c).after 1 t) from by
    unfold Dat.leavesExact; rw [live_1 t], after_1]
  rw [show (dat V c).leavesExact 2 t = owns (c : Thread nD τ) (st2_2 t) fullShare ((dat V c).after 2 t) from by
    unfold Dat.leavesExact; rw [live_2 t], after_2]
  have hN : t.val < 32 := lt_of_lt_of_eq t.isLt (show cfg2.N = 32 from N_2)
  by_cases h0 : t.val % 4 = 0
  · have h1 : ¬t.val % 4 = 3 := by omega
    rw [Dat.leavesExact_idle (dat V c) 3 t (idle_out t (fun h => h1 ((isLast_iff t).mp h))) (noFlush_out t (fun h => h1 ((isLast_iff t).mp h)))]
    rw [accAt_first V c t h0]
    by_cases hz : t.val = 0
    · rw [Phi_castSucc V c t, Phi_zero V c _ _ hz]
      iintro ⟨HΦ, Ho, ⟨%d0, H0⟩, ⟨%d1, H1⟩, ⟨%d2, H2⟩, ⟨%d3, H3⟩⟩
      ihave HΦ' := PhiA_open c $$ HΦ
      icases HΦ' with ⟨⟨HA, Hoth⟩, Hg⟩
      iapply (run_first c (grid2.coords t) _ _ _ _ _ _ _ _ _ _ ((isFirst_iff t).mpr h0) (fun h => h1 ((isLast_iff t).mp h)) (iblk V c 0 t) (iblk V c 1 t) (iblk V c 2 t) _ Set.univ _)
      isplitl [H0]; · iexact H0
      isplitl [H1]; · iexact H1
      isplitl [H2]; · iexact H2
      isplitl [H3]; · iexact H3
      isplitl [HA]; · iexact HA
      iintro ⟨H0, H1, H2, H3, HA⟩
      isplitl [HA Hoth Hg]
      · isplitr [Hg]
        · isplitl [HA]; · iexact HA
          iexact Hoth
        iexact Hg
      isplitl [Ho]; · iexact Ho
      isplitl [H0]; · iexact H0
      isplitl [H1]; · iexact H1
      isplitl [H2]; · iexact H2
      iexists _; iexact H3
    · rw [Phi_castSucc V c t, Phi_pos V c _ _ hz]
      iintro ⟨⟨⟨HA, Hoth⟩, Hg⟩, Ho, ⟨%d0, H0⟩, ⟨%d1, H1⟩, ⟨%d2, H2⟩, ⟨%d3, H3⟩⟩
      iapply (run_first c (grid2.coords t) _ _ _ _ _ _ _ _ _ _ ((isFirst_iff t).mpr h0) (fun h => h1 ((isLast_iff t).mp h)) (iblk V c 0 t) (iblk V c 1 t) (iblk V c 2 t) _ Set.univ _)
      isplitl [H0]; · iexact H0
      isplitl [H1]; · iexact H1
      isplitl [H2]; · iexact H2
      isplitl [H3]; · iexact H3
      isplitl [HA]; · iexists _; iexact HA
      iintro ⟨H0, H1, H2, H3, HA⟩
      isplitl [HA Hoth Hg]
      · isplitr [Hg]
        · isplitl [HA]; · iexact HA
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt_next V c t h0]
    rw [Phi_castSucc V c t, Phi_pos V c _ _ hz]
    by_cases h1 : t.val % 4 = 3
    · rw [show (dat V c).leavesExact 3 t = owns (c : Thread nD τ) (st2_3 t) fullShare ((dat V c).after 3 t) from by
        unfold Dat.leavesExact; rw [live_out t ((isLast_iff t).mpr h1)], after_3]
      rw [accAt_next V c t h0]
      iintro ⟨⟨⟨HA, Hoth⟩, Hg⟩, Ho, ⟨%d0, H0⟩, ⟨%d1, H1⟩, ⟨%d2, H2⟩, ⟨%d3, H3⟩⟩
      iapply (run_last c (grid2.coords t) _ _ _ _ _ _ _ _ _ _ (fun h => h0 ((isFirst_iff t).mp h)) ((isLast_iff t).mpr h1) (iblk V c 0 t) (iblk V c 1 t) (iblk V c 2 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HA]; · iexact HA
      iintro ⟨H0, H1, H2, H3, HA⟩
      isplitl [HA Hoth Hg]
      · isplitr [Hg]
        · isplitl [HA]; · iexact HA
          iexact Hoth
        iexact Hg
      isplitl [Ho]; · iexact Ho
      isplitl [H0]; · iexact H0
      isplitl [H1]; · iexact H1
      isplitl [H2]; · iexact H2
      iexact H3
    · rw [Dat.leavesExact_idle (dat V c) 3 t (idle_out t (fun h => h1 ((isLast_iff t).mp h))) (noFlush_out t (fun h => h1 ((isLast_iff t).mp h)))]
      iintro ⟨⟨⟨HA, Hoth⟩, Hg⟩, Ho, ⟨%d0, H0⟩, ⟨%d1, H1⟩, ⟨%d2, H2⟩, ⟨%d3, H3⟩⟩
      iapply (run_mid c (grid2.coords t) _ _ _ _ _ _ _ _ _ _ (fun h => h0 ((isFirst_iff t).mp h)) (fun h => h1 ((isLast_iff t).mp h)) (iblk V c 0 t) (iblk V c 1 t) (iblk V c 2 t) _ (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HA]; · iexact HA
      iintro ⟨H0, H1, H2, H3, HA⟩
      isplitl [HA Hoth Hg]
      · isplitr [Hg]
        · isplitl [HA]; · iexact HA
          iexact Hoth
        iexact Hg
      isplitl [Ho]; · iexact Ho
      isplitl [H0]; · iexact H0
      isplitl [H1]; · iexact H1
      isplitl [H2]; · iexact H2
      iexists _; iexact H3

/-- After any point but none the invariant gives the class's back: what the accumulator holds is forgotten. -/
theorem Phi_out (c : Dev nD) (t : Fin (cfg2.N + 1)) (ht : t.val ≠ 0) : (dat V c).Φ t ⊢ Pipeline.ΦA spec2 c := by
  rw [show (dat V c).Φ t = Phi V c t.val (Nat.le_of_lt_succ t.isLt) from rfl, Phi_pos V c _ _ ht]
  iintro ⟨⟨HA, Hoth⟩, Hg⟩
  iapply (PhiA_close (F := F) c)
  isplitr [Hg]
  · isplitl [HA]; · iexists _; iexact HA
    iexact Hoth
  iexact Hg

/-- The library's body obligation, at every point. -/
theorem body_obligation (c : Dev nD) : BodyObligation (dat (F := F) V c) (defs₀ (F := F)) Variants.none () Set.univ := by
  intro t
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = Phi V c 0 (Nat.zero_le _) from rfl, Phi_zero V c 0 _ rfl]

/-- After the last point the invariant gives the class's back: the accumulator's contents are forgotten. -/
theorem hout (c : Dev nD) : (dat V c).Φ (Fin.last cfg2.N) ⊢ Pipeline.ΦA spec2 c := by
  exact Phi_out V c _ (by rw [Fin.val_last]; have : cfg2.N = 32 := N_2; omega)

end Cert.KernelIdeal.Mm

end
-- ==== Proof.Run.lean ====
/-
  The program's run: a reshape of the input, the rotation product, the dequantisation pass, a reshape of the bias,
  the second product, a reshape of the result. The contents of the core's unscoped buffers at each of the seven
  boundaries are written as a fold from the launch memory (a host operation's result at its buffer; a region's
  arrays at what its write-backs leave, everything else as it was); each region is entered from and left at the
  next term of the fold; and every weakly fair execution ends, nothing faulting, with every unscoped buffer at the
  fold's last term. The frame claim and the value claim are both read off that last term.
-/
import proofs.«415251_j21182778703901_2_alg».proof.Proof.Rot
import proofs.«415251_j21182778703901_2_alg».proof.Proof.Deq
import proofs.«415251_j21182778703901_2_alg».proof.Proof.Mm

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the reshape of the input (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, an output's write-backs folded),
    every other buffer as entered. -/
def W2 (c : Dev nD) : Valuation τ sig (Elt F) :=
  Pipeline.withArrays spec0 c (W1 m ρ c) fun w => (Rot.dat (V1 m ρ) c).arrAt w cfg0.N
theorem W2_arr (c : Dev nD) (w : Fin cfg0.W) :
    W2 m ρ c (Proc.devRef .tc (Pipeline.arrRef spec0 w)) = (Rot.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (Rot.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (an input as entered, an output's write-backs folded),
    every other buffer as entered. -/
def W3 (c : Dev nD) : Valuation τ sig (Elt F) :=
  Pipeline.withArrays spec1 c (W2 m ρ c) fun w => (Deq.dat (V2 m ρ) c).arrAt w cfg1.N
theorem W3_arr (c : Dev nD) (w : Fin cfg1.W) :
    W3 m ρ c (Proc.devRef .tc (Pipeline.arrRef spec1 w)) = (Deq.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (Deq.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the reshape of the bias (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (an input as entered, an output's write-backs folded),
    every other buffer as entered. -/
def W5 (c : Dev nD) : Valuation τ sig (Elt F) :=
  Pipeline.withArrays spec2 c (W4 m ρ c) fun w => (Mm.dat (V4 m ρ) c).arrAt w cfg2.N
theorem W5_arr (c : Dev nD) (w : Fin cfg2.W) :
    W5 m ρ c (Proc.devRef .tc (Pipeline.arrRef spec2 w)) = (Mm.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (Mm.dat (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the reshape of the result: the end. -/
abbrev W6 : Dev nD → Valuation τ sig (Elt F) := fun c => StableHlo.after hostOps3 (W5 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Rot.dat (V1 m ρ) c
  | ⟨1, _⟩ => fun c => Deq.dat (V2 m ρ) c
  | ⟨2, _⟩ => fun c => Mm.dat (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's owing nothing: every unscoped buffer at the fold's last term, the
    generator register at some state. -/
abbrev Tₙ (c : Dev nD) : sProp 𝕄 := iprop(StableHlo.held (c : Thread nD τ) (Pipeline.ucRefs τ sig) (W6 m ρ c) ∗ ∃ r, prngReg c r)

/-! ## The regions' invariants at their two ends, at the fold's contents -/

theorem hin0 (c : Dev nD) : Pipeline.ΦA spec0 c ⊢ (pdats m ρ 0 c).Φ 0 := Rot.hin (V1 m ρ) c
theorem hout0 (c : Dev nD) : (pdats m ρ 0 c).Φ (Fin.last _) ⊢ Pipeline.ΦA spec0 c := Rot.hout (V1 m ρ) c
theorem hin1 (c : Dev nD) : Pipeline.ΦA spec1 c ⊢ (pdats m ρ 1 c).Φ 0 := .rfl
theorem hout1 (c : Dev nD) : (pdats m ρ 1 c).Φ (Fin.last _) ⊢ Pipeline.ΦA spec1 c := .rfl
theorem hin2 (c : Dev nD) : Pipeline.ΦA spec2 c ⊢ (pdats m ρ 2 c).Φ 0 := Mm.hin (V4 m ρ) c
theorem hout2 (c : Dev nD) : (pdats m ρ 2 c).Φ (Fin.last _) ⊢ Pipeline.ΦA spec2 c := Mm.hout (V4 m ρ) c

/-! ## The regions as segments -/

-- a library lemma stated over the pinned configuration unifies with the printed one only when unification may
-- unfold plain definitions in a metavariable's type
set_option backward.isDefEq.respectTransparency.types false in
/-- Region 0 over the thread state: entered with every unscoped buffer at `W1`, left with them at `W2`.
    Its arrays are split out of the unscoped buffers and put back at what the write-backs leave; the generator register
    goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Rot.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 m ρ c)
    unfold Pipeline.ΦA
    iintro ⟨Hp, -, Hr⟩
    isplitl [Hr]; · iexact Hr
    iexact Hp
  hout c := by
    rw [Pipeline.ownSems0_none]
    refine (hout0 m ρ c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered with every unscoped buffer at `W2`, left with them at `W3`.
    Its arrays are split out of the unscoped buffers and put back at what the write-backs leave; the generator register
    goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Deq.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 m ρ c)
    unfold Pipeline.ΦA
    iintro ⟨Hp, -, Hr⟩
    isplitl [Hr]; · iexact Hr
    iexact Hp
  hout c := by
    rw [Pipeline.ownSems0_none]
    refine (hout1 m ρ c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered with every unscoped buffer at `W4`, left with them at `W5`.
    Its arrays are split out of the unscoped buffers and put back at what the write-backs leave; the generator register
    goes into the region invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Mm.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 m ρ c)
    unfold Pipeline.ΦA
    iintro ⟨Hp, -, Hr⟩
    isplitl [Hr]; · iexact Hr
    iexact Hp
  hout c := by
    rw [Pipeline.ownSems0_none]
    refine (hout2 m ρ c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- The program is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN, at any instance: from any memory with zero counters every weakly fair execution of the program on the
    TensorCores terminates, nothing faulting, and in every final state every unscoped buffer holds the fold's last term. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Run

end
-- ==== Proof.Args.lean ====
/-
  No argument array is written by the program: the reshapes write their own results, and each region writes only its
  output array; an argument a region reads through an input window is handed back as it was. So at an argument's
  buffer the fold of the buffer contents walks back to the launch memory.
-/
import proofs.«415251_j21182778703901_2_alg».proof.Proof.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reshape of the input writes only its own result. -/
theorem W1_of (c : Dev nD) (b : Ref sig .tc) (hb : b ≠ main_v0) : W1 m ρ c (Proc.devRef .tc b) = W0 m ρ c (Proc.devRef .tc b) :=
  StableHlo.after_of_forall_not_mem (b := Proc.devRef .tc b) _ _ (by
    intro op hop
    simp only [hostOps0, List.mem_singleton] at hop
    subst hop
    simp only [StableHlo.reshape_writes, Finset.mem_singleton]
    exact StableHlo.devRef_ne_of_ne hb)
/-- The reshape of the bias writes only its own result. -/
theorem W4_of (c : Dev nD) (b : Ref sig .tc) (hb : b ≠ main_v3) : W4 m ρ c (Proc.devRef .tc b) = W3 m ρ c (Proc.devRef .tc b) :=
  StableHlo.after_of_forall_not_mem (b := Proc.devRef .tc b) _ _ (by
    intro op hop
    simp only [hostOps2, List.mem_singleton] at hop
    subst hop
    simp only [StableHlo.reshape_writes, Finset.mem_singleton]
    exact StableHlo.devRef_ne_of_ne hb)
/-- The reshape of the result writes only its own result. -/
theorem W6_of (c : Dev nD) (b : Ref sig .tc) (hb : b ≠ main_v5) : W6 m ρ c (Proc.devRef .tc b) = W5 m ρ c (Proc.devRef .tc b) :=
  StableHlo.after_of_forall_not_mem (b := Proc.devRef .tc b) _ _ (by
    intro op hop
    simp only [hostOps3, List.mem_singleton] at hop
    subst hop
    simp only [StableHlo.reshape_writes, Finset.mem_singleton]
    exact StableHlo.devRef_ne_of_ne hb)

/-- An input array of region 0 leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((Rot.dat (V1 m ρ) c).arrAt_in w hw _).trans (Rot.A_eq (V1 m ρ) c w))
/-- An input array of region 1 leaves the region as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((Deq.dat (V2 m ρ) c).arrAt_in w hw _).trans (Deq.A_eq (V2 m ρ) c w))
/-- An input array of region 2 leaves the region as it entered. -/
theorem W5_in (c : Dev nD) (w : Fin cfg2.W) (hw : (cfg2.win w).isOut = false) :
    W5 m ρ c (Proc.devRef .tc (Pipeline.arrRef spec2 w)) = W4 m ρ c (Proc.devRef .tc (Pipeline.arrRef spec2 w)) :=
  (W5_arr m ρ c w).trans (((Mm.dat (V4 m ρ) c).arrAt_in w hw _).trans (Mm.A_eq (V4 m ρ) c w))

theorem W6_main_arg0 (c : Dev nD) : W6 m ρ c (Proc.devRef .tc main_arg0) = m ((c : Thread nD τ).loc main_arg0) :=
  (W6_of m ρ c main_arg0 (by decide)).trans <| (W5_of_ne m ρ c main_arg0 (by decide)).trans <| (W4_of m ρ c main_arg0 (by decide)).trans <|
    (W3_of_ne m ρ c main_arg0 (by decide)).trans <| (W2_of_ne m ρ c main_arg0 (by decide)).trans <| (W1_of m ρ c main_arg0 (by decide)).trans rfl
theorem W6_main_arg1 (c : Dev nD) : W6 m ρ c (Proc.devRef .tc main_arg1) = m ((c : Thread nD τ).loc main_arg1) :=
  (W6_of m ρ c main_arg1 (by decide)).trans <| (W5_of_ne m ρ c main_arg1 (by decide)).trans <| (W4_of m ρ c main_arg1 (by decide)).trans <|
    (W3_of_ne m ρ c main_arg1 (by decide)).trans <| (W2_in m ρ c 1 rfl).trans <| (W1_of m ρ c main_arg1 (by decide)).trans rfl
theorem W6_main_arg2 (c : Dev nD) : W6 m ρ c (Proc.devRef .tc main_arg2) = m ((c : Thread nD τ).loc main_arg2) :=
  (W6_of m ρ c main_arg2 (by decide)).trans <| (W5_of_ne m ρ c main_arg2 (by decide)).trans <| (W4_of m ρ c main_arg2 (by decide)).trans <|
    (W3_in m ρ c 1 rfl).trans <| (W2_of_ne m ρ c main_arg2 (by decide)).trans <| (W1_of m ρ c main_arg2 (by decide)).trans rfl
theorem W6_main_arg3 (c : Dev nD) : W6 m ρ c (Proc.devRef .tc main_arg3) = m ((c : Thread nD τ).loc main_arg3) :=
  (W6_of m ρ c main_arg3 (by decide)).trans <| (W5_of_ne m ρ c main_arg3 (by decide)).trans <| (W4_of m ρ c main_arg3 (by decide)).trans <|
    (W3_of_ne m ρ c main_arg3 (by decide)).trans <| (W2_of_ne m ρ c main_arg3 (by decide)).trans <| (W1_of m ρ c main_arg3 (by decide)).trans rfl
theorem W6_main_arg4 (c : Dev nD) : W6 m ρ c (Proc.devRef .tc main_arg4) = m ((c : Thread nD τ).loc main_arg4) :=
  (W6_of m ρ c main_arg4 (by decide)).trans <| (W5_of_ne m ρ c main_arg4 (by decide)).trans <| (W4_of m ρ c main_arg4 (by decide)).trans <|
    (W3_in m ρ c 0 rfl).trans <| (W2_of_ne m ρ c main_arg4 (by decide)).trans <| (W1_of m ρ c main_arg4 (by decide)).trans rfl

/-- THE FRAME, at any instance: every weakly fair execution terminates, nothing faulting, the five argument arrays
    ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_main m ρ)

end Cert.KernelIdeal.Run

end
-- ==== Proof.Spec.lean ====
/-
  The three whole-array functions the program is made of, over the extended reals, index by index:
  a matrix product, a matrix product against a transposed right factor, and the 4-bit dequantisation
  (entry (o, k) is the nibble of word (o, k / 2) — the low one for even k, the high one for odd k — read as a
  number, minus 8, times the scale of group k / 128 of row o).
-/
import Idealize.ShloMosaic.PureOps.Ideal
import Idealize.ShloMosaic.Lib.ValueIdx

noncomputable section

open scoped BigOperators

namespace Cert.Spec

open Idealize.ShloMosaic Idealize.ShloMosaic.ValueIdx

abbrev Sq : Shape := ⟨2, ![4096, 4096]⟩
abbrev Sw : Shape := ⟨2, ![4096, 2048]⟩
abbrev Ss : Shape := ⟨2, ![4096, 32]⟩
abbrev Sr : Shape := ⟨2, ![1, 4096]⟩

/-- The matrix product: entry (n, j) is the sum over k of X (n, k) · H (k, j). -/
def mm (X H : Vec Ideal Sq .f32) : Vec Ideal Sq .f32 :=
  fun i => ∑ k : Fin 4096, X (ix2 (i 0) k) * H (ix2 k (i 1))

/-- The product against the transpose, plus a row: entry (n, o) is the sum over k of X (n, k) · W (o, k), plus b (0, o). -/
def mmTb (X W : Vec Ideal Sq .f32) (b : Vec Ideal Sr .f32) : Vec Ideal Sq .f32 :=
  fun i => (∑ k : Fin 4096, X (ix2 (i 0) k) * W (ix2 (i 1) k)) + b (ix2 (0 : Fin 1) (i 1))

/-- The nibble of the packed word that entry (o, k) is made from. -/
def nib (w : Vec Ideal Sw .i32) (i : Sq.Idx) : BitVec 32 :=
  if (i 1).val % 2 = 0 then IntOp.andi (w (ix2 (i 0) ⟨(i 1).val / 2, by have := idx2_lt1 i; show (i 1).val / 2 < 2048; omega⟩)) 15#32
  else IntOp.andi (IntOp.shrsi .vector (w (ix2 (i 0) ⟨(i 1).val / 2, by have := idx2_lt1 i; show (i 1).val / 2 < 2048; omega⟩)) 4#32) 15#32

/-- The dequantised weight matrix. -/
def deq (w : Vec Ideal Sw .i32) (s : Vec Ideal Ss .f32) : Vec Ideal Sq .f32 :=
  fun i => FloatOps.mulf (F := Ideal) (φ := .f32) (FloatOps.subf (F := Ideal) (FloatOps.sitofp (F := Ideal) .f32 (nib w i)) (FloatOps.ofBits (F := Ideal) .f32 0x41000000#32))
    (s (ix2 (i 0) ⟨(i 1).val / 128, by have := idx2_lt1 i; show (i 1).val / 128 < 32; omega⟩))

end Cert.Spec

end
-- ==== Proof.RotValue.lean ====
/-
  What region 0 leaves in its output array, over the extended reals: the matrix product of its two input arrays.
  Output block (i, j) is written once, at the point (i, j, 7), with the accumulator's contents, and the accumulator
  then holds the sum over k = 0 … 7 of the products of block (i, k) of the left factor with block (k, j) of the right:
  the 4096 terms of entry (n, j)'s sum, grouped in eight runs of 512. Regrouping a finite sum needs only that addition
  is associative and commutative, which it is on the extended reals, and 0 + s = s.
-/
import proofs.«415251_j21182778703901_2_alg».proof.Proof.Rot
import proofs.«415251_j21182778703901_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RotValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## One point's arithmetic at an entry -/

/-- The block the accumulator is cleared to holds zero at every index. -/
theorem cleared_apply (j : S2048x2048.Idx) : (k0_pay1 (F := Ideal)) j = 0 := by
  unfold k0_pay1
  rw [shapeCast_self]
  exact Ideal.ofBits_zero_f32

/-! The block product's operand indices, axis by axis: the left operand is read at (row, contracted index), the right
    at (contracted index, column). -/

theorem lhs_blockDot_0 (i : S2048x2048.Idx) (q : dot_S2048x512_S512x2048_S2048x2048_1_0_0_1_n_n.contr.Idx) :
    (dot_S2048x512_S512x2048_S2048x2048_1_0_0_1_n_n.lhsIdx i q 0).val = (i 0).val := by
  unfold DotDims.lhsIdx
  rw [dif_neg (show ¬(0 : Fin S2048x512.rank) ∈ dot_S2048x512_S512x2048_S2048x2048_1_0_0_1_n_n.lhsBatch by decide), dif_pos (show (0 : Fin S2048x512.rank) ∈ dot_S2048x512_S512x2048_S2048x2048_1_0_0_1_n_n.lhsNonContracting by decide)]
  rfl
theorem lhs_blockDot_1 (i : S2048x2048.Idx) (q : dot_S2048x512_S512x2048_S2048x2048_1_0_0_1_n_n.contr.Idx) :
    (dot_S2048x512_S512x2048_S2048x2048_1_0_0_1_n_n.lhsIdx i q 1).val = (q ⟨0, by decide⟩).val :=
  dot_S2048x512_S512x2048_S2048x2048_1_0_0_1_n_n.lhsIdx_val_of_single rfl i q
theorem rhs_blockDot_0 (i : S2048x2048.Idx) (q : dot_S2048x512_S512x2048_S2048x2048_1_0_0_1_n_n.contr.Idx) :
    (dot_S2048x512_S512x2048_S2048x2048_1_0_0_1_n_n.rhsIdx i q 0).val = (q ⟨0, by decide⟩).val :=
  dot_S2048x512_S512x2048_S2048x2048_1_0_0_1_n_n.rhsIdx_val_of_single rfl i q
theorem rhs_blockDot_1 (i : S2048x2048.Idx) (q : dot_S2048x512_S512x2048_S2048x2048_1_0_0_1_n_n.contr.Idx) :
    (dot_S2048x512_S512x2048_S2048x2048_1_0_0_1_n_n.rhsIdx i q 1).val = (i 1).val := by
  unfold DotDims.rhsIdx
  rw [dif_neg (show ¬(1 : Fin S512x2048.rank) ∈ dot_S2048x512_S512x2048_S2048x2048_1_0_0_1_n_n.rhsBatch by decide), dif_pos (show (1 : Fin S512x2048.rank) ∈ dot_S2048x512_S512x2048_S2048x2048_1_0_0_1_n_n.rhsNonContracting by decide)]
  rfl

/-- One point's step at an entry: the accumulator's entry plus the 512 products of row p of the left block with
    column q of the right block. -/
theorem step_apply (x : Vec Ideal S2048x512 .f32) (h : Vec Ideal S512x2048 .f32) (a : Vec Ideal S2048x2048 .f32)
    (p q : Fin 2048) :
    k0_pay2 (F := Ideal) x h a (ix2 p q) = a (ix2 p q) + ∑ k : Fin 512, x (ix2 p k) * h (ix2 k q) := by
  unfold k0_pay2
  rw [shapeCast_self, shapeCast_self]
  refine (addf_apply _ _ _).trans ?_
  refine congrArg (a (ix2 p q) + ·) ?_
  simp only [matmul]
  rw [Ideal.matmul_constant_zero_apply, ← Equiv.sum_comp (ValueIdx.contrEquiv1 dot_S2048x512_S512x2048_S2048x2048_1_0_0_1_n_n 512 rfl rfl).symm]
  refine Finset.sum_congr rfl fun k _ => ?_
  have hk := ValueIdx.contrEquiv1_symm_val dot_S2048x512_S512x2048_S2048x2048_1_0_0_1_n_n 512 rfl rfl k
  have el : dot_S2048x512_S512x2048_S2048x2048_1_0_0_1_n_n.lhsIdx (ix2 p q) ((ValueIdx.contrEquiv1 dot_S2048x512_S512x2048_S2048x2048_1_0_0_1_n_n 512 rfl rfl).symm k) = ix2 p k := funext fun a => Fin.ext (by
    match a with
    | ⟨0, _⟩ => exact lhs_blockDot_0 _ _
    | ⟨1, _⟩ => exact (lhs_blockDot_1 _ _).trans hk)
  have er : dot_S2048x512_S512x2048_S2048x2048_1_0_0_1_n_n.rhsIdx (ix2 p q) ((ValueIdx.contrEquiv1 dot_S2048x512_S512x2048_S2048x2048_1_0_0_1_n_n 512 rfl rfl).symm k) = ix2 k q := funext fun a => Fin.ext (by
    match a with
    | ⟨0, _⟩ => exact (rhs_blockDot_0 _ _).trans hk
    | ⟨1, _⟩ => exact rhs_blockDot_1 _ _)
  rw [el, er]
  rfl

/-- Writing the accumulator out changes no entry. -/
theorem written_apply (a : Vec Ideal S2048x2048 .f32) (j : S2048x2048.Idx) : k0_pay3 (F := Ideal) a j = a j := rfl

/-! ## Where the blocks sit -/

/-- The three windows' block indices at point t, the grid's 32 points run with the contracted axis fastest:
    t = (i·2 + j)·8 + k reads block (i, k) of the left factor and block (k, j) of the right, and accumulates
    output block (i, j). -/
theorem blockIdx : ∀ t : Fin cfg0.N,
    win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = t.val / 16 ∧ win0_2.index t (1 : Fin 2) = t.val / 8 % 2 :=
  (by decide +kernel : ∀ t : Fin grid0.N, _)

/-- The left factor, the right factor, and their blocks at a point, at their literal types. -/
abbrev larr (c : Dev nD) : Vec Ideal Cert.Spec.Sq .f32 := V c main_v0
abbrev rarr (c : Dev nD) : Vec Ideal Cert.Spec.Sq .f32 := V c main_arg1
abbrev lblk (c : Dev nD) (t : Fin cfg0.N) : Vec Ideal S2048x512 .f32 := Rot.iblk V c 0 t
abbrev rblk (c : Dev nD) (t : Fin cfg0.N) : Vec Ideal S512x2048 .f32 := Rot.iblk V c 1 t

/-- Entry (p, k) of the left block at point t is entry (2048 (t / 16) + p, 512 (t % 8) + k) of the left factor. -/
theorem lblk_apply (c : Dev nD) (t : Fin cfg0.N) (p : Fin 2048) (k : Fin 512) (r m : Fin 4096)
    (hr : r.val = 2048 * (t.val / 16) + p.val) (hm : m.val = 512 * (t.val % 8) + k.val) :
    lblk V c t (ix2 p k) = larr V c (ix2 r m) := by
  obtain ⟨e0, e1, -, -, -, -⟩ := blockIdx t
  show V c main_v0 (((cfg0.win 0).blk t).view.emb (ix2 p k)) = V c main_v0 (ix2 r m)
  refine congrArg (V c main_v0) (funext fun a => Fin.ext ?_)
  match a with
  | ⟨0, _⟩ => show win0_0.index t (0 : Fin 2) * 2048 + 1 * p.val = r.val; omega
  | ⟨1, _⟩ => show win0_0.index t (1 : Fin 2) * 512 + 1 * k.val = m.val; omega

/-- Entry (k, q) of the right block at point t is entry (512 (t % 8) + k, 2048 (t / 8 % 2) + q) of the right factor. -/
theorem rblk_apply (c : Dev nD) (t : Fin cfg0.N) (k : Fin 512) (q : Fin 2048) (m s : Fin 4096)
    (hm : m.val = 512 * (t.val % 8) + k.val) (hs : s.val = 2048 * (t.val / 8 % 2) + q.val) :
    rblk V c t (ix2 k q) = rarr V c (ix2 m s) := by
  obtain ⟨-, -, e2, e3, -, -⟩ := blockIdx t
  show V c main_arg1 (((cfg0.win 1).blk t).view.emb (ix2 k q)) = V c main_arg1 (ix2 m s)
  refine congrArg (V c main_arg1) (funext fun a => Fin.ext ?_)
  match a with
  | ⟨0, _⟩ => show win0_1.index t (0 : Fin 2) * 512 + 1 * k.val = m.val; omega
  | ⟨1, _⟩ => show win0_1.index t (1 : Fin 2) * 2048 + 1 * q.val = s.val; omega

/-! ## The running sum -/

/-- The k-th term of entry (r, s) of the product (k is read modulo 4096, so that the term is defined at every natural). -/
def term (X H : Vec Ideal Cert.Spec.Sq .f32) (r s : Fin 4096) (k : ℕ) : EReal :=
  X (ix2 r ⟨k % 4096, Nat.mod_lt _ (by decide)⟩) * H (ix2 ⟨k % 4096, Nat.mod_lt _ (by decide)⟩ s)

theorem term_of_val (X H : Vec Ideal Cert.Spec.Sq .f32) (r s m : Fin 4096) (k : ℕ) (h : m.val = k) :
    X (ix2 r m) * H (ix2 m s) = term X H r s k := by
  have e : (⟨k % 4096, Nat.mod_lt _ (by decide)⟩ : Fin 4096) = m :=
    Fin.ext (by have := m.isLt; show k % 4096 = m.val; omega)
  unfold term
  rw [e]

/-- The sum of the first n terms of entry (r, s). -/
def partialSum (X H : Vec Ideal Cert.Spec.Sq .f32) (r s : Fin 4096) (n : ℕ) : EReal :=
  ∑ k ∈ Finset.range n, term X H r s k

/-- All 4096 terms: the entry of the product. -/
theorem partialSum_all (X H : Vec Ideal Cert.Spec.Sq .f32) (r s : Fin 4096) :
    partialSum X H r s 4096 = Cert.Spec.mm X H (ix2 r s) := by
  unfold partialSum
  rw [Finset.sum_range]
  show _ = ∑ k : Fin 4096, X (ix2 r k) * H (ix2 k s)
  exact Finset.sum_congr rfl fun k _ => (term_of_val X H r s k k.val rfl).symm

/-- A run of 512 further terms added to the first b. -/
theorem partialSum_add_run (X H : Vec Ideal Cert.Spec.Sq .f32) (r s : Fin 4096) (b : ℕ) :
    partialSum X H r s b + ∑ k : Fin 512, term X H r s (b + k.val) = partialSum X H r s (b + 512) := by
  unfold partialSum
  rw [Finset.sum_range_add]
  exact congrArg (_ + ·) (Finset.sum_range (fun x => term X H r s (b + x))).symm

/-- One point's step at entry (p, q), in the terms of the entry (r, s) of the product that the point works on. -/
theorem point_entry (c : Dev nD) (t : Fin cfg0.N) (a : Vec Ideal S2048x2048 .f32) (p q : Fin 2048) (r s : Fin 4096)
    (hr : r.val = 2048 * (t.val / 16) + p.val) (hs : s.val = 2048 * (t.val / 8 % 2) + q.val) :
    k0_pay2 (F := Ideal) (lblk V c t) (rblk V c t) a (ix2 p q)
      = a (ix2 p q) + ∑ k : Fin 512, term (larr V c) (rarr V c) r s (512 * (t.val % 8) + k.val) := by
  refine (step_apply (lblk V c t) (rblk V c t) a p q).trans ?_
  refine congrArg (a (ix2 p q) + ·) (Finset.sum_congr rfl fun k _ => ?_)
  have hm : 512 * (t.val % 8) + k.val < 4096 := by have := k.isLt; omega
  rw [lblk_apply V c t p k r ⟨_, hm⟩ hr rfl, rblk_apply V c t k q ⟨_, hm⟩ s rfl hs]
  exact term_of_val _ _ r s ⟨_, hm⟩ _ rfl

/-- If the accumulator's entry holds the terms before the point's run, the step leaves the terms through the run. -/
theorem point_sum (c : Dev nD) (t : Fin cfg0.N) (a : Vec Ideal S2048x2048 .f32) (p q : Fin 2048) (r s : Fin 4096)
    (hr : r.val = 2048 * (t.val / 16) + p.val) (hs : s.val = 2048 * (t.val / 8 % 2) + q.val)
    (ha : a (ix2 p q) = partialSum (larr V c) (rarr V c) r s (512 * (t.val % 8))) :
    k0_pay2 (F := Ideal) (lblk V c t) (rblk V c t) a (ix2 p q)
      = partialSum (larr V c) (rarr V c) r s (512 * (t.val % 8) + 512) := by
  rw [point_entry V c t a p q r s hr hs, ha]
  exact partialSum_add_run _ _ r s _

/-- At a point that opens a run of eight the accumulator is cleared first: it leaves the first 512 terms. -/
theorem opening_entry (c : Dev nD) (t : Fin cfg0.N) (h8 : t.val % 8 = 0) (p q : Fin 2048) (r s : Fin 4096)
    (hr : r.val = 2048 * (t.val / 16) + p.val) (hs : s.val = 2048 * (t.val / 8 % 2) + q.val) :
    Rot.accAt V c t.val t.isLt (ix2 p q) = partialSum (larr V c) (rarr V c) r s (512 * (t.val % 8) + 512) := by
  refine (congrFun (Rot.accAt_first V c t h8) (ix2 p q)).trans ?_
  refine point_sum V c t (k0_pay1 (F := Ideal)) p q r s hr hs ?_
  rw [cleared_apply, h8]
  exact (Finset.sum_range_zero _).symm

/-- After point n, with k = n % 8, entry (p, q) of the accumulator is the sum of the first 512 (k + 1) terms of entry
    (2048 (n / 16) + p, 2048 (n / 8 % 2) + q) of the product: by induction on the point. -/
theorem acc_entry (c : Dev nD) : ∀ (n : ℕ) (h : n < cfg0.N) (p q : Fin 2048) (r s : Fin 4096),
    r.val = 2048 * (n / 16) + p.val → s.val = 2048 * (n / 8 % 2) + q.val →
    Rot.accAt V c n h (ix2 p q) = partialSum (larr V c) (rarr V c) r s (512 * (n % 8) + 512) := by
  intro n
  induction n with
  | zero =>
    intro h p q r s hr hs
    exact opening_entry V c ⟨0, h⟩ rfl p q r s hr hs
  | succ n ih =>
    intro h p q r s hr hs
    by_cases h8 : (n + 1) % 8 = 0
    · exact opening_entry V c ⟨n + 1, h⟩ h8 p q r s hr hs
    · refine (congrFun (Rot.accAt_next V c ⟨n + 1, h⟩ h8) (ix2 p q)).trans ?_
      refine point_sum V c ⟨n + 1, h⟩ _ p q r s hr hs ?_
      have hprev := ih (Nat.lt_of_succ_lt h) p q r s (by omega) (by omega)
      rw [show 512 * ((n + 1) % 8) = 512 * (n % 8) + 512 by omega]
      exact hprev

/-! ## From the written blocks to the array -/

/-- A point with k = 7 writes back its block of the product: there the accumulator's entry holds all 4096 terms. -/
theorem flushed_eq (c : Dev nD) (t : Fin cfg0.N) (hf : (cfg0.win 2).flush t = true) :
    (Rot.dat V c).flushed 2 t
      = ((cfg0.win 2).blk t).view.read (Elt Ideal) (Cert.Spec.mm (V c main_v0) (V c main_arg1)) := by
  have h7 : t.val % 8 = 7 := (flush0_2 t).mp hf
  obtain ⟨-, -, -, -, e4, e5⟩ := blockIdx t
  have hN : cfg0.N = 32 := N_0
  have ht : t.val < 32 := hN ▸ t.isLt
  show (cfg0.win 2).cut (grid0.coords t) ((Rot.dat V c).after 2 t) = _
  rw [Rot.after_2]
  funext y
  obtain ⟨p, q, rfl⟩ : ∃ (p q : Fin 2048), y = ix2 p q := ⟨y 0, y 1, eq_ix2 (n0 := 2048) (n1 := 2048) y⟩
  have hrlt : 2048 * (t.val / 16) + p.val < 4096 := by have := p.isLt; omega
  have hslt : 2048 * (t.val / 8 % 2) + q.val < 4096 := by have := q.isLt; omega
  have hemb : ((cfg0.win 2).blk t).view.emb (ix2 p q) = ix2 (⟨_, hrlt⟩ : Fin 4096) (⟨_, hslt⟩ : Fin 4096) :=
    funext fun a => Fin.ext (by
      match a with
      | ⟨0, _⟩ => show win0_2.index t (0 : Fin 2) * 2048 + 1 * p.val = 2048 * (t.val / 16) + p.val; omega
      | ⟨1, _⟩ => show win0_2.index t (1 : Fin 2) * 2048 + 1 * q.val = 2048 * (t.val / 8 % 2) + q.val; omega)
  show Rot.accAt V c t.val t.isLt (ix2 p q)
    = Cert.Spec.mm (V c main_v0) (V c main_arg1) (((cfg0.win 2).blk t).view.emb (ix2 p q))
  rw [hemb, ← partialSum_all]
  have hacc := acc_entry V c t.val t.isLt p q ⟨_, hrlt⟩ ⟨_, hslt⟩ rfl rfl
  rw [hacc, h7]

/-- Every entry (n, j) of the output lies in the block written back at the point (n / 2048, j / 2048, 7). -/
theorem covered (i : Cert.Spec.Sq.Idx) :
    ∃ t : Fin cfg0.N, (cfg0.win 2).flush t = true ∧ i ∈ ((cfg0.win 2).blk t).view.set := by
  have hN : cfg0.N = 32 := N_0
  have h0 : (i 0).val < 4096 := idx2_lt0 i
  have h1 : (i 1).val < 4096 := idx2_lt1 i
  have hlt : ((i 0).val / 2048 * 2 + (i 1).val / 2048) * 8 + 7 < cfg0.N := by rw [hN]; omega
  obtain ⟨-, -, -, -, e4, e5⟩ := blockIdx ⟨_, hlt⟩
  have e4' : win0_2.index ⟨_, hlt⟩ (0 : Fin 2) = (((i 0).val / 2048 * 2 + (i 1).val / 2048) * 8 + 7) / 16 := e4
  have e5' : win0_2.index ⟨_, hlt⟩ (1 : Fin 2) = (((i 0).val / 2048 * 2 + (i 1).val / 2048) * 8 + 7) / 8 % 2 := e5
  refine ⟨⟨_, hlt⟩, (flush0_2 _).mpr (by show (((i 0).val / 2048 * 2 + (i 1).val / 2048) * 8 + 7) % 8 = 7; omega), ?_⟩
  show i ∈ ((View.whole main_v1).slice (win0_2.rect ⟨_, hlt⟩)).set
  rw [View.set_slice_whole, Rect.mem_set_unit]
  intro a
  match a with
  | ⟨0, _⟩ =>
    show win0_2.index ⟨_, hlt⟩ (0 : Fin 2) * 2048 ≤ (i 0).val ∧ (i 0).val < win0_2.index ⟨_, hlt⟩ (0 : Fin 2) * 2048 + 2048
    rw [e4']; omega
  | ⟨1, _⟩ =>
    show win0_2.index ⟨_, hlt⟩ (1 : Fin 2) * 2048 ≤ (i 1).val ∧ (i 1).val < win0_2.index ⟨_, hlt⟩ (1 : Fin 2) * 2048 + 2048
    rw [e5']; omega

/-- The output array after the region's last point is the product of the two input arrays as the region found them. -/
theorem final (c : Dev nD) :
    (Cert.KernelIdeal.Rot.dat (F := Ideal) V c).arrAt 2 cfg0.N = Cert.Spec.mm (V c main_v0) (V c main_arg1) :=
  (Rot.dat V c).arrAt_eq_of_cover 2 (Cert.Spec.mm (V c main_v0) (V c main_arg1)) (flushed_eq V c) covered

end Cert.KernelIdeal.RotValue

end
-- ==== Proof.DeqValue.lean ====
/-
  What region 1 leaves in its output array, over the extended reals: the dequantised weight matrix of the packed
  words and the scales as the region found them. Point t writes rows 256 t … 256 t + 255, each entry the body's
  one store's value read at that entry: the two nibble planes joined on a last axis of length 2 and flattened
  (so even columns take the low nibble, odd columns the high one), minus 8, times the scale of the column's group.
-/
import proofs.«415251_j21182778703901_2_alg».proof.Proof.Deq
import proofs.«415251_j21182778703901_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.DeqValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The body's stored value at an entry of the block -/

/-- The word of a block of packed words that column q of row r is made from. -/
abbrev wordAt (v0 : Vec Ideal S256x2048 .i32) (r : Fin 256) (q : Fin 4096) : BitVec 32 :=
  v0 (ix2 r ⟨q.val / 2, by have := q.isLt; omega⟩)

/-- The nibble of that word: the low one for an even column, the high one for an odd column. -/
def nibAt (v0 : Vec Ideal S256x2048 .i32) (r : Fin 256) (q : Fin 4096) : BitVec 32 :=
  if q.val % 2 = 0 then IntOp.andi (wordAt v0 r q) 15#32
  else IntOp.andi (IntOp.shrsi .vector (wordAt v0 r q) 4#32) 15#32

/-- The two nibble planes joined on a last axis of length 2, at (r, h, b). -/
theorem joined_apply (x y : FVec Ideal S256x2048x1 .f32) (r : Fin 256) (h : Fin 2048) (b : Fin 2) :
    concatenate S256x2048x2 2 [⟨S256x2048x1, x⟩, ⟨S256x2048x1, y⟩] concatenates_S256x2048x1_S256x2048x1_S256x2048x2_d2 (ix3 r h b)
      = if b.val = 0 then x (ix3 r h (0 : Fin 1)) else y (ix3 r h (0 : Fin 1)) := by
  split
  · next hb =>
    refine concatenate_pair_apply_left (2 : Fin 3) x y _ (ix3 r h b) rfl (ix3 r h (0 : Fin 1)) (fun a => ?_)
    match a with
    | ⟨0, _⟩ => rfl
    | ⟨1, _⟩ => rfl
    | ⟨2, _⟩ => exact hb.symm
  · next hb =>
    have hb1 : b.val = 1 := by have := b.isLt; omega
    refine concatenate_pair_apply_right (2 : Fin 3) x y _ (ix3 r h b) rfl rfl (ix3 r h (0 : Fin 1)) (fun a ha => ?_) ?_
    · match a with
      | ⟨0, _⟩ => rfl
      | ⟨1, _⟩ => rfl
      | ⟨2, _⟩ => exact absurd rfl ha
    · show 0 + 1 = b.val
      omega

/-- Flattening [256,2048,2] to [256,4096]: column q comes from (q / 2, q % 2). -/
theorem flat2_apply (x : FVec Ideal S256x2048x2 .f32) (r : Fin 256) (q : Fin 4096) :
    shapeCast S256x4096 x shapeCasts_S256x2048x2_S256x4096 (ix2 r q)
      = x (ix3 r (⟨q.val / 2, by have := q.isLt; omega⟩ : Fin 2048) (⟨q.val % 2, by omega⟩ : Fin 2)) := by
  refine shapeCast_apply x shapeCasts_S256x2048x2_S256x4096 (ix2 r q) _ ?_
  rewrite [Shape.rowMajor_val_three, Shape.rowMajor_val_two]
  have hr : r.val < 256 := r.isLt
  have hq : q.val < 4096 := q.isLt
  show (r.val * 2048 + q.val / 2) * 2 + q.val % 2 = r.val * 4096 + q.val
  omega

/-- Adding a unit last axis to [256,2048]. -/
theorem unit2048_apply (x : FVec Ideal S256x2048 .f32) (r : Fin 256) (h : Fin 2048) :
    shapeCast S256x2048x1 x shapeCasts_S256x2048_S256x2048x1 (ix3 r h (0 : Fin 1)) = x (ix2 r h) := by
  refine shapeCast_apply x shapeCasts_S256x2048_S256x2048x1 (ix3 r h (0 : Fin 1)) _ ?_
  rewrite [Shape.rowMajor_val_three, Shape.rowMajor_val_two]
  show r.val * 2048 + h.val = (r.val * 2048 + h.val) * 1 + 0
  omega

/-- Adding a unit last axis to [256,32]. -/
theorem unit32_apply (x : FVec Ideal S256x32 .f32) (r : Fin 256) (g : Fin 32) :
    shapeCast S256x32x1 x shapeCasts_S256x32_S256x32x1 (ix3 r g (0 : Fin 1)) = x (ix2 r g) := by
  refine shapeCast_apply x shapeCasts_S256x32_S256x32x1 (ix3 r g (0 : Fin 1)) _ ?_
  rewrite [Shape.rowMajor_val_three, Shape.rowMajor_val_two]
  show r.val * 32 + g.val = (r.val * 32 + g.val) * 1 + 0
  omega

/-- Splitting [256,4096] into 32 groups of 128 columns: (r, g, l) comes from column 128 g + l. -/
theorem group_apply (x : FVec Ideal S256x4096 .f32) (r : Fin 256) (g : Fin 32) (l : Fin 128) :
    shapeCast S256x32x128 x shapeCasts_S256x4096_S256x32x128 (ix3 r g l)
      = x (ix2 r (⟨g.val * 128 + l.val, by have := g.isLt; have := l.isLt; omega⟩ : Fin 4096)) := by
  refine shapeCast_apply x shapeCasts_S256x4096_S256x32x128 (ix3 r g l) _ ?_
  rewrite [Shape.rowMajor_val_three, Shape.rowMajor_val_two]
  have hg : g.val < 32 := g.isLt
  have hl : l.val < 128 := l.isLt
  show r.val * 4096 + (g.val * 128 + l.val) = (r.val * 32 + g.val) * 128 + l.val
  omega

/-- Flattening the groups back: column q comes from (q / 128, q % 128). -/
theorem ungroup_apply (x : FVec Ideal S256x32x128 .f32) (r : Fin 256) (q : Fin 4096) :
    shapeCast S256x4096 x shapeCasts_S256x32x128_S256x4096 (ix2 r q)
      = x (ix3 r (⟨q.val / 128, by have := q.isLt; omega⟩ : Fin 32) (⟨q.val % 128, by omega⟩ : Fin 128)) := by
  refine shapeCast_apply x shapeCasts_S256x32x128_S256x4096 (ix2 r q) _ ?_
  rewrite [Shape.rowMajor_val_three, Shape.rowMajor_val_two]
  have hq : q.val < 4096 := q.isLt
  show (r.val * 32 + q.val / 128) * 128 + q.val % 128 = r.val * 4096 + q.val
  omega

/-- A scale column [256,32,1] spread over its group's 128 columns. -/
theorem spread_apply (x : FVec Ideal S256x32x1 .f32) (r : Fin 256) (g : Fin 32) (l : Fin 128) :
    broadcastTo S256x32x128 x broadcasts_S256x32x1_S256x32x128 (ix3 r g l) = x (ix3 r g (0 : Fin 1)) := by
  refine broadcastTo_apply x broadcasts_S256x32x1_S256x32x128 (ix3 r g l) _ (fun a => ?_)
  match a with
  | ⟨0, _⟩ => show r.val = if (256 : Nat) = 1 then 0 else r.val; rw [if_neg (by decide)]
  | ⟨1, _⟩ => show g.val = if (32 : Nat) = 1 then 0 else g.val; rw [if_neg (by decide)]
  | ⟨2, _⟩ => show 0 = if (1 : Nat) = 1 then 0 else l.val; rw [if_pos rfl]

/-- The two nibble planes of a block of words, joined and flattened, at (r, q): the nibble of column q as a number. -/
theorem planes_apply (v0 : Vec Ideal S256x2048 .i32) (r : Fin 256) (q : Fin 4096) :
    shapeCast S256x4096
      (concatenate S256x2048x2 2
        [⟨S256x2048x1, shapeCast S256x2048x1 (sitofp (F := Ideal) .f32 (andi v0 (broadcast S256x2048 15#32))) shapeCasts_S256x2048_S256x2048x1⟩,
         ⟨S256x2048x1, shapeCast S256x2048x1 (sitofp (F := Ideal) .f32 (andi (shrsi v0 (broadcast S256x2048 4#32)) (broadcast S256x2048 15#32))) shapeCasts_S256x2048_S256x2048x1⟩]
        concatenates_S256x2048x1_S256x2048x1_S256x2048x2_d2)
      shapeCasts_S256x2048x2_S256x4096 (ix2 r q)
      = FloatOps.sitofp (F := Ideal) .f32 (nibAt v0 r q) := by
  refine (flat2_apply _ r q).trans ?_
  refine (joined_apply _ _ r _ _).trans ?_
  by_cases hq : q.val % 2 = 0
  · refine (if_pos hq).trans ?_
    refine (unit2048_apply _ r _).trans ?_
    have e : nibAt v0 r q = IntOp.andi (wordAt v0 r q) 15#32 := if_pos hq
    rw [e]
    rfl
  · refine (if_neg hq).trans ?_
    refine (unit2048_apply _ r _).trans ?_
    have e : nibAt v0 r q = IntOp.andi (IntOp.shrsi .vector (wordAt v0 r q) 4#32) 15#32 := if_neg hq
    rw [e]
    rfl

/-- The body's one stored value at entry (r, q) of the block: the nibble as a number, minus 8, times the
    scale of the column's group. -/
theorem pay_apply (v0 : Vec Ideal S256x2048 .i32) (v13 : Vec Ideal S256x32 .f32) (r : Fin 256) (q : Fin 4096) :
    k1_pay1 (F := Ideal) v0 v13 (ix2 r q)
      = FloatOps.mulf (F := Ideal) (φ := .f32)
          (FloatOps.subf (F := Ideal) (FloatOps.sitofp (F := Ideal) .f32 (nibAt v0 r q)) (FloatOps.ofBits (F := Ideal) .f32 0x41000000#32))
          (v13 (ix2 r (⟨q.val / 128, by have := q.isLt; omega⟩ : Fin 32))) := by
  have hq : q.val < 4096 := q.isLt
  have hcol : (⟨q.val / 128 * 128 + q.val % 128, by omega⟩ : Fin 4096) = q := Fin.ext (by show q.val / 128 * 128 + q.val % 128 = q.val; omega)
  unfold k1_pay1
  refine (truncf_apply (ψ := .bf16) (φ := .f32) _ bitsLt_bf16_f32 _).trans ?_
  refine (ungroup_apply _ r q).trans ?_
  refine congrArg₂ (FloatOps.mulf (F := Ideal) (φ := .f32)) ?_ ?_
  · refine (group_apply _ r _ _).trans ?_
    refine congrArg₂ (FloatOps.subf (F := Ideal) (φ := .f32)) ?_ rfl
    refine (planes_apply v0 r _).trans ?_
    exact congrArg (fun z => FloatOps.sitofp (F := Ideal) .f32 (nibAt v0 r z)) hcol
  · refine (spread_apply _ r _ _).trans ?_
    exact unit32_apply v13 r _

/-! ## A block of the output against the whole-array function -/

/-- Row r of the block of point n, as a row of the whole array. -/
abbrev rowOf (n : Nat) (hn : n < 16) (r : Fin 256) : Fin 4096 := ⟨256 * n + r.val, by have := r.isLt; omega⟩

/-- The body's stored block, entry by entry, is the dequantisation of the whole arrays at the rows the point
    covers, whenever the two input blocks are those rows of the two arrays. -/
theorem block_eq (v0 : Vec Ideal S256x2048 .i32) (v13 : Vec Ideal S256x32 .f32)
    (w : Vec Ideal Cert.Spec.Sw .i32) (s : Vec Ideal Cert.Spec.Ss .f32) (n : Nat) (hn : n < 16)
    (hw : ∀ (r : Fin 256) (h : Fin 2048), v0 (ix2 r h) = w (ix2 (rowOf n hn r) h))
    (hs : ∀ (r : Fin 256) (g : Fin 32), v13 (ix2 r g) = s (ix2 (rowOf n hn r) g))
    (j : S256x4096.Idx) (i : Cert.Spec.Sq.Idx) (hi0 : (i 0).val = 256 * n + (j 0).val) (hi1 : (i 1).val = (j 1).val) :
    k1_pay1 (F := Ideal) v0 v13 j = Cert.Spec.deq w s i := by
  obtain ⟨r, q, rfl⟩ : ∃ (r : Fin 256) (q : Fin 4096), j = ix2 r q := ⟨j 0, j 1, eq_ix2 j⟩
  obtain ⟨i0, i1, rfl⟩ : ∃ (i0 : Fin 4096) (i1 : Fin 4096), i = ix2 i0 i1 := ⟨i 0, i 1, eq_ix2 i⟩
  have e1 : i1 = q := Fin.ext hi1
  subst e1
  have e0 : i0 = rowOf n hn r := Fin.ext hi0
  subst e0
  refine (pay_apply v0 v13 r i1).trans ?_
  unfold Cert.Spec.deq
  refine congrArg₂ (FloatOps.mulf (F := Ideal) (φ := .f32)) ?_ (hs r _)
  refine congrArg₂ (FloatOps.subf (F := Ideal) (φ := .f32)) ?_ rfl
  refine congrArg (FloatOps.sitofp (F := Ideal) .f32) ?_
  unfold nibAt Cert.Spec.nib
  by_cases hq : i1.val % 2 = 0
  · refine (if_pos hq).trans (Eq.trans ?_ (if_pos hq).symm)
    exact congrArg (fun z => IntOp.andi z 15#32) (hw r _)
  · refine (if_neg hq).trans (Eq.trans ?_ (if_neg hq).symm)
    exact congrArg (fun z => IntOp.andi (IntOp.shrsi .vector z 4#32) 15#32) (hw r _)

/-! ## From the blocks to the array -/

/-- The windows' index maps, decided over the grid: every window's block at point t is block row t, block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 16 := by have h : cfg1.N = 16 := N_1; have := t.isLt; omega

/-- The block of packed words at point t is rows 256 t … 256 t + 255 of the array of packed words. -/
theorem words_apply (c : Dev nD) (t : Fin cfg1.N) (x : S256x2048.Idx) (k : Cert.Spec.Sw.Idx)
    (hk0 : (k 0).val = 256 * t.val + (x 0).val) (hk1 : (k 1).val = (x 1).val) :
    (Cert.KernelIdeal.Deq.iblk (F := Ideal) V c 0 t : Vec Ideal S256x2048 .i32) x = (V c main_arg4 : Cert.Spec.Sw.Idx → BitVec 32) k := by
  obtain ⟨e0, e1, -⟩ := idx_facts t
  unfold Cert.KernelIdeal.Deq.iblk
  rw [View.read_apply]
  show V c main_arg4 _ = V c main_arg4 _
  congr 1
  funext a
  apply Fin.ext
  match a with
  | ⟨0, _⟩ => show win1_0.index t (0 : Fin 2) * 256 + 1 * (x 0).val = (k 0).val; rw [e0, hk0]; omega
  | ⟨1, _⟩ => show win1_0.index t (1 : Fin 2) * 2048 + 1 * (x 1).val = (k 1).val; rw [e1, hk1]; omega

/-- The block of scales at point t is rows 256 t … 256 t + 255 of the array of scales. -/
theorem scales_apply (c : Dev nD) (t : Fin cfg1.N) (x : S256x32.Idx) (k : Cert.Spec.Ss.Idx)
    (hk0 : (k 0).val = 256 * t.val + (x 0).val) (hk1 : (k 1).val = (x 1).val) :
    (Cert.KernelIdeal.Deq.iblk (F := Ideal) V c 1 t : Vec Ideal S256x32 .f32) x = (V c main_arg2 : Cert.Spec.Ss.Idx → EReal) k := by
  obtain ⟨-, -, e2, e3, -⟩ := idx_facts t
  unfold Cert.KernelIdeal.Deq.iblk
  rw [View.read_apply]
  show V c main_arg2 _ = V c main_arg2 _
  congr 1
  funext a
  apply Fin.ext
  match a with
  | ⟨0, _⟩ => show win1_1.index t (0 : Fin 2) * 256 + 1 * (x 0).val = (k 0).val; rw [e2, hk0]; omega
  | ⟨1, _⟩ => show win1_1.index t (1 : Fin 2) * 32 + 1 * (x 1).val = (k 1).val; rw [e3, hk1]; omega

/-- What point t writes back is block t of the dequantisation of the two arrays as the region found them. -/
theorem flushed_eq (c : Dev nD) (t : Fin cfg1.N) :
    (Cert.KernelIdeal.Deq.dat (F := Ideal) V c).flushed 2 t
      = ((cfg1.win 2).blk t).view.read (Elt Ideal) (Cert.Spec.deq (V c main_arg4) (V c main_arg2)) := by
  show (cfg1.win 2).cut (grid1.coords t) ((Cert.KernelIdeal.Deq.dat (F := Ideal) V c).after 2 t) = _
  rw [Cert.KernelIdeal.Deq.after_2]
  obtain ⟨-, -, -, -, e4, e5⟩ := idx_facts t
  funext j
  refine block_eq (Cert.KernelIdeal.Deq.iblk (F := Ideal) V c 0 t) (Cert.KernelIdeal.Deq.iblk (F := Ideal) V c 1 t)
    (V c main_arg4) (V c main_arg2) t.val (point_lt t)
    (fun r h => words_apply V c t (ix2 r h) (ix2 (rowOf t.val (point_lt t) r) h) rfl rfl)
    (fun r g => scales_apply V c t (ix2 r g) (ix2 (rowOf t.val (point_lt t) r) g) rfl rfl)
    j (((cfg1.win 2).blk t).view.emb j) ?_ ?_
  · show win1_2.index t (0 : Fin 2) * 256 + 1 * (j 0).val = 256 * t.val + (j 0).val
    rw [e4]; omega
  · show win1_2.index t (1 : Fin 2) * 4096 + 1 * (j 1).val = (j 1).val
    rw [e5]; omega

/-- An index of the array is in point t's block iff each coordinate is in the block's range on its axis. -/
theorem mem_blk (t : Fin cfg1.N) (i : S4096x4096.Idx) :
    i ∈ ((cfg1.win 2).blk t).view.set ↔ ∀ a : Fin 2, win1_2.index t a * S256x4096.size a ≤ (i a).val ∧ (i a).val < win1_2.index t a * S256x4096.size a + S256x4096.size a := by
  show i ∈ ((View.whole main_v2).slice (win1_2.rect t)).set ↔ _
  rw [View.set_slice_whole, Rect.mem_set_unit]
  exact Iff.rfl

/-- Row r of the array is in the block of point r / 256. -/
theorem cover (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  have hN : cfg1.N = 16 := N_1
  let t : Fin cfg1.N := ⟨(i 0).val / 256, by rw [hN]; omega⟩
  obtain ⟨-, -, -, -, e4, e5⟩ := idx_facts t
  have ht : t.val = (i 0).val / 256 := rfl
  refine ⟨t, flush1_2 t, ?_⟩
  rw [mem_blk]
  intro a
  match a with
  | ⟨0, _⟩ => show win1_2.index t (0 : Fin 2) * 256 ≤ (i 0).val ∧ (i 0).val < win1_2.index t (0 : Fin 2) * 256 + 256; rw [e4, ht]; omega
  | ⟨1, _⟩ => show win1_2.index t (1 : Fin 2) * 4096 ≤ (i 1).val ∧ (i 1).val < win1_2.index t (1 : Fin 2) * 4096 + 4096; rw [e5]; omega

/-- The output array after the region's last point is the dequantisation of the two input arrays. -/
theorem final (c : Dev nD) :
    (Cert.KernelIdeal.Deq.dat (F := Ideal) V c).arrAt 2 cfg1.N = Cert.Spec.deq (V c main_arg4) (V c main_arg2) :=
  (Cert.KernelIdeal.Deq.dat (F := Ideal) V c).arrAt_eq_of_cover 2 (Cert.Spec.deq (V c main_arg4) (V c main_arg2))
    (fun t _ => flushed_eq V c t) cover

end Cert.KernelIdeal.DeqValue

end
-- ==== Proof.MmValue.lean ====
/-
  What region 2 leaves in its output array, over the extended reals: the product of the activations with the
  transposed weights, plus the bias row. Output block (i, j) is written once, at the point (i, j, 3), with the
  accumulator plus the bias block, and the accumulator then holds the sum over k = 0 … 3 of the products of block
  (i, k) of the activations with the transpose of block (j, k) of the weights: the 4096 terms of entry (n, o)'s sum
  grouped in four runs of 1024.
-/
import proofs.«415251_j21182778703901_2_alg».proof.Proof.Mm
import proofs.«415251_j21182778703901_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MmValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The three payloads at an entry -/

/-- The cleared accumulator is zero at every entry. -/
theorem cleared_apply (j : S2048x1024.Idx) : (k2_pay1 (F := Ideal)) j = 0 := by
  unfold k2_pay1
  simp only [shapeCast_self]
  show Ideal.ofBits .f32 0x00000000#32 = 0
  exact Ideal.ofBits_zero_f32

/-- The write-out adds to entry (p, q) of the accumulator entry q of the bias block's one row. -/
theorem biased_apply (a : Vec Ideal S2048x1024 .f32) (b : Vec Ideal S1x1024 .f32) (p : Fin 2048) (q : Fin 1024) :
    k2_pay3 a b (ix2 p q) = a (ix2 p q) + b (ix2 (0 : Fin 1) q) := by
  unfold k2_pay3
  simp only [shapeCast_self]
  rw [addf_apply]
  congr 1
  exact broadcastTo_apply b broadcasts_S1x1024_S2048x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

/-- The block product's operand indices, axis by axis: output entry (p, q) and contraction place r read the left
    operand at (p, r) and the right one at (r, q). -/
theorem lhs_blk_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem lhs_blk_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem rhs_blk_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem rhs_blk_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- One point's step: entry (p, q) of the accumulator gains the inner product of row p of the activation block with
    row q of the weight block (the weight block enters the product transposed). -/
theorem step_apply (x : Vec Ideal S2048x1024 .bf16) (w : Vec Ideal S1024x1024 .bf16) (a : Vec Ideal S2048x1024 .f32)
    (p : Fin 2048) (q : Fin 1024) :
    k2_pay2 x w a (ix2 p q) = a (ix2 p q) + ∑ r : Fin 1024, x (ix2 p r) * w (ix2 q r) := by
  unfold k2_pay2
  simp only [shapeCast_self]
  rw [addf_apply]
  congr 1
  show FloatOps.matmul dot_S2048x1024_S1024x1024_S2048x1024_1_0_0_1_n_n none x _ (constant (F := Ideal) S2048x1024 .f32 0x00000000#32) (ix2 p q) = _
  rw [Ideal.matmul_constant_zero_apply, ← Equiv.sum_comp (contrEquiv1 dot_S2048x1024_S1024x1024_S2048x1024_1_0_0_1_n_n 1024 rfl rfl).symm]
  refine Finset.sum_congr rfl fun r _ => ?_
  have hk := contrEquiv1_symm_val dot_S2048x1024_S1024x1024_S2048x1024_1_0_0_1_n_n 1024 rfl rfl r
  have el : dot_S2048x1024_S1024x1024_S2048x1024_1_0_0_1_n_n.lhsIdx (ix2 p q) ((contrEquiv1 dot_S2048x1024_S1024x1024_S2048x1024_1_0_0_1_n_n 1024 rfl rfl).symm r) = ix2 p r := funext fun a => Fin.ext (by
    match a with
    | ⟨0, _⟩ => exact lhs_blk_0 _ _
    | ⟨1, _⟩ => exact (lhs_blk_1 _ _).trans hk)
  have er : dot_S2048x1024_S1024x1024_S2048x1024_1_0_0_1_n_n.rhsIdx (ix2 p q) ((contrEquiv1 dot_S2048x1024_S1024x1024_S2048x1024_1_0_0_1_n_n 1024 rfl rfl).symm r) = ix2 r q := funext fun a => Fin.ext (by
    match a with
    | ⟨0, _⟩ => exact (rhs_blk_0 _ _).trans hk
    | ⟨1, _⟩ => exact rhs_blk_1 _ _)
  rw [el, er]
  congr 1
  exact transpose_apply [1, 0] w transposes_S1024x1024_p1_0_S1024x1024 (ix2 r q) (ix2 q r) (fun b => match b with
    | ⟨0, _⟩ => rfl
    | ⟨1, _⟩ => rfl)

/-! ## Where a point's blocks sit in the arrays -/

/-- Row 2048 i + p of a 4096-row array: row p of row block i of the activations and of the output. -/
def rowAct (i : Fin 2) (p : Fin 2048) : Fin 4096 := ⟨2048 * i.val + p.val, by omega⟩
/-- Place 1024 j + q on an axis of length 4096: row q of row block j of the weights, column q of column block j of
    the output and of the bias, place q of run j of the contracted axis. -/
def at1024 (j : Fin 4) (q : Fin 1024) : Fin 4096 := ⟨1024 * j.val + q.val, by omega⟩

/-- The three coordinates of point n = (i · 4 + j) · 4 + k. -/
def ptI (n : ℕ) : Fin 2 := ⟨n / 16 % 2, Nat.mod_lt _ (by decide)⟩
def ptJ (n : ℕ) : Fin 4 := ⟨n / 4 % 4, Nat.mod_lt _ (by decide)⟩
def ptK (n : ℕ) : Fin 4 := ⟨n % 4, Nat.mod_lt _ (by decide)⟩

/-- The printed index maps, decided over the grid: the activations' block is (i, k), the weights' (j, k), the
    bias's (0, j), the output's (i, j). -/
theorem index_facts : ∀ t : Fin cfg2.N, win2_0.index t (0 : Fin 2) = t.val / 16 % 2 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val / 4 % 4
    ∧ win2_3.index t (0 : Fin 2) = t.val / 16 % 2 ∧ win2_3.index t (1 : Fin 2) = t.val / 4 % 4 :=
  (by decide +kernel : ∀ t : Fin grid2.N, _)

/-- Entry (p, r) of the activation block at point t is entry (2048 i + p, 1024 k + r) of the activations. -/
theorem act_blk_apply (c : Dev nD) (t : Fin cfg2.N) (p : Fin 2048) (r : Fin 1024) :
    (Mm.iblk V c 0 t : Vec Ideal S2048x1024 .bf16) (ix2 p r) = V c main_v1 (ix2 (rowAct (ptI t.val) p) (at1024 (ptK t.val) r)) := by
  obtain ⟨e0, e1, -⟩ := index_facts t
  unfold Mm.iblk
  rw [View.read_apply]
  show V c main_v1 _ = V c main_v1 _
  congr 1
  funext a
  apply Fin.ext
  match a with
  | ⟨0, _⟩ => show win2_0.index t (0 : Fin 2) * 2048 + 1 * p.val = 2048 * (t.val / 16 % 2) + p.val; rw [e0]; omega
  | ⟨1, _⟩ => show win2_0.index t (1 : Fin 2) * 1024 + 1 * r.val = 1024 * (t.val % 4) + r.val; rw [e1]; omega

/-- Entry (q, r) of the weight block at point t is entry (1024 j + q, 1024 k + r) of the weights. -/
theorem wt_blk_apply (c : Dev nD) (t : Fin cfg2.N) (q : Fin 1024) (r : Fin 1024) :
    (Mm.iblk V c 1 t : Vec Ideal S1024x1024 .bf16) (ix2 q r) = V c main_v2 (ix2 (at1024 (ptJ t.val) q) (at1024 (ptK t.val) r)) := by
  obtain ⟨-, -, e2, e3, -⟩ := index_facts t
  unfold Mm.iblk
  rw [View.read_apply]
  show V c main_v2 _ = V c main_v2 _
  congr 1
  funext a
  apply Fin.ext
  match a with
  | ⟨0, _⟩ => show win2_1.index t (0 : Fin 2) * 1024 + 1 * q.val = 1024 * (t.val / 4 % 4) + q.val; rw [e2]; omega
  | ⟨1, _⟩ => show win2_1.index t (1 : Fin 2) * 1024 + 1 * r.val = 1024 * (t.val % 4) + r.val; rw [e3]; omega

/-- Entry (0, q) of the bias block at point t is entry (0, 1024 j + q) of the bias row. -/
theorem bias_blk_apply (c : Dev nD) (t : Fin cfg2.N) (q : Fin 1024) :
    (Mm.iblk V c 2 t : Vec Ideal S1x1024 .f32) (ix2 (0 : Fin 1) q) = V c main_v3 (ix2 (0 : Fin 1) (at1024 (ptJ t.val) q)) := by
  obtain ⟨-, -, -, -, e4, e5, -⟩ := index_facts t
  unfold Mm.iblk
  rw [View.read_apply]
  show V c main_v3 _ = V c main_v3 _
  congr 1
  funext a
  apply Fin.ext
  match a with
  | ⟨0, _⟩ => show win2_2.index t (0 : Fin 2) * 1 + 1 * 0 = 0; rw [e4]
  | ⟨1, _⟩ => show win2_2.index t (1 : Fin 2) * 1024 + 1 * q.val = 1024 * (t.val / 4 % 4) + q.val; rw [e5]; omega

/-- Entry (p, q) of output block (i, j), read off a whole output array G, is G's entry (2048 i + p, 1024 j + q). -/
theorem out_blk_apply (G : Vec Ideal Cert.Spec.Sq .f32) (t : Fin cfg2.N) (p : Fin 2048) (q : Fin 1024) :
    ((cfg2.win 3).blk t).view.read (Elt Ideal) G (ix2 p q) = G (ix2 (rowAct (ptI t.val) p) (at1024 (ptJ t.val) q)) := by
  obtain ⟨-, -, -, -, -, -, e6, e7⟩ := index_facts t
  rw [View.read_apply]
  show G _ = G _
  congr 1
  funext a
  apply Fin.ext
  match a with
  | ⟨0, _⟩ => show win2_3.index t (0 : Fin 2) * 2048 + 1 * p.val = 2048 * (t.val / 16 % 2) + p.val; rw [e6]; omega
  | ⟨1, _⟩ => show win2_3.index t (1 : Fin 2) * 1024 + 1 * q.val = 1024 * (t.val / 4 % 4) + q.val; rw [e7]; omega

/-! ## The accumulator along a run of four points -/

/-- What point n adds to entry (p, q) of the accumulator: of the inner product of activation row 2048 i + p with
    weight row 1024 j + q, the 1024 terms of run k of the contracted axis, n = (i · 4 + j) · 4 + k. -/
def addend (X W : Vec Ideal Cert.Spec.Sq .f32) (n : ℕ) (p : Fin 2048) (q : Fin 1024) : Ideal .f32 :=
  ∑ r : Fin 1024, X (ix2 (rowAct (ptI n) p) (at1024 (ptK n) r)) * W (ix2 (at1024 (ptJ n) q) (at1024 (ptK n) r))

/-- The step of point t, with the blocks read off the arrays. -/
theorem step_at (c : Dev nD) (t : Fin cfg2.N) (a : Vec Ideal S2048x1024 .f32) (p : Fin 2048) (q : Fin 1024) :
    k2_pay2 (Mm.iblk V c 0 t) (Mm.iblk V c 1 t) a (ix2 p q) = a (ix2 p q) + addend (V c main_v1) (V c main_v2) t.val p q := by
  rw [step_apply]
  congr 1
  exact Finset.sum_congr rfl fun r _ => by rw [act_blk_apply, wt_blk_apply]

/-- After point n, the k-th of its run of four (k = n % 4), the accumulator's entry (p, q) is the sum of what the
    run's points up to n added: by induction along the points, the cleared accumulator being zero. -/
theorem acc_apply (c : Dev nD) (n : ℕ) : ∀ (h : n < cfg2.N) (p : Fin 2048) (q : Fin 1024),
    Mm.accAt V c n h (ix2 p q) = ∑ s ∈ Finset.range (n % 4 + 1), addend (V c main_v1) (V c main_v2) (n - n % 4 + s) p q := by
  induction n using Nat.strong_induction_on with
  | _ n ih =>
    intro h p q
    by_cases h0 : n % 4 = 0
    · have hfirst : Mm.accAt V c n h = k2_pay2 (Mm.iblk V c 0 ⟨n, h⟩) (Mm.iblk V c 1 ⟨n, h⟩) (k2_pay1 (F := Ideal)) :=
        Mm.accAt_first V c ⟨n, h⟩ h0
      rw [hfirst, step_at, cleared_apply, zero_add, h0, Finset.sum_range_one]
      rfl
    · have hnext : Mm.accAt V c n h = k2_pay2 (Mm.iblk V c 0 ⟨n, h⟩) (Mm.iblk V c 1 ⟨n, h⟩) (Mm.accAt V c (n - 1) (by omega)) :=
        Mm.accAt_next V c ⟨n, h⟩ h0
      have hk : (n - 1) % 4 + 1 = n % 4 := by omega
      have hb : n - 1 - (n - 1) % 4 = n - n % 4 := by omega
      have he : n - n % 4 + n % 4 = n := by omega
      rw [hnext, step_at, ih (n - 1) (by omega), hk, hb, Finset.sum_range_succ, he]

/-- The 4096 terms of a sum over the contracted axis, grouped in four runs of 1024. -/
theorem sum_four_runs {M : Type*} [AddCommMonoid M] (f : Fin 4096 → M) :
    ∑ k : Fin 4096, f k = ∑ s : Fin 4, ∑ r : Fin 1024, f (at1024 s r) := by
  rw [← Fintype.sum_prod_type (f := fun x : Fin 4 × Fin 1024 => f (at1024 x.1 x.2)),
    ← Equiv.sum_comp (finProdFinEquiv (m := 4) (n := 1024)) f]
  refine Finset.sum_congr rfl fun x _ => congrArg f (Fin.ext ?_)
  show x.2.val + 1024 * x.1.val = 1024 * x.1.val + x.2.val
  omega

/-- The inner product of row n of X with row o of W. -/
def rowDot (X W : Vec Ideal Cert.Spec.Sq .f32) (n o : Fin 4096) : Ideal .f32 := ∑ k : Fin 4096, X (ix2 n k) * W (ix2 o k)

/-- The specification at an entry. -/
theorem mmTb_apply (X W : Vec Ideal Cert.Spec.Sq .f32) (b : Vec Ideal Cert.Spec.Sr .f32) (n o : Fin 4096) :
    Cert.Spec.mmTb X W b (ix2 n o) = rowDot X W n o + b (ix2 (0 : Fin 1) o) := rfl

/-- At the last point of a run (k = 3) the accumulator's entry (p, q) is the whole inner product of activation row
    2048 i + p with weight row 1024 j + q. -/
theorem acc_full (c : Dev nD) (t : Fin cfg2.N) (h3 : t.val % 4 = 3) (p : Fin 2048) (q : Fin 1024) :
    Mm.accAt V c t.val t.isLt (ix2 p q) = rowDot (V c main_v1) (V c main_v2) (rowAct (ptI t.val) p) (at1024 (ptJ t.val) q) := by
  unfold rowDot
  rw [acc_apply, h3, Finset.sum_range, sum_four_runs]
  refine Finset.sum_congr rfl fun s _ => ?_
  have hs := s.isLt
  have eI : ptI (t.val - 3 + s.val) = ptI t.val := Fin.ext (by show (t.val - 3 + s.val) / 16 % 2 = t.val / 16 % 2; omega)
  have eJ : ptJ (t.val - 3 + s.val) = ptJ t.val := Fin.ext (by show (t.val - 3 + s.val) / 4 % 4 = t.val / 4 % 4; omega)
  have eK : ptK (t.val - 3 + s.val) = s := Fin.ext (by show (t.val - 3 + s.val) % 4 = s.val; omega)
  unfold addend
  rw [eI, eJ, eK]

/-! ## From the blocks to the array -/

/-- What a point that writes back writes: its block of the product plus the bias row. -/
theorem flushed_eq (c : Dev nD) (t : Fin cfg2.N) (hf : (cfg2.win 3).flush t = true) :
    (Mm.dat (F := Ideal) V c).flushed 3 t
      = ((cfg2.win 3).blk t).view.read (Elt Ideal) (Cert.Spec.mmTb (V c main_v1) (V c main_v2) (V c main_v3)) := by
  have h3 : t.val % 4 = 3 := (flush2_3 t).mp hf
  show (cfg2.win 3).cut (grid2.coords t) ((Mm.dat (F := Ideal) V c).after 3 t) = _
  rw [Mm.after_3]
  funext y
  obtain ⟨p, q, rfl⟩ : ∃ (p : Fin 2048) (q : Fin 1024), y = ix2 p q := ⟨y 0, y 1, eq_ix2 y⟩
  rw [out_blk_apply]
  show k2_pay3 (Mm.accAt V c t.val t.isLt) (Mm.iblk V c 2 t) (ix2 p q) = _
  rw [biased_apply, acc_full V c t h3, bias_blk_apply, mmTb_apply]

/-- An entry of the output array is in point t's block iff each coordinate is in the block's range on its axis. -/
theorem mem_out_blk (t : Fin cfg2.N) (i : S4096x4096.Idx) :
    i ∈ ((cfg2.win 3).blk t).view.set ↔ ∀ a : Fin 2, win2_3.index t a * S2048x1024.size a ≤ (i a).val ∧ (i a).val < win2_3.index t a * S2048x1024.size a + S2048x1024.size a := by
  show i ∈ ((View.whole main_v4).slice (win2_3.rect t)).set ↔ _
  rw [View.set_slice_whole, Rect.mem_set_unit]
  exact Iff.rfl

/-- Entry (n, o) of the output is in the block the point (n / 2048, o / 1024, 3) writes back. -/
theorem cover (i : S4096x4096.Idx) : ∃ t : Fin cfg2.N, (cfg2.win 3).flush t = true ∧ i ∈ ((cfg2.win 3).blk t).view.set := by
  have h0 : (i 0).val < 4096 := (i 0).isLt
  have h1 : (i 1).val < 4096 := (i 1).isLt
  have hN : cfg2.N = 32 := N_2
  obtain ⟨t, ht⟩ : ∃ t : Fin cfg2.N, t.val = ((i 0).val / 2048 * 4 + (i 1).val / 1024) * 4 + 3 :=
    ⟨⟨((i 0).val / 2048 * 4 + (i 1).val / 1024) * 4 + 3, by rw [hN]; omega⟩, rfl⟩
  obtain ⟨-, -, -, -, -, -, e6, e7⟩ := index_facts t
  refine ⟨t, (flush2_3 t).mpr (by omega), ?_⟩
  rw [mem_out_blk]
  intro a
  match a with
  | ⟨0, _⟩ => show win2_3.index t (0 : Fin 2) * 2048 ≤ (i 0).val ∧ (i 0).val < win2_3.index t (0 : Fin 2) * 2048 + 2048; rw [e6]; omega
  | ⟨1, _⟩ => show win2_3.index t (1 : Fin 2) * 1024 ≤ (i 1).val ∧ (i 1).val < win2_3.index t (1 : Fin 2) * 1024 + 1024; rw [e7]; omega

/-- The output array after the region's last point, from the three input arrays as the region found them. -/
theorem final (c : Dev nD) :
    (Cert.KernelIdeal.Mm.dat (F := Ideal) V c).arrAt 3 cfg2.N = Cert.Spec.mmTb (V c main_v1) (V c main_v2) (V c main_v3) :=
  (Mm.dat (F := Ideal) V c).arrAt_eq_of_cover 3 _ (flushed_eq V c) cover

end Cert.KernelIdeal.MmValue

end
-- ==== Proof.RefValue.lean ====
/-
  The reference program's stages are the specification's functions: its first product is the matrix product of the
  flattened input with the rotation, its dequantisation chain (mask, shift, join, flatten, convert, subtract 8,
  regroup, scale, flatten) is the dequantised weight matrix, and its last stage before the final reshape is the
  product against the transpose plus the bias row.
-/
import proofs.«415251_j21182778703901_2_alg».proof.Proof.Gen.ReferenceIdeal.Read
import proofs.«415251_j21182778703901_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ## Index bookkeeping of the dequantisation chain

Entry (o, k) of the flattened weight matrix sits at (o, k / 128, k % 128) of the regrouped array and at
(o, k / 2, k % 2) of the joined array of nibbles; regrouping and flattening again is the identity. -/

/-- Regrouping the columns into 32 groups of 128 and flattening again returns every entry to its place. -/
theorem regroup_flatten (i : S4096x4096.Idx) : idx_main_v15 (idx_main_v19 i) = i := by
  have h0 : (i 0).val < 4096 := idx2_lt0 i
  have h1 : (i 1).val < 4096 := idx2_lt1 i
  funext a
  apply Fin.ext
  match a with
  | ⟨0, _⟩ =>
    show ((((i 0).val * 4096 + (i 1).val) / 4096 * 32 + ((i 0).val * 4096 + (i 1).val) / 128 % 32) * 128
      + ((i 0).val * 4096 + (i 1).val) % 128) / 4096 = (i 0).val
    omega
  | ⟨1, _⟩ =>
    show ((((i 0).val * 4096 + (i 1).val) / 4096 * 32 + ((i 0).val * 4096 + (i 1).val) / 128 % 32) * 128
      + ((i 0).val * 4096 + (i 1).val) % 128) % 4096 = (i 1).val
    omega

/-- The scale that multiplies entry (o, k) is the one of row o, group k / 128. -/
theorem scale_index (i : S4096x4096.Idx) :
    idx_main_v16 (idx_main_v17 (idx_main_v19 i))
      = ix2 (i 0) (⟨(i 1).val / 128, by have := idx2_lt1 i; omega⟩ : Fin 32) := by
  have h0 : (i 0).val < 4096 := idx2_lt0 i
  have h1 : (i 1).val < 4096 := idx2_lt1 i
  funext a
  apply Fin.ext
  match a with
  | ⟨0, _⟩ =>
    show ((i 0).val * 4096 + (i 1).val) / 4096 = (i 0).val
    omega
  | ⟨1, _⟩ =>
    show ((i 0).val * 4096 + (i 1).val) / 128 % 32 = (i 1).val / 128
    omega

/-- The place, in either array of nibbles, of the word that entry (o, k) is made from: (o, k / 2, 0). -/
abbrev wordAt (i : S4096x4096.Idx) : S4096x2048x1.Idx :=
  ix3 (⟨(i 0).val, idx2_lt0 i⟩ : Fin 4096) (⟨(i 1).val / 2, by have := idx2_lt1 i; omega⟩ : Fin 2048) (⟨0, Nat.one_pos⟩ : Fin 1)

/-- Dropping the unit axis of that place gives word (o, k / 2). -/
theorem wordAt_low (i : S4096x4096.Idx) :
    idx_main_v8 (wordAt i) = ix2 (i 0) (⟨(i 1).val / 2, by have := idx2_lt1 i; omega⟩ : Fin 2048) :=
  funext fun a => Fin.ext (by match a with | ⟨0, _⟩ => rfl | ⟨1, _⟩ => rfl)

theorem wordAt_high (i : S4096x4096.Idx) :
    idx_main_v9 (wordAt i) = ix2 (i 0) (⟨(i 1).val / 2, by have := idx2_lt1 i; omega⟩ : Fin 2048) :=
  funext fun a => Fin.ext (by match a with | ⟨0, _⟩ => rfl | ⟨1, _⟩ => rfl)

/-- The joined array of nibbles, flattened: entry (o, k) is the low nibble of word (o, k / 2) for even k and the
    high one for odd k. -/
theorem joined_at (x4 : (⟨S4096x2048, .i32⟩ : BufTy).Contents (Elt Ideal)) (i : S4096x4096.Idx) :
    val_main_v10 (F := Ideal) x4 (idx_main_v11 i) = Cert.Spec.nib x4 i := by
  have h0 : (i 0).val < 4096 := idx2_lt0 i
  have h1 : (i 1).val < 4096 := idx2_lt1 i
  unfold val_main_v10 Cert.Spec.nib
  by_cases hp : (i 1).val % 2 = 0
  · rw [if_pos hp]
    rw [concatenate_pair_apply_left 2 (val_main_v8 (F := Ideal) x4) (val_main_v9 (F := Ideal) x4)
      concatenates_S4096x2048x1_S4096x2048x1_S4096x2048x2_d2 (idx_main_v11 i) rfl (wordAt i) (fun b => by
        match b with
        | ⟨0, _⟩ =>
          show (i 0).val = ((i 0).val * 4096 + (i 1).val) / 4096
          omega
        | ⟨1, _⟩ =>
          show (i 1).val / 2 = ((i 0).val * 4096 + (i 1).val) / 2 % 2048
          omega
        | ⟨2, _⟩ =>
          show 0 = ((i 0).val * 4096 + (i 1).val) % 2
          omega)]
    rw [val_main_v8_apply, val_main_v3_apply, val_main_v2_apply, val_main_c_apply, wordAt_low]
    rfl
  · rw [if_neg hp]
    rw [concatenate_pair_apply_right 2 (val_main_v8 (F := Ideal) x4) (val_main_v9 (F := Ideal) x4)
      concatenates_S4096x2048x1_S4096x2048x1_S4096x2048x2_d2 (idx_main_v11 i) rfl rfl (wordAt i) (fun b hb => by
        match b with
        | ⟨0, _⟩ =>
          show (i 0).val = ((i 0).val * 4096 + (i 1).val) / 4096
          omega
        | ⟨1, _⟩ =>
          show (i 1).val / 2 = ((i 0).val * 4096 + (i 1).val) / 2 % 2048
          omega
        | ⟨2, _⟩ => exact absurd rfl hb)
      (by
        show 0 + 1 = ((i 0).val * 4096 + (i 1).val) % 2
        omega)]
    rw [val_main_v9_apply, val_main_v7_apply, val_main_v5_apply, val_main_v6_apply, val_main_c_1_apply,
      val_main_v4_apply, val_main_c_0_apply, wordAt_high, shrsi_unit .host .vector]
    rfl

/-- The first product. -/
theorem v1_eq (x0 : (⟨S2x2048x4096, .f32⟩ : BufTy).Contents (Elt Ideal)) (x1 : (⟨S4096x4096, .f32⟩ : BufTy).Contents (Elt Ideal)) :
    val_main_v1 (F := Ideal) x0 x1 = Cert.Spec.mm (val_main_v0 (F := Ideal) x0) x1 := by
  funext i
  rw [val_main_v1_apply]
  generalize val_main_v0 (F := Ideal) x0 = y0
  show _ = ∑ k : Fin 4096, y0 (ix2 (i 0) k) * x1 (ix2 k (i 1))
  refine Finset.sum_congr rfl fun k _ => ?_
  have el : lidx_main_v1 i k = ix2 (i 0) k :=
    funext fun a => Fin.ext (by match a with | ⟨0, _⟩ => rfl | ⟨1, _⟩ => rfl)
  have er : ridx_main_v1 i k = ix2 k (i 1) :=
    funext fun a => Fin.ext (by match a with | ⟨0, _⟩ => rfl | ⟨1, _⟩ => rfl)
  rw [el, er]
  rfl

/-- The dequantised weights. -/
theorem v19_eq (x2 : (⟨S4096x32, .f32⟩ : BufTy).Contents (Elt Ideal)) (x4 : (⟨S4096x2048, .i32⟩ : BufTy).Contents (Elt Ideal)) :
    val_main_v19 (F := Ideal) x2 x4 = Cert.Spec.deq x4 x2 := by
  funext i
  rw [val_main_v19_apply, val_main_v18_apply, val_main_v15_apply, val_main_v14_apply, val_main_v12_apply,
    val_main_v11_apply, val_main_v13_apply, val_main_cst_apply, val_main_v17_apply, val_main_v16_apply,
    regroup_flatten, joined_at, scale_index]
  rfl

/-- The second product plus the bias: the stage before the final reshape. -/
theorem v24_eq (x0 : (⟨S2x2048x4096, .f32⟩ : BufTy).Contents (Elt Ideal)) (x1 : (⟨S4096x4096, .f32⟩ : BufTy).Contents (Elt Ideal)) (x2 : (⟨S4096x32, .f32⟩ : BufTy).Contents (Elt Ideal)) (x3 : (⟨S4096, .f32⟩ : BufTy).Contents (Elt Ideal)) (x4 : (⟨S4096x2048, .i32⟩ : BufTy).Contents (Elt Ideal)) :
    val_main_v24 (F := Ideal) x0 x1 x2 x3 x4
      = Cert.Spec.mmTb (val_main_v1 (F := Ideal) x0 x1) (val_main_v19 (F := Ideal) x2 x4) (val_main_v22 (F := Ideal) x3) := by
  funext i
  rw [val_main_v24_apply, val_main_v21_apply, val_main_v23_apply]
  generalize val_main_v1 (F := Ideal) x0 x1 = y1
  generalize val_main_v22 (F := Ideal) x3 = b
  have eb : idx_main_v23 i = ix2 (0 : Fin 1) (i 1) :=
    funext fun a => Fin.ext (by match a with | ⟨0, _⟩ => rfl | ⟨1, _⟩ => rfl)
  rw [eb]
  show (∑ k : Fin 4096, y1 (lidx_main_v21 i k) * val_main_v20 (F := Ideal) x2 x4 (ridx_main_v21 i k)) + b (ix2 (0 : Fin 1) (i 1))
    = (∑ k : Fin 4096, y1 (ix2 (i 0) k) * val_main_v19 (F := Ideal) x2 x4 (ix2 (i 1) k)) + b (ix2 (0 : Fin 1) (i 1))
  congr 1
  refine Finset.sum_congr rfl fun k _ => ?_
  rw [val_main_v20_apply]
  generalize val_main_v19 (F := Ideal) x2 x4 = w
  have el : lidx_main_v21 i k = ix2 (i 0) k :=
    funext fun a => Fin.ext (by match a with | ⟨0, _⟩ => rfl | ⟨1, _⟩ => rfl)
  have er : idx_main_v20 (ridx_main_v21 i k) = ix2 (i 1) k :=
    funext fun a => Fin.ext (by match a with | ⟨0, _⟩ => rfl | ⟨1, _⟩ => rfl)
  rw [el, er]
  rfl

end Cert.ReferenceIdeal.RefValue

end
-- ==== Proof.KernelValue.lean ====
/-
  The program's result, over the extended reals, is the reference's result of the same arguments. Walking the fold of
  buffer contents back from the end: the result is the reshape of region 2's output array; that array is the product
  against the transpose, plus the bias row, of what region 2 found — region 0's output array (the product of the
  flattened input with the rotation, as region 0 found them: the reshape of the input argument, and the rotation
  argument), region 1's output array (the dequantisation of the packed words and the scales, both arguments) and the
  reshape of the bias argument to one row. The reference's stages are the same three functions of the same arrays
  (RefValue), its row of the bias a broadcast where the program has a reshape: the same row.
-/
import proofs.«415251_j21182778703901_2_alg».proof.Proof.Args
import proofs.«415251_j21182778703901_2_alg».proof.Proof.RotValue
import proofs.«415251_j21182778703901_2_alg».proof.Proof.DeqValue
import proofs.«415251_j21182778703901_2_alg».proof.Proof.MmValue
import proofs.«415251_j21182778703901_2_alg».proof.Proof.RefValue
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Run

variable (m : (ℓ : Loc nD τ sig) → Buf (Elt Ideal) ℓ) (ρ : Dev nD → PrngReg)

/-! ## The reference's side

Its last stage is the reshape of the product-plus-bias of its own first product, its own dequantised weights and its
own row of the bias; the first two are the specification's functions of the arguments, and the row is the reshape of
the bias vector to one row. -/

/-- A vector broadcast along a new leading unit axis is the vector reshaped to one row: entry (0, o) of either is
    entry o of the vector. -/
theorem bias_row (x3 : (⟨S4096, .f32⟩ : BufTy).Contents (Elt Ideal)) (h : S4096.ShapeCasts S1x4096) :
    Cert.ReferenceIdeal.Read.val_main_v22 (F := Ideal) x3 = shapeCast S1x4096 x3 h := by
  funext i
  have h0 : (i 0).val < 1 := idx2_lt0 i
  rw [Cert.ReferenceIdeal.Read.val_main_v22_apply]
  refine (shapeCast_apply x3 h i (Cert.ReferenceIdeal.Read.idx_main_v22 i) ?_).symm
  rewrite [Shape.rowMajor_val_one, Shape.rowMajor_val_two]
  show (i 1).val = (i 0).val * 4096 + (i 1).val
  omega

/-- The reference's result stage, from the five argument arrays, in the specification's functions. -/
theorem reference_form (x0 : (⟨S2x2048x4096, .f32⟩ : BufTy).Contents (Elt Ideal)) (x1 : (⟨S4096x4096, .f32⟩ : BufTy).Contents (Elt Ideal))
    (x2 : (⟨S4096x32, .f32⟩ : BufTy).Contents (Elt Ideal)) (x3 : (⟨S4096, .f32⟩ : BufTy).Contents (Elt Ideal))
    (x4 : (⟨S4096x2048, .i32⟩ : BufTy).Contents (Elt Ideal)) :
    Cert.ReferenceIdeal.Read.val_main_v25 (F := Ideal) x0 x1 x2 x3 x4
      = shapeCast S2x2048x4096
          (Cert.Spec.mmTb (Cert.Spec.mm (shapeCast S4096x4096 x0 shapeCasts_S2x2048x4096_S4096x4096) x1) (Cert.Spec.deq x4 x2)
            (shapeCast S1x4096 x3 shapeCasts_S4096_S1x4096))
          shapeCasts_S4096x4096_S2x2048x4096 := by
  unfold Cert.ReferenceIdeal.Read.val_main_v25
  rw [Cert.ReferenceIdeal.RefValue.v24_eq, Cert.ReferenceIdeal.RefValue.v1_eq, Cert.ReferenceIdeal.RefValue.v19_eq,
    bias_row x3 shapeCasts_S4096_S1x4096]
  rfl

/-! ## The program's side: the fold of buffer contents walked back from the end -/

/-- At the end the result buffer is the reshape of what region 2 left in its output array. -/
theorem end_result (c : Dev nD) :
    W6 (F := Ideal) m ρ c (Proc.devRef .tc main_v5)
      = shapeCast S2x2048x4096 (W5 (F := Ideal) m ρ c (Proc.devRef .tc main_v4)) shapeCasts_S4096x4096_S2x2048x4096 := by
  show StableHlo.after hostOps3 _ (Proc.devRef .tc main_v5) = _
  after_results
  rfl

/-- Region 0 finds, as its left factor, the reshape of the input argument. -/
theorem entry0_left (c : Dev nD) :
    V1 (F := Ideal) m ρ c main_v0
      = shapeCast S4096x4096 (m ((c : Thread nD τ).loc main_arg0)) shapeCasts_S2x2048x4096_S4096x4096 := by
  show StableHlo.after hostOps0 _ (Proc.devRef .tc main_v0) = _
  after_results
  rfl

/-- Region 0 finds, as its right factor, the rotation argument. -/
theorem entry0_right (c : Dev nD) : V1 (F := Ideal) m ρ c main_arg1 = m ((c : Thread nD τ).loc main_arg1) :=
  (W1_of m ρ c main_arg1 (by decide)).trans rfl

/-- Region 1 finds the packed words as launched. -/
theorem entry1_words (c : Dev nD) : V2 (F := Ideal) m ρ c main_arg4 = m ((c : Thread nD τ).loc main_arg4) :=
  (W2_of_ne m ρ c main_arg4 (by decide)).trans <| (W1_of m ρ c main_arg4 (by decide)).trans rfl

/-- Region 1 finds the scales as launched. -/
theorem entry1_scales (c : Dev nD) : V2 (F := Ideal) m ρ c main_arg2 = m ((c : Thread nD τ).loc main_arg2) :=
  (W2_of_ne m ρ c main_arg2 (by decide)).trans <| (W1_of m ρ c main_arg2 (by decide)).trans rfl

/-- Region 2 finds, as its activations, what region 0 left: the product of the flattened input with the rotation. -/
theorem entry2_act (c : Dev nD) :
    V4 (F := Ideal) m ρ c main_v1
      = Cert.Spec.mm (shapeCast S4096x4096 (m ((c : Thread nD τ).loc main_arg0)) shapeCasts_S2x2048x4096_S4096x4096)
          (m ((c : Thread nD τ).loc main_arg1)) := by
  have e : V4 (F := Ideal) m ρ c main_v1 = (Cert.KernelIdeal.Rot.dat (F := Ideal) (V1 m ρ) c).arrAt 2 cfg0.N :=
    (W4_of m ρ c main_v1 (by decide)).trans <| (W3_of_ne m ρ c main_v1 (by decide)).trans (W2_arr m ρ c 2)
  rw [e, Cert.KernelIdeal.RotValue.final, entry0_left, entry0_right]

/-- Region 2 finds, as its weights, what region 1 left: the dequantisation of the packed words and the scales. -/
theorem entry2_weights (c : Dev nD) :
    V4 (F := Ideal) m ρ c main_v2
      = Cert.Spec.deq (m ((c : Thread nD τ).loc main_arg4)) (m ((c : Thread nD τ).loc main_arg2)) := by
  have e : V4 (F := Ideal) m ρ c main_v2 = (Cert.KernelIdeal.Deq.dat (F := Ideal) (V2 m ρ) c).arrAt 2 cfg1.N :=
    (W4_of m ρ c main_v2 (by decide)).trans (W3_arr m ρ c 2)
  rw [e, Cert.KernelIdeal.DeqValue.final, entry1_words, entry1_scales]

/-- The bias argument reaches region 1's exit as launched. -/
theorem bias_kept (c : Dev nD) : W3 (F := Ideal) m ρ c (Proc.devRef .tc main_arg3) = m ((c : Thread nD τ).loc main_arg3) :=
  (W3_of_ne m ρ c main_arg3 (by decide)).trans <| (W2_of_ne m ρ c main_arg3 (by decide)).trans <|
    (W1_of m ρ c main_arg3 (by decide)).trans rfl

/-- Region 2 finds, as its bias row, the reshape of the bias argument to one row. -/
theorem entry2_bias (c : Dev nD) :
    V4 (F := Ideal) m ρ c main_v3 = shapeCast S1x4096 (m ((c : Thread nD τ).loc main_arg3)) shapeCasts_S4096_S1x4096 := by
  have e : V4 (F := Ideal) m ρ c main_v3
      = shapeCast S1x4096 (W3 (F := Ideal) m ρ c (Proc.devRef .tc main_arg3)) shapeCasts_S4096_S1x4096 := by
    show StableHlo.after hostOps2 _ (Proc.devRef .tc main_v3) = _
    after_results
    rfl
  rw [e, bias_kept]

/-- Region 2 leaves, in its output array, the product-plus-bias of those three. -/
theorem exit2_out (c : Dev nD) :
    W5 (F := Ideal) m ρ c (Proc.devRef .tc main_v4)
      = Cert.Spec.mmTb
          (Cert.Spec.mm (shapeCast S4096x4096 (m ((c : Thread nD τ).loc main_arg0)) shapeCasts_S2x2048x4096_S4096x4096)
            (m ((c : Thread nD τ).loc main_arg1)))
          (Cert.Spec.deq (m ((c : Thread nD τ).loc main_arg4)) (m ((c : Thread nD τ).loc main_arg2)))
          (shapeCast S1x4096 (m ((c : Thread nD τ).loc main_arg3)) shapeCasts_S4096_S1x4096) := by
  have e : W5 (F := Ideal) m ρ c (Proc.devRef .tc main_v4)
      = Cert.Spec.mmTb (V4 (F := Ideal) m ρ c main_v1) (V4 (F := Ideal) m ρ c main_v2) (V4 (F := Ideal) m ρ c main_v3) :=
    (W5_arr m ρ c 3).trans (Cert.KernelIdeal.MmValue.final (V4 m ρ) c)
  rw [e, entry2_act, entry2_weights, entry2_bias]

/-- The result buffer at the end of the fold is the reference's result stage of the five argument arrays. -/
theorem result (c : Dev nD) :
    W6 (F := Ideal) m ρ c (Proc.devRef .tc main_v5)
      = Cert.ReferenceIdeal.Read.val_main_v25 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [end_result, exit2_out, reference_form]

end Cert.KernelIdeal.KernelValue

end
-- ==== Proof.lean ====
/-
  The certificate's claims. The program is three kernel regions between reshapes: a blocked matrix product of the
  flattened input with the rotation, a dequantisation pass over the packed 4-bit weights, and a blocked product
  of the rotated activations with the transposed weights plus the bias. Both printed forms of it (the word-level
  one and the one read over the extended reals) run to the end, nothing faulting, with every unscoped buffer at
  the last term of one fold of buffer contents (Run): the five arguments as launched (Args), and, over the extended
  reals, the result buffer at the reference's own result stage of the arguments (KernelValue: each region's output
  array is one whole-array function of what the region found — the blocked sums regrouped, which needs only that
  addition of extended reals is associative and commutative — and the reference's stages are the same functions).
  The reference is its generated run. The idealization rewrote nothing, so it preserves the program trivially.
-/
import proofs.«415251_j21182778703901_2_alg».proof.Defs
import proofs.«415251_j21182778703901_2_alg».proof.Proof.Gen.Kernel
import proofs.«415251_j21182778703901_2_alg».proof.Proof.Gen.KernelIdeal
import proofs.«415251_j21182778703901_2_alg».proof.Proof.Gen.ReferenceIdeal
import proofs.«415251_j21182778703901_2_alg».proof.Proof.Gen.Pre_finite_inputs
import proofs.«415251_j21182778703901_2_alg».proof.Proof.Gen.ReferenceIdeal.Run
import proofs.«415251_j21182778703901_2_alg».proof.Proof.BArgs
import proofs.«415251_j21182778703901_2_alg».proof.Proof.Args
import proofs.«415251_j21182778703901_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the reference's result stage of arguments that agree. -/
theorem algebraic : Cert.algebraic_KernelIdeal_ReferenceIdeal := by
  intro m ρ m' ρ' _ hagree
  refine ⟨fun c => Cert.ReferenceIdeal.Read.val_main_v25 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c =>
      ⟨(h c _ (Cert.KernelIdeal.Run.mem_uc Cert.KernelIdeal.main_v5 (by decide))).trans (Cert.KernelIdeal.KernelValue.result m ρ c),
       (h c _ (Cert.KernelIdeal.Run.mem_uc Cert.KernelIdeal.main_arg0 (by decide))).trans (Cert.KernelIdeal.Run.W6_main_arg0 m ρ c),
       (h c _ (Cert.KernelIdeal.Run.mem_uc Cert.KernelIdeal.main_arg1 (by decide))).trans (Cert.KernelIdeal.Run.W6_main_arg1 m ρ c),
       (h c _ (Cert.KernelIdeal.Run.mem_uc Cert.KernelIdeal.main_arg2 (by decide))).trans (Cert.KernelIdeal.Run.W6_main_arg2 m ρ c),
       (h c _ (Cert.KernelIdeal.Run.mem_uc Cert.KernelIdeal.main_arg3 (by decide))).trans (Cert.KernelIdeal.Run.W6_main_arg3 m ρ c),
       (h c _ (Cert.KernelIdeal.Run.mem_uc Cert.KernelIdeal.main_arg4 (by decide))).trans (Cert.KernelIdeal.Run.W6_main_arg4 m ρ c)⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
